-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S3072x1024 : Shape := ⟨2, ![3072, 1024]⟩
abbrev S1024x3072 : Shape := ⟨2, ![1024, 3072]⟩
abbrev S512x1024 : Shape := ⟨2, ![512, 1024]⟩
abbrev S512x3072 : Shape := ⟨2, ![512, 3072]⟩
abbrev S1x512x1024 : Shape := ⟨3, ![1, 512, 1024]⟩
abbrev S1x1024x1024 : Shape := ⟨3, ![1, 1024, 1024]⟩
abbrev S512x1 : Shape := ⟨2, ![512, 1]⟩
abbrev S512 : Shape := ⟨1, ![512]⟩

abbrev nBuf : Space → Nat
  | .hbm => 15
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S3072x1024, .f32⟩
  | .hbm, ⟨6, _⟩ => ⟨S1024x3072, .f32⟩
  | .hbm, ⟨7, _⟩ => ⟨S1024x3072, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S8x2048x1024, .bf16⟩
  | .hbm, ⟨12, _⟩ => ⟨S8x2048x1024, .bf16⟩
  | .hbm, ⟨13, _⟩ => ⟨S8x2048x1024, .bf16⟩
  | .hbm, ⟨14, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 2], ![false, false, false]⟩

def k1_cond3 (i : grid1.Coords) : BitVec 1 :=
  let arg2 : BitVec 32 := BitVec.ofNat 32 (i 2).val
  let c1_i32_2 : BitVec 32 := 1#32
  let v9 : BitVec 1 := Scalar.cmpi .eq arg2 c1_i32_2
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x1024_S16384x1024 : S8x2048x1024.ShapeCasts S16384x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S16384x1024_S8x2048x1024 : S16384x1024.ShapeCasts S8x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .bf16 = 32 ∨ (Rect.block (s := S16384x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x1024.size a
  hwx1_1 : ∀ i : grid1.Coords, EltTy.bits .bf16 = 32 ∨ (Rect.block (s := S8x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x1024.size a
  hwx1_2 : ∀ i : grid1.Coords, EltTy.bits .bf16 = 32 ∨ (Rect.block (s := S8x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩
abbrev S8x2048x2048 : Shape := ⟨3, ![8, 2048, 2048]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .i1⟩
  | .hbm, ⟨14, _⟩ => ⟨S2048x2048, .i1⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .i1⟩
  | .hbm, ⟨22, _⟩ => ⟨S2048x2048, .i1⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v8 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KReg0.lean ====
import proofs.«418402_j22917945491929_3_alg».proof.Proof.Gen.Kernel.Launch
import proofs.«418402_j22917945491929_3_alg».proof.Proof.Gen.Kernel.Skeleton
import proofs.«418402_j22917945491929_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection call: one row tile of `x` against the stacked weights

The first call walks the 16384 rows of `x` in 32 tiles of 512 rows. At tile `t` it holds

* the tile `X_t` of `x`, 512 × 1024 in f32 (window 0, a new block at every point), and
* the whole stacked weight matrix `W = [Wq | Wk | Wv]ᵀ`, 1024 × 3072 in bf16 (window 1, brought in once,
  at the first point, and kept: its block index never moves),

rounds `X_t` to bf16, forms the product `P_t = X_t · W` (512 × 3072, accumulated in f32 from zero), and leaves in
the three result tiles (windows 2, 3, 4) the three column panels `P_t[:, 0:1024]`, `P_t[:, 1024:2048]`,
`P_t[:, 2048:3072]`, each rounded to bf16. Every result tile is overwritten whole, so what it held before does
not matter, and what it holds afterwards is a function of `X_t` and `W` alone.

Everything below is stated at a parameter `V`, the contents of the core's buffers when the call is entered.
-/

-- membership of an index in a 512 × 1024 or 1024 × 3072 rectangle is looked at one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Projection

variable (V : (c : Dev nD) → (b : Ref sig .tc) → Buf (Elt F) ((c : Thread nD τ).loc b))

/-! ## The blocks the windows show -/

/-- The block of window `w` at tile `t`, cut out of the window's array as the call finds it. For window 0 this
    is the row tile `X_t`; for window 1 it is all of `W`, whatever `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile is in its buffer at every tile. It is brought in afresh each time; the statement is for any proof
    data that reads `x` off `V` and whose body leaves the tile where it was. -/
theorem rowTile_held {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights are in their buffer at every tile, although they are brought in at the first only: from then on the
    block index stands still, the body does not write the buffer, and what was there stays. -/
theorem weights_held {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two rectangles the body touches -/

/-- All of a 512 × 1024 tile: the row tile is read through it, and each result tile is written through it. -/
abbrev tileAll : Rect S512x1024 := Rect.unit (s := S512x1024) ![0, 0] S512x1024.size inb_S512x1024_S512x1024_0_0

/-- All of the 1024 × 3072 weight matrix. -/
abbrev weightsAll : Rect S1024x3072 := Rect.unit (s := S1024x3072) ![0, 0] S1024x3072.size inb_S1024x3072_S1024x3072_0_0

/-! ## What the body leaves in the three result tiles -/

/-- The first result tile after the body: the bf16 rounding of the columns 0 … 1023 of `X_t · W`, laid over the
    whole tile by the one store the body makes there. -/
def out0_2 (x0 : Vec F S512x1024 .f32) (x1 : Vec F S1024x3072 .bf16) : Vec F S512x1024 .bf16 :=
  View.canon [⟨tileAll, k0_pay2 (View.ld x0 tileAll) (View.ld x1 weightsAll)⟩]

/-- The second: the columns 1024 … 2047. -/
def out0_3 (x0 : Vec F S512x1024 .f32) (x1 : Vec F S1024x3072 .bf16) : Vec F S512x1024 .bf16 :=
  View.canon [⟨tileAll, k0_pay3 (View.ld x0 tileAll) (View.ld x1 weightsAll)⟩]

/-- The third: the columns 2048 … 3071. -/
def out0_4 (x0 : Vec F S512x1024 .f32) (x1 : Vec F S1024x3072 .bf16) : Vec F S512x1024 .bf16 :=
  View.canon [⟨tileAll, k0_pay4 (View.ld x0 tileAll) (View.ld x1 weightsAll)⟩]

/-- One store through `tileAll` reaches every index of the tile, whatever is stored. -/
theorem tileAll_covers (p : tileAll.shape.Idx → Elt F .bf16) (y : S512x1024.Idx) :
    ∃ pc ∈ ([⟨tileAll, p⟩] : List (View.Piece (Elt F) S512x1024 .bf16)), y ∈ pc.1.set :=
  View.cover_of_tiled [⟨tileAll, p⟩] S512x1024.size (by rfl) y

/-! ## The body on whole tiles -/

set_option maxHeartbeats 1000000 in
/-- Run on five whole buffers — the first holding a row tile `x0`, the second the weights `x1`, the other three
    anything —, the body ends with the first two as they were and the other three holding the three rounded column
    panels of the product (`out0_2`, `out0_3`, `out0_4` of `x0` and `x1`). It reads the old contents of the result
    tiles before it overwrites them, and uses none of what it read; the tile's coordinate `i` is not used either. -/
theorem proj_body_runs (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (tileAll_covers _)
  isplitl [H3]
  · iexists _; isplitr
    swap; · iexact H3
    ipureintro
    exact View.read_writes_eq_canon _ _ _ (tileAll_covers _)
  iexists _; isplitr
  swap; · iexact H4
  ipureintro
  exact View.read_writes_eq_canon _ _ _ (tileAll_covers _)

/-! ## The proof data of the call -/

/-- The proof data of the call on core `c`. The arrays are as the call finds them (`V`). After the body at tile `t`
    the two input buffers still hold their blocks — the row tile `X_t` and the weights `W` — and the three result
    buffers hold the three rounded column panels of `X_t · W`. The invariant is the untouched rest of the core
    (its other scoped buffers and its generator register); every share is whole and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- The input buffers hold their blocks when the body is called, at every tile. -/
theorem before0_0 (c : Dev nD) (t : Fin cfg0.N) (d) : (dat0 V c).before 0 t d = iblk0 V c 0 t :=
  rowTile_held V (dat0 V c) (A_eq0 V c 0) (after0_0 V c) t d
theorem before0_1 (c : Dev nD) (t : Fin cfg0.N) (d) : (dat0 V c).before 1 t d = iblk0 V c 1 t :=
  weights_held V (dat0 V c) (A_eq0 V c 1) (after0_1 V c) t d

/-! ## The obligation at a tile -/

/-- What the body is handed at tile `t`: the invariant, the core's debts, and the five current buffers, the inputs'
    holding their blocks and the results' holding whatever the pipeline left there; -/
def tileEntry (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back: the same invariant and debts, and the five buffers at what the proof data says. -/
def tileExit (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at tile `t` takes the one to the other: its inputs hold `X_t` and `W`, so `proj_body_runs` applies; the
    invariant and the debts are not looked at. -/
theorem tile_runs (c : Dev nD) (t : Fin cfg0.N) :
    tileEntry V c t ⊢ wp frame (wpE (defs₀ (F := F)) Variants.none c none) Set.univ (bodyAt0 t) (fun _ => tileExit V c t) := by
  unfold tileEntry tileExit bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (proj_body_runs c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets what the pipeline asks of it at every tile. -/
theorem body_obligation0 (c : Dev nD) : BodyObligation (dat0 (F := F) V c) (defs₀ (F := F)) Variants.none () Set.univ := fun t => by
  rw [bigSep_W0, bigSep_W0]
  exact tile_runs V c t

end Projection

end Cert.Kernel.Hand

end
-- ==== Proof.KReg1.lean ====
import proofs.«418402_j22917945491929_3_alg».proof.Proof.Gen.Kernel.Launch
import proofs.«418402_j22917945491929_3_alg».proof.Proof.Gen.Kernel.Skeleton
import proofs.«418402_j22917945491929_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Causal attention by the online-softmax recurrence, as one pipelined region over a grid of 8 × 4 × 2 points.

For a query tile `qi` of 512 rows of batch `b` the kernel walks the two key/value tiles `ki = 0, 1` of 1024 rows and
carries three quantities between the two steps: the running row maximum `m`, the running denominator `l` and the
running numerator `acc`. At `ki = 0` they are reset; each tile that meets the causal triangle
(`ki · 1024 < (qi + 1) · 512`) updates them; at `ki = 1` the output tile is computed from `acc` and `l`. A tile
wholly above the triangle is skipped and its block index is clamped, so the key/value buffers then still hold the
block of the step before.

Every value stored is one of the payloads of the generated skeleton, and this file never unfolds a payload: it
proves WHICH payload, applied to WHICH blocks and carried values, each buffer holds after each point — not what
the payloads compute. For orientation only (a reading of their definitions, established nowhere below): the reset
stores `-∞`, `0`, `0`; the update is `m' = max(m, rowmax s)`, `l' = e^{m - m'} · l + rowsum e^{s - m'}`,
`acc' = e^{m - m'} · acc + bf16(e^{s - m'}) · v` for the masked scaled scores `s`; the output tile is `acc / l`
row by row.

Stated here: what the three carried buffers hold after every point (`scAt1`, by recursion on the point), what
the output tile receives (`out1_3`), the region's proof data (`dat1`) with its invariant between points
(`PhiS1`), the body's triple in each of the three control cases that occur over the grid, and from them the body
obligation at every point (`body_obligation1`) — all at a parameter `V`, the buffer contents the region finds at
its entry.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle -/

section Whole

variable {sg : RefSig} {κ : Kind} {sp : Space} {s : Shape} {e : EltTy} {Val : EltTy → Type}

/-- A unit-stride rectangle as large as the shape starts at the origin, so it places each index at itself. -/
theorem idx_unit_full {off : Fin s.rank → ℕ} (inb : ∀ a, off a + s.size a ≤ s.size a)
    (x : (Rect.unit (s := s) off s.size inb).shape.Idx) (a : Fin s.rank) :
    ((Rect.unit (s := s) off s.size inb).toLoadRect.idx x a : ℕ) = (x a : ℕ) := by
  have := inb a
  simp only [LoadRect.idx_apply, Rect.off_unit, Rect.stride_unit]; omega

/-- A load through it reads the view's whole contents. -/
theorem readAt_full (v : View sg κ sp s e) {off : Fin s.rank → ℕ} (inb : ∀ a, off a + s.size a ≤ s.size a)
    (f : v.ty.Contents Val) :
    v.readAt Val (Rect.unit (s := s) off s.size inb).toLoadRect f = v.read Val f := by
  funext x
  show v.read Val f ((Rect.unit (s := s) off s.size inb).toLoadRect.idx x) = v.read Val f x
  congr 1; funext a; exact Fin.ext (idx_unit_full inb x a)

/-- A store through it leaves the payload, whatever was there. -/
theorem read_writes_full (v : View sg κ sp s e) (f : v.ty.Contents Val) {off : Fin s.rank → ℕ}
    (inb : ∀ a, off a + s.size a ≤ s.size a) (p : s.Idx → Val e) (L : List (View.Piece Val s e)) :
    v.read Val (v.writes Val f (⟨Rect.unit (s := s) off s.size inb, p⟩ :: L)) = p := by
  funext y
  have hy : y ∈ (Rect.unit (s := s) off s.size inb).set :=
    Rect.mem_set_unit.mpr fun a => ⟨by have := inb a; omega, by have := inb a; have := (y a).isLt; omega⟩
  obtain ⟨x, rfl⟩ := (Rect.unit (s := s) off s.size inb).exists_idx_of_mem hy
  have hx : (Rect.unit (s := s) off s.size inb).emb x = x := funext fun a => Fin.ext (idx_unit_full inb x a)
  show v.read Val (v.writes Val f (⟨Rect.unit (s := s) off s.size inb, p⟩ :: L)) ((Rect.unit (s := s) off s.size inb).emb x) = p ((Rect.unit (s := s) off s.size inb).emb x)
  rw [View.read_writes_cons_emb, hx]

end Whole

/-! ## The body's three conditions, in closed form over the grid -/

/-- `ki = 0`: the first key/value tile of a query tile (the state is reset). -/
abbrev cond1_0 (i : grid1.Coords) : Prop :=
  (Scalar.cmpi .ne (Scalar.extui (Scalar.cmpi .eq (BitVec.ofNat 32 (i 2).val) 0#32)) 0#32) = 1#1
/-- `ki · 1024 < (qi + 1) · 512` as signed words: the key/value tile meets the causal triangle. -/
abbrev cond1_1 (i : grid1.Coords) : Prop :=
  (Scalar.cmpi .ne (Scalar.extui (Scalar.cmpi .slt (Scalar.muli (BitVec.ofNat 32 (i 2).val) 1024#32)
    (Scalar.muli (Scalar.addi (BitVec.ofNat 32 (i 1).val) 1#32) 512#32))) 0#32) = 1#1
/-- `ki = 1`: the last key/value tile (the output tile is finalized). -/
abbrev cond1_2 (i : grid1.Coords) : Prop := k1_cond3 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ (t.val % 2 = 0 ∨ 2 ≤ (t.val / 2) % 4) :=
  (by decide +kernel : ∀ t : Fin grid1.N, cond1_1 (grid1.coords t) ↔ (t.val % 2 = 0 ∨ 2 ≤ (t.val / 2) % 4))
theorem hcond1_2 : ∀ t : Fin cfg1.N, cond1_2 (grid1.coords t) ↔ t.val % 2 = 1 :=
  (by decide +kernel : ∀ t : Fin grid1.N, cond1_2 (grid1.coords t) ↔ t.val % 2 = 1)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from `ki = 1` the output window is idle and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At `ki = 1` it is live. -/
theorem liveAt1_3 : ∀ t : Fin cfg1.N, cond1_2 (grid1.coords t) → cfg1.idle 3 (grid1.coords t) = false := by decide +kernel

/-! ## The body's triple, case by case

Over the grid exactly three assignments of the conditions occur. Each triple is stated over arbitrary whole
memrefs and contents: the inputs' buffers at `q`, `k`, `v`; the carried buffers at `m`, `l`, `acc` (at anything
where the case overwrites them before reading); the stored values are the skeleton's payloads. -/

set_option maxHeartbeats 2000000 in
/-- `ki = 0`: the reset, the update by the first tile, no finalize; the output tile's buffer is handed back as found. -/
theorem sound_kernel1_A (c : Dev nD) (E : Set ℕ) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1024 .f32) (harg9 : arg9.IsWhole)
    (hc0 : cond1_0 i) (hc1 : cond1_1 i) (hc2 : ¬cond1_2 i)
    (q : Vec F S1x512x1024 .bf16) (k : Vec F S1x1024x1024 .bf16) (v : Vec F S1x1024x1024 .bf16)
    (xo : Vec F S1x512x1024 .f32)
    (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare (k1_pay5 (k1_pay9 (BitVec.ofNat 32 (i 1).val) (BitVec.ofNat 32 (i 2).val) q k k1_pay1))
            ∗ owns (c : Thread nD τ) arg8 fullShare (k1_pay12 (BitVec.ofNat 32 (i 1).val) (BitVec.ofNat 32 (i 2).val) q k k1_pay1 k1_pay2)
            ∗ owns (c : Thread nD τ) arg9 fullShare (k1_pay4 (k1_pay7 v) (k1_pay10 (BitVec.ofNat 32 (i 1).val) (BitVec.ofNat 32 (i 2).val) q k k1_pay1) (k1_pay11 (BitVec.ofNat 32 (i 1).val) (BitVec.ofNat 32 (i 2).val) q k k1_pay1) k1_pay3)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3 hf4 hf5 hf6
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    delta sound_kernel1_A.sl.r_1 sound_kernel1_A.sl.v33 sound_kernel1_A.sl.H7_1
    repeat (first | rw [read_writes_full] | rw [readAt_full] | rw [View.readCov_cons_toLoadRect])
  isplitl [H8]
  · iexists _; isplitr
    swap; · iexact H8
    ipureintro
    delta sound_kernel1_A.sl.r_4 sound_kernel1_A.sl.v33 sound_kernel1_A.sl.v42 sound_kernel1_A.sl.H7_1 sound_kernel1_A.sl.H8_1
    repeat (first | rw [read_writes_full] | rw [readAt_full] | rw [View.readCov_cons_toLoadRect])
  iexists _; isplitr
  swap; · iexact H9
  ipureintro
  delta sound_kernel1_A.sl.r sound_kernel1_A.sl.r_2 sound_kernel1_A.sl.r_3 sound_kernel1_A.sl.v33 sound_kernel1_A.sl.v50 sound_kernel1_A.sl.H7_1 sound_kernel1_A.sl.H9_1
  repeat (first | rw [read_writes_full] | rw [readAt_full] | rw [View.readCov_cons_toLoadRect])

set_option maxHeartbeats 2000000 in
/-- `ki = 1`, the second tile meets the causal triangle: no reset, the update, the finalize. -/
theorem sound_kernel1_B (c : Dev nD) (E : Set ℕ) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1024 .f32) (harg9 : arg9.IsWhole)
    (hc0 : ¬cond1_0 i) (hc1 : cond1_1 i) (hc2 : cond1_2 i)
    (q : Vec F S1x512x1024 .bf16) (k : Vec F S1x1024x1024 .bf16) (v : Vec F S1x1024x1024 .bf16)
    (m : Vec F S512x1 .f32) (l : Vec F S512x1 .f32) (acc : Vec F S512x1024 .f32)
    (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare m ∗ owns (c : Thread nD τ) arg8 fullShare l ∗ owns (c : Thread nD τ) arg9 fullShare acc
        ∗ (iprop(owns (c : Thread nD τ) arg3 fullShare q ∗ owns (c : Thread nD τ) arg4 fullShare k ∗ owns (c : Thread nD τ) arg5 fullShare v
            ∗ owns (c : Thread nD τ) arg6 fullShare (k1_pay6 (k1_pay4 (k1_pay7 v) (k1_pay10 (BitVec.ofNat 32 (i 1).val) (BitVec.ofNat 32 (i 2).val) q k m) (k1_pay11 (BitVec.ofNat 32 (i 1).val) (BitVec.ofNat 32 (i 2).val) q k m) acc) (k1_pay12 (BitVec.ofNat 32 (i 1).val) (BitVec.ofNat 32 (i 2).val) q k m l))
            ∗ owns (c : Thread nD τ) arg7 fullShare (k1_pay5 (k1_pay9 (BitVec.ofNat 32 (i 1).val) (BitVec.ofNat 32 (i 2).val) q k m))
            ∗ owns (c : Thread nD τ) arg8 fullShare (k1_pay12 (BitVec.ofNat 32 (i 1).val) (BitVec.ofNat 32 (i 2).val) q k m l)
            ∗ owns (c : Thread nD τ) arg9 fullShare (k1_pay4 (k1_pay7 v) (k1_pay10 (BitVec.ofNat 32 (i 1).val) (BitVec.ofNat 32 (i 2).val) q k m) (k1_pay11 (BitVec.ofNat 32 (i 1).val) (BitVec.ofNat 32 (i 2).val) q k m) acc)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    delta sound_kernel1_B.sl.v12 sound_kernel1_B.sl.v13 sound_kernel1_B.sl.H8_1 sound_kernel1_B.sl.H9_1 sound_kernel1_B.sl.r sound_kernel1_B.sl.r_2 sound_kernel1_B.sl.r_3 sound_kernel1_B.sl.r_4
    repeat (first | rw [read_writes_full] | rw [readAt_full] | rw [View.readCov_cons_toLoadRect])
  isplitl [H7]
  · iexists _; isplitr
    swap; · iexact H7
    ipureintro
    delta sound_kernel1_B.sl.r_1
    repeat (first | rw [read_writes_full] | rw [readAt_full] | rw [View.readCov_cons_toLoadRect])
  isplitl [H8]
  · iexists _; isplitr
    swap; · iexact H8
    ipureintro
    delta sound_kernel1_B.sl.H8_1 sound_kernel1_B.sl.r_4
    repeat (first | rw [read_writes_full] | rw [readAt_full] | rw [View.readCov_cons_toLoadRect])
  iexists _; isplitr
  swap; · iexact H9
  ipureintro
  delta sound_kernel1_B.sl.H9_1 sound_kernel1_B.sl.r sound_kernel1_B.sl.r_2 sound_kernel1_B.sl.r_3
  repeat (first | rw [read_writes_full] | rw [readAt_full] | rw [View.readCov_cons_toLoadRect])

set_option maxHeartbeats 2000000 in
/-- `ki = 1`, the second tile lies wholly above the causal triangle: only the finalize runs. -/
theorem sound_kernel1_C (c : Dev nD) (E : Set ℕ) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1024 .f32) (harg9 : arg9.IsWhole)
    (hc0 : ¬cond1_0 i) (hc1 : ¬cond1_1 i) (hc2 : cond1_2 i)
    (q : Vec F S1x512x1024 .bf16) (k : Vec F S1x1024x1024 .bf16) (v : Vec F S1x1024x1024 .bf16)
    (m : Vec F S512x1 .f32) (l : Vec F S512x1 .f32) (acc : Vec F S512x1024 .f32)
    (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare m ∗ owns (c : Thread nD τ) arg8 fullShare l ∗ owns (c : Thread nD τ) arg9 fullShare acc
        ∗ (iprop(owns (c : Thread nD τ) arg3 fullShare q ∗ owns (c : Thread nD τ) arg4 fullShare k ∗ owns (c : Thread nD τ) arg5 fullShare v
            ∗ owns (c : Thread nD τ) arg6 fullShare (k1_pay6 acc l)
            ∗ owns (c : Thread nD τ) arg7 fullShare m ∗ owns (c : Thread nD τ) arg8 fullShare l ∗ owns (c : Thread nD τ) arg9 fullShare acc) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    repeat (first | rw [read_writes_full] | rw [readAt_full] | rw [View.readCov_cons_toLoadRect])
  isplitl [H7]
  · iexists f7; isplitr; · ipureintro; rfl
    iexact H7
  isplitl [H8]
  · iexists f8; isplitr; · ipureintro; rfl
    iexact H8
  iexists f9; isplitr; · ipureintro; rfl
  iexact H9

/-! # Region 1: causal flash attention over a grid of 8 × 4 × 2 points

The point `t = 8·b + 2·qi + ki` works on query tile `qi` of batch `b` against key/value tile `ki`. The running
row maximum `m`, the running denominator `l` and the running numerator `acc` live in three scratch buffers carried
from point to point; the output tile is written only at `ki = 1`. -/

section Region1

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried state (m, l, acc) point by point -/

/-- The scratch state `(m, l, acc)` after the body at position `n`. At `ki = 0` the state is reset to
    `(-∞, 0, 0)` and updated by the first key/value tile; at `ki = 1` it is updated by the second tile when that
    tile meets the causal triangle (`qi ≥ 2`) and left alone otherwise. -/
def scAt1 (c : Dev nD) : (n : ℕ) → n < cfg1.N → Vec F S512x1 .f32 × Vec F S512x1 .f32 × Vec F S512x1024 .f32
  | 0, hn =>
    (k1_pay5 (k1_pay9 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1),
     k1_pay12 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1 k1_pay2,
     k1_pay4 (k1_pay7 (iblk1 V c 2 ⟨0, hn⟩))
       (k1_pay10 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1)
       (k1_pay11 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1)
       k1_pay3)
  | n + 1, hn =>
    if h0 : (n + 1) % 2 = 0 then
      (k1_pay5 (k1_pay9 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1),
       k1_pay12 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1 k1_pay2,
       k1_pay4 (k1_pay7 (iblk1 V c 2 ⟨n + 1, hn⟩))
         (k1_pay10 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1)
         (k1_pay11 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1)
         k1_pay3)
    else if h1 : 2 ≤ ((n + 1) / 2) % 4 then
      (k1_pay5 (k1_pay9 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1),
       k1_pay12 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1 (scAt1 c n (Nat.lt_of_succ_lt hn)).2.1,
       k1_pay4 (k1_pay7 (iblk1 V c 2 ⟨n + 1, hn⟩))
         (k1_pay10 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1)
         (k1_pay11 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1)
         (scAt1 c n (Nat.lt_of_succ_lt hn)).2.2)
    else scAt1 c n (Nat.lt_of_succ_lt hn)

/-- At a point with `ki = 0`: the reset state updated by the first key/value tile. -/
theorem scAt1_A (c : Dev nD) (t : Fin cfg1.N) (h0 : t.val % 2 = 0) :
    scAt1 V c t.val t.isLt =
      (k1_pay5 (k1_pay9 (BitVec.ofNat 32 (grid1.coords t 1).val) (BitVec.ofNat 32 (grid1.coords t 2).val) (iblk1 V c 0 t) (iblk1 V c 1 t) k1_pay1),
       k1_pay12 (BitVec.ofNat 32 (grid1.coords t 1).val) (BitVec.ofNat 32 (grid1.coords t 2).val) (iblk1 V c 0 t) (iblk1 V c 1 t) k1_pay1 k1_pay2,
       k1_pay4 (k1_pay7 (iblk1 V c 2 t))
         (k1_pay10 (BitVec.ofNat 32 (grid1.coords t 1).val) (BitVec.ofNat 32 (grid1.coords t 2).val) (iblk1 V c 0 t) (iblk1 V c 1 t) k1_pay1)
         (k1_pay11 (BitVec.ofNat 32 (grid1.coords t 1).val) (BitVec.ofNat 32 (grid1.coords t 2).val) (iblk1 V c 0 t) (iblk1 V c 1 t) k1_pay1)
         k1_pay3) := by
  obtain ⟨n, hn⟩ := t
  cases n with
  | zero => exact rfl
  | succ n => exact (dif_pos h0).trans rfl

/-- At a point with `ki = 1` whose second tile meets the causal triangle: the state the point before left,
    updated by that tile. -/
theorem scAt1_B (c : Dev nD) (t : Fin cfg1.N) (h0 : t.val % 2 = 1) (h1 : 2 ≤ (t.val / 2) % 4) :
    scAt1 V c t.val t.isLt =
      (k1_pay5 (k1_pay9 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1),
       k1_pay12 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1 (scAt1 V c (t.val - 1) (Nat.lt_of_le_of_lt (Nat.sub_le _ _) t.isLt)).2.1,
       k1_pay4 (k1_pay7 (iblk1 V c 2 t))
         (k1_pay10 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1)
         (k1_pay11 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1)
         (scAt1 V c (t.val - 1) (Nat.lt_of_le_of_lt (Nat.sub_le _ _) t.isLt)).2.2) := by
  obtain ⟨n, hn⟩ := t
  cases n with
  | zero => exact absurd h0 (by show ¬(0 % 2 = 1); decide)
  | succ n => exact (dif_neg (by (try dsimp only at h0); omega)).trans ((dif_pos h1).trans rfl)

/-- At a point with `ki = 1` whose second tile lies wholly above the causal triangle: the state is what
    the point before left. -/
theorem scAt1_C (c : Dev nD) (t : Fin cfg1.N) (h0 : t.val % 2 = 1) (h1 : (t.val / 2) % 4 < 2) :
    scAt1 V c t.val t.isLt = scAt1 V c (t.val - 1) (Nat.lt_of_le_of_lt (Nat.sub_le _ _) t.isLt) := by
  obtain ⟨n, hn⟩ := t
  cases n with
  | zero => exact absurd h0 (by show ¬(0 % 2 = 1); decide)
  | succ n => exact (dif_neg (by (try dsimp only at h0); omega)).trans ((dif_neg (by (try dsimp only at h1); omega)).trans rfl)

/-! ## What the finalize leaves in the output tile -/

/-- The output tile the finalize writes: the numerator divided row by row by the denominator — the one
    whole-buffer store's payload itself. -/
def out1_3 (acc : Vec F S512x1024 .f32) (l : Vec F S512x1 .f32) : Vec F S1x512x1024 .f32 := k1_pay6 acc l

/-! ## The invariant between points -/

/-- The three carried scratch buffers as whole memrefs. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The core's scoped buffers this region neither stages through nor carries, each at some contents. -/
def restStg1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region invariant before position `n`: before the first point what the launch hands the region (every
    scratch buffer at anything); afterwards the three carried buffers at the state the point before left, the
    other scoped buffers at anything, the generator register at some state. -/
def PhiS1 (c : Dev nD) : (n : ℕ) → n ≤ cfg1.N → sProp 𝕄
  | 0, _ => Pipeline.ΦA spec1 c
  | n + 1, hn => iprop(restStg1 (F := F) c
      ∗ owns (c : Thread nD τ) scM1_0 fullShare (scAt1 V c n hn).1
      ∗ owns (c : Thread nD τ) scM1_1 fullShare (scAt1 V c n hn).2.1
      ∗ owns (c : Thread nD τ) scM1_2 fullShare (scAt1 V c n hn).2.2
      ∗ (∃ r, prngReg c r))

/-! ## The pipeline's proof data -/

/-- The proof data of pipeline 1 on core `c`: the arrays as the region finds them; after the body at point `t`
    each input's buffer at its block and the output's at the finalized tile of the state at `t` (consulted only
    at `ki = 1`); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scAt1 V c t.val t.isLt).2.2 (scAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (scAt1 V c t.val t.isLt).2.2 (scAt1 V c t.val t.isLt).2.1 := by dsimp only [dat1]

/-! ## The invariant unpacked -/

/-- What the launch hands the region, with the three carried scratch buffers listed as whole memrefs at some
    contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ d, owns (c : Thread nD τ) scM1_0 fullShare d)
          ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

/-- Before any point the invariant yields the other scoped buffers, the three carried buffers at some contents,
    and the generator register. -/
theorem PhiS1_any (c : Dev nD) (n : ℕ) (h : n ≤ cfg1.N) :
    PhiS1 V c n h ⊢ iprop(restStg1 (F := F) c
      ∗ (∃ d, owns (c : Thread nD τ) scM1_0 fullShare d)
      ∗ (∃ d, owns (c : Thread nD τ) scM1_1 fullShare d)
      ∗ (∃ d, owns (c : Thread nD τ) scM1_2 fullShare d)
      ∗ (∃ r, prngReg c r)) := by
  cases n with
  | zero =>
    rw [show PhiS1 V c 0 h = Pipeline.ΦA spec1 c from rfl, PhiA1_eq]; unfold restStg1
    iintro ⟨⟨A0, A1, A2, A3, A4, A5, A6, A7, A8, S0, S1, S2⟩, Hg⟩
    isplitl [A0 A1 A2 A3 A4 A5 A6 A7 A8]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [S0]; · iexact S0
    isplitl [S1]; · iexact S1
    isplitl [S2]; · iexact S2
    iexact Hg
  | succ n =>
    rw [show PhiS1 V c (n + 1) h = iprop(restStg1 (F := F) c
      ∗ owns (c : Thread nD τ) scM1_0 fullShare (scAt1 V c n h).1
      ∗ owns (c : Thread nD τ) scM1_1 fullShare (scAt1 V c n h).2.1
      ∗ owns (c : Thread nD τ) scM1_2 fullShare (scAt1 V c n h).2.2
      ∗ (∃ r, prngReg c r)) from rfl]
    iintro ⟨HR, S0, S1, S2, Hg⟩
    isplitl [HR]; · iexact HR
    isplitl [S0]; · iexists _; iexact S0
    isplitl [S1]; · iexists _; iexact S1
    isplitl [S2]; · iexists _; iexact S2
    iexact Hg

/-- After point `n` (before point `n + 1`): the carried buffers at that point's state. -/
theorem PhiS1_succ (c : Dev nD) (n : ℕ) (hn : n < cfg1.N) :
    PhiS1 V c (n + 1) hn = iprop(restStg1 (F := F) c
      ∗ owns (c : Thread nD τ) scM1_0 fullShare (scAt1 V c n hn).1
      ∗ owns (c : Thread nD τ) scM1_1 fullShare (scAt1 V c n hn).2.1
      ∗ owns (c : Thread nD τ) scM1_2 fullShare (scAt1 V c n hn).2.2
      ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(restStg1 (F := F) c
      ∗ owns (c : Thread nD τ) scM1_0 fullShare (scAt1 V c (n - 1) (by omega)).1
      ∗ owns (c : Thread nD τ) scM1_1 fullShare (scAt1 V c (n - 1) (by omega)).2.1
      ∗ owns (c : Thread nD τ) scM1_2 fullShare (scAt1 V c (n - 1) (by omega)).2.2
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, show PhiS1 V c 0 (Nat.zero_le _) = Pipeline.ΦA spec1 c from rfl]
  try exact Idealize.SL.BI.Entails.refl _

/-- After the last point the invariant gives it back: the carried state's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine (PhiS1_any V c _ _).trans ?_
  rw [PhiA1_eq]; unfold restStg1
  iintro ⟨⟨A0, A1, A2, A3, A4, A5, A6, A7, A8⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S0]; · iexact S0
    isplitl [S1]; · iexact S1
    iexact S2
  iexact Hg

/-! ## What the body finds in the input windows -/

/-- Each input window's current staging buffer holds its block at every point, fetched there or not: where the
    pipeline does not fetch, the block index has not moved (the key/value index is clamped to the causal
    triangle, so it repeats at a skipped tile). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which of the three cases
    the point is in; the invariant hands the body the carried buffers at what the point before left (at anything
    where the case resets them) and takes them back at this point's state; where the output tile is not finalized
    its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  rw [PhiS1_castSucc V c t]
  by_cases h0 : t.val % 2 = 0
  · -- ki = 0
    have hc0 : cond1_0 (grid1.coords t) := (hcond1_0 t).mpr h0
    have hc1 : cond1_1 (grid1.coords t) := (hcond1_1 t).mpr (Or.inl h0)
    have hc2 : ¬cond1_2 (grid1.coords t) := fun h => by have := (hcond1_2 t).mp h; omega
    rw [Dat.leavesExact_idle (dat1 V c) 3 t (idleAt1_3 t hc2) (noFlush1_3 t hc2)]
    rw [scAt1_A V c t h0]
    refine BIBase.Entails.trans (sep_mono_left (PhiS1_any V c _ _)) ?_
    iintro ⟨⟨HR, S0, S1, S2, Hg⟩, Ho, ⟨%d0, H0⟩, ⟨%d1, H1⟩, ⟨%d2, H2⟩, ⟨%d3, H3⟩⟩
    iapply (sound_kernel1_A c Set.univ (grid1.coords t) _ _ _ _ _ _ _ _ _ _ _ _ _ _ hc0 hc1 hc2
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨H0, H1, H2, H3, S0, S1, S2⟩
    isplitl [HR S0 S1 S2 Hg]
    · isplitl [HR]; · iexact HR
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    iexists d3; iexact H3
  · -- ki = 1
    have h0' : t.val % 2 = 1 := by omega
    have hz : t.val ≠ 0 := by omega
    have hc0 : ¬cond1_0 (grid1.coords t) := fun h => h0 ((hcond1_0 t).mp h)
    have hc2 : cond1_2 (grid1.coords t) := (hcond1_2 t).mpr h0'
    rw [show (dat1 V c).leavesExact 3 t = owns (c : Thread nD τ) (st1_3 t) fullShare ((dat1 V c).after 3 t) from by
      unfold Dat.leavesExact; rw [liveAt1_3 t hc2], after1_3]
    rw [PhiS1_pos V c _ _ hz]
    unfold out1_3
    by_cases h1 : 2 ≤ (t.val / 2) % 4
    · -- the second tile meets the causal triangle
      have hc1 : cond1_1 (grid1.coords t) := (hcond1_1 t).mpr (Or.inr h1)
      rw [scAt1_B V c t h0' h1]
      iintro ⟨⟨HR, S0, S1, S2, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _ hc0 hc1 hc2
        (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      iexact H3
    · -- the second tile lies above the causal triangle
      have h1' : (t.val / 2) % 4 < 2 := by omega
      have hc1 : ¬cond1_1 (grid1.coords t) := fun h => by rcases (hcond1_1 t).mp h with h | h <;> omega
      rw [scAt1_C V c t h0' h1']
      iintro ⟨⟨HR, S0, S1, S2, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _ hc0 hc1 hc2
        (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The run of the two-region program, boundary by boundary.

  Between two items of the program a core's unscoped buffers hold: at the start the launch contents; after the first
  stretch of host operations their fold over it; after the projection region the same with the region's arrays
  replaced by what its write-backs leave (the three projected arrays, block by block); after the reshapes their fold;
  after the attention region its output array at what its write-backs leave. Each region is entered from the
  boundary before it and left at the one after it; its arrays are split out of the unscoped buffers and put back,
  the generator register and the scoped buffers pass through the region's invariant (for the attention region the
  invariant also carries the three scratch buffers from point to point and forgets them at the end).
  `run_all`: every weakly fair execution terminates and the final memory holds, at every unscoped buffer, the last
  boundary's contents. From it: the four argument arrays end as launched (no host operation and no region writes
  one), and the result array ends at the fold of the attention region's write-backs.
-/
import proofs.«418402_j22917945491929_3_alg».proof.Proof.KReg0
import proofs.«418402_j22917945491929_3_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first stretch of host operations (the projection region's entry). -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- At the projection region's exit: its arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshapes (the attention region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the attention region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ### No host operation and no region writes an argument -/

theorem hostOps0_keeps (W : Valuation τ sig (Elt F)) (b : Ref sig .tc) (hb : b ∉ ([main_v0, main_v1, main_v2, main_v3] : List (Ref sig .tc))) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, StableHlo.nary_writes, Finset.mem_singleton]
    refine ⟨?_, ?_, ?_, ?_⟩ <;> exact StableHlo.devRef_ne_of_ne (fun e => hb (by rw [e]; simp))))

theorem hostOps1_keeps (W : Valuation τ sig (Elt F)) (b : Ref sig .tc) (hb : b ∉ ([main_v5, main_v6, main_v7] : List (Ref sig .tc))) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, StableHlo.nary_writes, Finset.mem_singleton]
    refine ⟨?_, ?_, ?_⟩ <;> exact StableHlo.devRef_ne_of_ne (fun e => hb (by rw [e]; simp))))

/-- An argument array reaches the end as launched. -/
theorem B4_arg (c : Dev nD) (b : Ref sig .tc)
    (h1 : ∀ w, Pipeline.arrRef spec1 w ≠ b) (h2 : b ∉ ([main_v5, main_v6, main_v7] : List (Ref sig .tc)))
    (h3 : ∀ w, Pipeline.arrRef spec0 w ≠ b) (h4 : b ∉ ([main_v0, main_v1, main_v2, main_v3] : List (Ref sig .tc))) :
    B4 m ρ c (Proc.devRef .tc b) = m ((c : Thread nD τ).loc b) :=
  calc B4 m ρ c (Proc.devRef .tc b)
    _ = B3 m ρ c (Proc.devRef .tc b) := B4_of_ne m ρ c b h1
    _ = B2 m ρ c (Proc.devRef .tc b) := hostOps1_keeps _ b h2
    _ = B1 m ρ c (Proc.devRef .tc b) := B2_of_ne m ρ c b h3
    _ = B0 m ρ c (Proc.devRef .tc b) := hostOps0_keeps _ b h4
    _ = m ((c : Thread nD τ).loc b) := rfl

/-! ## The proof data family and the thread state -/

/-- No pipeline has a prefetched table. -/
abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The projection region: entered from `B1`, left at `B2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from `B3`, left at `B4`; its invariant is entered from the class's and gives it back. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm' (F := F) 1).1
          ∗ Pipeline.scopedRest (Ix := Unit) (Name := ℕ) (U := UR sig nD τ) (Lvl := ℕ) (Val := Elt F) (Pipeline.pin (pcfgs (F := F)) adm' 1).spec c)
        ⊢ (Pipeline.ΦA spec1 c : sProp 𝕄) from by
      unfold Pipeline.ΦA
      iintro ⟨Hp, -, Hr⟩
      isplitl [Hr]; · iexact Hr
      iexact Hp).trans (show Pipeline.ΦA spec1 c ⊢ (pdats m ρ 1 c).Φ 0 from hin1 (E3 m ρ) c)
  hout c :=
    (show (pdats m ρ 1 c).Φ (Fin.last _) ⊢ Pipeline.ΦA spec1 c from hout1 (E3 m ρ) c).trans
      (show (Pipeline.ΦA spec1 c : sProp 𝕄) ⊢ iprop((∃ r, prngReg c r) ∗ Pipeline.ownSems0 (fun k : PEmpty => k.elim) c
          ∗ Pipeline.scopedRest (Ix := Unit) (Name := ℕ) (U := UR sig nD τ) (Lvl := ℕ) (Val := Elt F) (Pipeline.pin (pcfgs (F := F)) adm' 1).spec c) from by
        rw [Pipeline.ownSems0_none]; unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .host (hseg hostOps0 hostOps0_sub hostOps0_fresh' (B0 m ρ)),
    .region (reg0 m ρ),
    .host (hseg hostOps1 hostOps1_sub hostOps1_fresh' (B2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, and the final memory holds at every unscoped buffer of
    every core the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B4_arg m ρ c main_arg0 (by decide) (by decide) (by decide) (by decide)),
     (h c _ (mem_uc main_arg1 (by decide))).trans (B4_arg m ρ c main_arg1 (by decide) (by decide) (by decide) (by decide)),
     (h c _ (mem_uc main_arg2 (by decide))).trans (B4_arg m ρ c main_arg2 (by decide) (by decide) (by decide) (by decide)),
     (h c _ (mem_uc main_arg3 (by decide))).trans (B4_arg m ρ c main_arg3 (by decide) (by decide) (by decide) (by decide))⟩)
    (run_all m ρ)

/-- The result array ends at the fold of the attention region's write-backs. -/
theorem result_v8 (c : Dev nD) : B4 m ρ c (Proc.devRef .tc main_v8) = (dat1 (E3 m ρ) c).arrAt 3 cfg1.N :=
  B4_arr m ρ c 3

end Cert.Kernel.Hand

end
-- ==== Proof.KiReg0.lean ====
import proofs.«418402_j22917945491929_3_alg».proof.Proof.Gen.KernelIdeal.Launch
import proofs.«418402_j22917945491929_3_alg».proof.Proof.Gen.KernelIdeal.Skeleton
import proofs.«418402_j22917945491929_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection call: one row tile of `x` against the stacked weights

The first call walks the 16384 rows of `x` in 32 tiles of 512 rows. At tile `t` it holds

* the tile `X_t` of `x`, 512 × 1024 in f32 (window 0, a new block at every point), and
* the whole stacked weight matrix `W = [Wq | Wk | Wv]ᵀ`, 1024 × 3072 in bf16 (window 1, brought in once,
  at the first point, and kept: its block index never moves),

rounds `X_t` to bf16, forms the product `P_t = X_t · W` (512 × 3072, accumulated in f32 from zero), and leaves in
the three result tiles (windows 2, 3, 4) the three column panels `P_t[:, 0:1024]`, `P_t[:, 1024:2048]`,
`P_t[:, 2048:3072]`, each rounded to bf16. Every result tile is overwritten whole, so what it held before does
not matter, and what it holds afterwards is a function of `X_t` and `W` alone.

Everything below is stated at a parameter `V`, the contents of the core's buffers when the call is entered.
-/

-- membership of an index in a 512 × 1024 or 1024 × 3072 rectangle is looked at one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Projection

variable (V : (c : Dev nD) → (b : Ref sig .tc) → Buf (Elt F) ((c : Thread nD τ).loc b))

/-! ## The blocks the windows show -/

/-- The block of window `w` at tile `t`, cut out of the window's array as the call finds it. For window 0 this
    is the row tile `X_t`; for window 1 it is all of `W`, whatever `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile is in its buffer at every tile. It is brought in afresh each time; the statement is for any proof
    data that reads `x` off `V` and whose body leaves the tile where it was. -/
theorem rowTile_held {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights are in their buffer at every tile, although they are brought in at the first only: from then on the
    block index stands still, the body does not write the buffer, and what was there stays. -/
theorem weights_held {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two rectangles the body touches -/

/-- All of a 512 × 1024 tile: the row tile is read through it, and each result tile is written through it. -/
abbrev tileAll : Rect S512x1024 := Rect.unit (s := S512x1024) ![0, 0] S512x1024.size inb_S512x1024_S512x1024_0_0

/-- All of the 1024 × 3072 weight matrix. -/
abbrev weightsAll : Rect S1024x3072 := Rect.unit (s := S1024x3072) ![0, 0] S1024x3072.size inb_S1024x3072_S1024x3072_0_0

/-! ## What the body leaves in the three result tiles -/

/-- The first result tile after the body: the bf16 rounding of the columns 0 … 1023 of `X_t · W`, laid over the
    whole tile by the one store the body makes there. -/
def out0_2 (x0 : Vec F S512x1024 .f32) (x1 : Vec F S1024x3072 .bf16) : Vec F S512x1024 .bf16 :=
  View.canon [⟨tileAll, k0_pay2 (View.ld x0 tileAll) (View.ld x1 weightsAll)⟩]

/-- The second: the columns 1024 … 2047. -/
def out0_3 (x0 : Vec F S512x1024 .f32) (x1 : Vec F S1024x3072 .bf16) : Vec F S512x1024 .bf16 :=
  View.canon [⟨tileAll, k0_pay3 (View.ld x0 tileAll) (View.ld x1 weightsAll)⟩]

/-- The third: the columns 2048 … 3071. -/
def out0_4 (x0 : Vec F S512x1024 .f32) (x1 : Vec F S1024x3072 .bf16) : Vec F S512x1024 .bf16 :=
  View.canon [⟨tileAll, k0_pay4 (View.ld x0 tileAll) (View.ld x1 weightsAll)⟩]

/-- One store through `tileAll` reaches every index of the tile, whatever is stored. -/
theorem tileAll_covers (p : tileAll.shape.Idx → Elt F .bf16) (y : S512x1024.Idx) :
    ∃ pc ∈ ([⟨tileAll, p⟩] : List (View.Piece (Elt F) S512x1024 .bf16)), y ∈ pc.1.set :=
  View.cover_of_tiled [⟨tileAll, p⟩] S512x1024.size (by rfl) y

/-! ## The body on whole tiles -/

set_option maxHeartbeats 1000000 in
/-- Run on five whole buffers — the first holding a row tile `x0`, the second the weights `x1`, the other three
    anything —, the body ends with the first two as they were and the other three holding the three rounded column
    panels of the product (`out0_2`, `out0_3`, `out0_4` of `x0` and `x1`). It reads the old contents of the result
    tiles before it overwrites them, and uses none of what it read; the tile's coordinate `i` is not used either. -/
theorem proj_body_runs (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (tileAll_covers _)
  isplitl [H3]
  · iexists _; isplitr
    swap; · iexact H3
    ipureintro
    exact View.read_writes_eq_canon _ _ _ (tileAll_covers _)
  iexists _; isplitr
  swap; · iexact H4
  ipureintro
  exact View.read_writes_eq_canon _ _ _ (tileAll_covers _)

/-! ## The proof data of the call -/

/-- The proof data of the call on core `c`. The arrays are as the call finds them (`V`). After the body at tile `t`
    the two input buffers still hold their blocks — the row tile `X_t` and the weights `W` — and the three result
    buffers hold the three rounded column panels of `X_t · W`. The invariant is the untouched rest of the core
    (its other scoped buffers and its generator register); every share is whole and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- The input buffers hold their blocks when the body is called, at every tile. -/
theorem before0_0 (c : Dev nD) (t : Fin cfg0.N) (d) : (dat0 V c).before 0 t d = iblk0 V c 0 t :=
  rowTile_held V (dat0 V c) (A_eq0 V c 0) (after0_0 V c) t d
theorem before0_1 (c : Dev nD) (t : Fin cfg0.N) (d) : (dat0 V c).before 1 t d = iblk0 V c 1 t :=
  weights_held V (dat0 V c) (A_eq0 V c 1) (after0_1 V c) t d

/-! ## The obligation at a tile -/

/-- What the body is handed at tile `t`: the invariant, the core's debts, and the five current buffers, the inputs'
    holding their blocks and the results' holding whatever the pipeline left there; -/
def tileEntry (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back: the same invariant and debts, and the five buffers at what the proof data says. -/
def tileExit (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at tile `t` takes the one to the other: its inputs hold `X_t` and `W`, so `proj_body_runs` applies; the
    invariant and the debts are not looked at. -/
theorem tile_runs (c : Dev nD) (t : Fin cfg0.N) :
    tileEntry V c t ⊢ wp frame (wpE (defs₀ (F := F)) Variants.none c none) Set.univ (bodyAt0 t) (fun _ => tileExit V c t) := by
  unfold tileEntry tileExit bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (proj_body_runs c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets what the pipeline asks of it at every tile. -/
theorem body_obligation0 (c : Dev nD) : BodyObligation (dat0 (F := F) V c) (defs₀ (F := F)) Variants.none () Set.univ := fun t => by
  rw [bigSep_W0, bigSep_W0]
  exact tile_runs V c t

end Projection

end Cert.KernelIdeal.Hand

end
-- ==== Proof.KiReg1.lean ====
import proofs.«418402_j22917945491929_3_alg».proof.Proof.Gen.KernelIdeal.Launch
import proofs.«418402_j22917945491929_3_alg».proof.Proof.Gen.KernelIdeal.Skeleton
import proofs.«418402_j22917945491929_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Causal attention by the online-softmax recurrence, as one pipelined region over a grid of 8 × 4 × 2 points.

For a query tile `qi` of 512 rows of batch `b` the kernel walks the two key/value tiles `ki = 0, 1` of 1024 rows and
carries three quantities between the two steps: the running row maximum `m`, the running denominator `l` and the
running numerator `acc`. At `ki = 0` they are reset; each tile that meets the causal triangle
(`ki · 1024 < (qi + 1) · 512`) updates them; at `ki = 1` the output tile is computed from `acc` and `l`. A tile
wholly above the triangle is skipped and its block index is clamped, so the key/value buffers then still hold the
block of the step before.

Every value stored is one of the payloads of the generated skeleton, and this file never unfolds a payload: it
proves WHICH payload, applied to WHICH blocks and carried values, each buffer holds after each point — not what
the payloads compute. For orientation only (a reading of their definitions, established nowhere below): the reset
stores `-∞`, `0`, `0`; the update is `m' = max(m, rowmax s)`, `l' = e^{m - m'} · l + rowsum e^{s - m'}`,
`acc' = e^{m - m'} · acc + bf16(e^{s - m'}) · v` for the masked scaled scores `s`; the output tile is `acc / l`
row by row.

Stated here: what the three carried buffers hold after every point (`scAt1`, by recursion on the point), what
the output tile receives (`out1_3`), the region's proof data (`dat1`) with its invariant between points
(`PhiS1`), the body's triple in each of the three control cases that occur over the grid, and from them the body
obligation at every point (`body_obligation1`) — all at a parameter `V`, the buffer contents the region finds at
its entry.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Loads and stores through the whole-buffer rectangle -/

section Whole

variable {sg : RefSig} {κ : Kind} {sp : Space} {s : Shape} {e : EltTy} {Val : EltTy → Type}

/-- A unit-stride rectangle as large as the shape starts at the origin, so it places each index at itself. -/
theorem idx_unit_full {off : Fin s.rank → ℕ} (inb : ∀ a, off a + s.size a ≤ s.size a)
    (x : (Rect.unit (s := s) off s.size inb).shape.Idx) (a : Fin s.rank) :
    ((Rect.unit (s := s) off s.size inb).toLoadRect.idx x a : ℕ) = (x a : ℕ) := by
  have := inb a
  simp only [LoadRect.idx_apply, Rect.off_unit, Rect.stride_unit]; omega

/-- A load through it reads the view's whole contents. -/
theorem readAt_full (v : View sg κ sp s e) {off : Fin s.rank → ℕ} (inb : ∀ a, off a + s.size a ≤ s.size a)
    (f : v.ty.Contents Val) :
    v.readAt Val (Rect.unit (s := s) off s.size inb).toLoadRect f = v.read Val f := by
  funext x
  show v.read Val f ((Rect.unit (s := s) off s.size inb).toLoadRect.idx x) = v.read Val f x
  congr 1; funext a; exact Fin.ext (idx_unit_full inb x a)

/-- A store through it leaves the payload, whatever was there. -/
theorem read_writes_full (v : View sg κ sp s e) (f : v.ty.Contents Val) {off : Fin s.rank → ℕ}
    (inb : ∀ a, off a + s.size a ≤ s.size a) (p : s.Idx → Val e) (L : List (View.Piece Val s e)) :
    v.read Val (v.writes Val f (⟨Rect.unit (s := s) off s.size inb, p⟩ :: L)) = p := by
  funext y
  have hy : y ∈ (Rect.unit (s := s) off s.size inb).set :=
    Rect.mem_set_unit.mpr fun a => ⟨by have := inb a; omega, by have := inb a; have := (y a).isLt; omega⟩
  obtain ⟨x, rfl⟩ := (Rect.unit (s := s) off s.size inb).exists_idx_of_mem hy
  have hx : (Rect.unit (s := s) off s.size inb).emb x = x := funext fun a => Fin.ext (idx_unit_full inb x a)
  show v.read Val (v.writes Val f (⟨Rect.unit (s := s) off s.size inb, p⟩ :: L)) ((Rect.unit (s := s) off s.size inb).emb x) = p ((Rect.unit (s := s) off s.size inb).emb x)
  rw [View.read_writes_cons_emb, hx]

end Whole

/-! ## The body's three conditions, in closed form over the grid -/

/-- `ki = 0`: the first key/value tile of a query tile (the state is reset). -/
abbrev cond1_0 (i : grid1.Coords) : Prop :=
  (Scalar.cmpi .ne (Scalar.extui (Scalar.cmpi .eq (BitVec.ofNat 32 (i 2).val) 0#32)) 0#32) = 1#1
/-- `ki · 1024 < (qi + 1) · 512` as signed words: the key/value tile meets the causal triangle. -/
abbrev cond1_1 (i : grid1.Coords) : Prop :=
  (Scalar.cmpi .ne (Scalar.extui (Scalar.cmpi .slt (Scalar.muli (BitVec.ofNat 32 (i 2).val) 1024#32)
    (Scalar.muli (Scalar.addi (BitVec.ofNat 32 (i 1).val) 1#32) 512#32))) 0#32) = 1#1
/-- `ki = 1`: the last key/value tile (the output tile is finalized). -/
abbrev cond1_2 (i : grid1.Coords) : Prop := k1_cond3 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ (t.val % 2 = 0 ∨ 2 ≤ (t.val / 2) % 4) :=
  (by decide +kernel : ∀ t : Fin grid1.N, cond1_1 (grid1.coords t) ↔ (t.val % 2 = 0 ∨ 2 ≤ (t.val / 2) % 4))
theorem hcond1_2 : ∀ t : Fin cfg1.N, cond1_2 (grid1.coords t) ↔ t.val % 2 = 1 :=
  (by decide +kernel : ∀ t : Fin grid1.N, cond1_2 (grid1.coords t) ↔ t.val % 2 = 1)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from `ki = 1` the output window is idle and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At `ki = 1` it is live. -/
theorem liveAt1_3 : ∀ t : Fin cfg1.N, cond1_2 (grid1.coords t) → cfg1.idle 3 (grid1.coords t) = false := by decide +kernel

/-! ## The body's triple, case by case

Over the grid exactly three assignments of the conditions occur. Each triple is stated over arbitrary whole
memrefs and contents: the inputs' buffers at `q`, `k`, `v`; the carried buffers at `m`, `l`, `acc` (at anything
where the case overwrites them before reading); the stored values are the skeleton's payloads. -/

set_option maxHeartbeats 2000000 in
/-- `ki = 0`: the reset, the update by the first tile, no finalize; the output tile's buffer is handed back as found. -/
theorem sound_kernel1_A (c : Dev nD) (E : Set ℕ) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1024 .f32) (harg9 : arg9.IsWhole)
    (hc0 : cond1_0 i) (hc1 : cond1_1 i) (hc2 : ¬cond1_2 i)
    (q : Vec F S1x512x1024 .bf16) (k : Vec F S1x1024x1024 .bf16) (v : Vec F S1x1024x1024 .bf16)
    (xo : Vec F S1x512x1024 .f32)
    (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare (k1_pay5 (k1_pay9 (BitVec.ofNat 32 (i 1).val) (BitVec.ofNat 32 (i 2).val) q k k1_pay1))
            ∗ owns (c : Thread nD τ) arg8 fullShare (k1_pay12 (BitVec.ofNat 32 (i 1).val) (BitVec.ofNat 32 (i 2).val) q k k1_pay1 k1_pay2)
            ∗ owns (c : Thread nD τ) arg9 fullShare (k1_pay4 (k1_pay7 v) (k1_pay10 (BitVec.ofNat 32 (i 1).val) (BitVec.ofNat 32 (i 2).val) q k k1_pay1) (k1_pay11 (BitVec.ofNat 32 (i 1).val) (BitVec.ofNat 32 (i 2).val) q k k1_pay1) k1_pay3)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3 hf4 hf5 hf6
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    delta sound_kernel1_A.sl.r_1 sound_kernel1_A.sl.v33 sound_kernel1_A.sl.H7_1
    repeat (first | rw [read_writes_full] | rw [readAt_full] | rw [View.readCov_cons_toLoadRect])
  isplitl [H8]
  · iexists _; isplitr
    swap; · iexact H8
    ipureintro
    delta sound_kernel1_A.sl.r_4 sound_kernel1_A.sl.v33 sound_kernel1_A.sl.v42 sound_kernel1_A.sl.H7_1 sound_kernel1_A.sl.H8_1
    repeat (first | rw [read_writes_full] | rw [readAt_full] | rw [View.readCov_cons_toLoadRect])
  iexists _; isplitr
  swap; · iexact H9
  ipureintro
  delta sound_kernel1_A.sl.r sound_kernel1_A.sl.r_2 sound_kernel1_A.sl.r_3 sound_kernel1_A.sl.v33 sound_kernel1_A.sl.v50 sound_kernel1_A.sl.H7_1 sound_kernel1_A.sl.H9_1
  repeat (first | rw [read_writes_full] | rw [readAt_full] | rw [View.readCov_cons_toLoadRect])

set_option maxHeartbeats 2000000 in
/-- `ki = 1`, the second tile meets the causal triangle: no reset, the update, the finalize. -/
theorem sound_kernel1_B (c : Dev nD) (E : Set ℕ) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1024 .f32) (harg9 : arg9.IsWhole)
    (hc0 : ¬cond1_0 i) (hc1 : cond1_1 i) (hc2 : cond1_2 i)
    (q : Vec F S1x512x1024 .bf16) (k : Vec F S1x1024x1024 .bf16) (v : Vec F S1x1024x1024 .bf16)
    (m : Vec F S512x1 .f32) (l : Vec F S512x1 .f32) (acc : Vec F S512x1024 .f32)
    (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare m ∗ owns (c : Thread nD τ) arg8 fullShare l ∗ owns (c : Thread nD τ) arg9 fullShare acc
        ∗ (iprop(owns (c : Thread nD τ) arg3 fullShare q ∗ owns (c : Thread nD τ) arg4 fullShare k ∗ owns (c : Thread nD τ) arg5 fullShare v
            ∗ owns (c : Thread nD τ) arg6 fullShare (k1_pay6 (k1_pay4 (k1_pay7 v) (k1_pay10 (BitVec.ofNat 32 (i 1).val) (BitVec.ofNat 32 (i 2).val) q k m) (k1_pay11 (BitVec.ofNat 32 (i 1).val) (BitVec.ofNat 32 (i 2).val) q k m) acc) (k1_pay12 (BitVec.ofNat 32 (i 1).val) (BitVec.ofNat 32 (i 2).val) q k m l))
            ∗ owns (c : Thread nD τ) arg7 fullShare (k1_pay5 (k1_pay9 (BitVec.ofNat 32 (i 1).val) (BitVec.ofNat 32 (i 2).val) q k m))
            ∗ owns (c : Thread nD τ) arg8 fullShare (k1_pay12 (BitVec.ofNat 32 (i 1).val) (BitVec.ofNat 32 (i 2).val) q k m l)
            ∗ owns (c : Thread nD τ) arg9 fullShare (k1_pay4 (k1_pay7 v) (k1_pay10 (BitVec.ofNat 32 (i 1).val) (BitVec.ofNat 32 (i 2).val) q k m) (k1_pay11 (BitVec.ofNat 32 (i 1).val) (BitVec.ofNat 32 (i 2).val) q k m) acc)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    delta sound_kernel1_B.sl.v12 sound_kernel1_B.sl.v13 sound_kernel1_B.sl.H8_1 sound_kernel1_B.sl.H9_1 sound_kernel1_B.sl.r sound_kernel1_B.sl.r_2 sound_kernel1_B.sl.r_3 sound_kernel1_B.sl.r_4
    repeat (first | rw [read_writes_full] | rw [readAt_full] | rw [View.readCov_cons_toLoadRect])
  isplitl [H7]
  · iexists _; isplitr
    swap; · iexact H7
    ipureintro
    delta sound_kernel1_B.sl.r_1
    repeat (first | rw [read_writes_full] | rw [readAt_full] | rw [View.readCov_cons_toLoadRect])
  isplitl [H8]
  · iexists _; isplitr
    swap; · iexact H8
    ipureintro
    delta sound_kernel1_B.sl.H8_1 sound_kernel1_B.sl.r_4
    repeat (first | rw [read_writes_full] | rw [readAt_full] | rw [View.readCov_cons_toLoadRect])
  iexists _; isplitr
  swap; · iexact H9
  ipureintro
  delta sound_kernel1_B.sl.H9_1 sound_kernel1_B.sl.r sound_kernel1_B.sl.r_2 sound_kernel1_B.sl.r_3
  repeat (first | rw [read_writes_full] | rw [readAt_full] | rw [View.readCov_cons_toLoadRect])

set_option maxHeartbeats 2000000 in
/-- `ki = 1`, the second tile lies wholly above the causal triangle: only the finalize runs. -/
theorem sound_kernel1_C (c : Dev nD) (E : Set ℕ) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1024 .f32) (harg9 : arg9.IsWhole)
    (hc0 : ¬cond1_0 i) (hc1 : ¬cond1_1 i) (hc2 : cond1_2 i)
    (q : Vec F S1x512x1024 .bf16) (k : Vec F S1x1024x1024 .bf16) (v : Vec F S1x1024x1024 .bf16)
    (m : Vec F S512x1 .f32) (l : Vec F S512x1 .f32) (acc : Vec F S512x1024 .f32)
    (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare m ∗ owns (c : Thread nD τ) arg8 fullShare l ∗ owns (c : Thread nD τ) arg9 fullShare acc
        ∗ (iprop(owns (c : Thread nD τ) arg3 fullShare q ∗ owns (c : Thread nD τ) arg4 fullShare k ∗ owns (c : Thread nD τ) arg5 fullShare v
            ∗ owns (c : Thread nD τ) arg6 fullShare (k1_pay6 acc l)
            ∗ owns (c : Thread nD τ) arg7 fullShare m ∗ owns (c : Thread nD τ) arg8 fullShare l ∗ owns (c : Thread nD τ) arg9 fullShare acc) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    repeat (first | rw [read_writes_full] | rw [readAt_full] | rw [View.readCov_cons_toLoadRect])
  isplitl [H7]
  · iexists f7; isplitr; · ipureintro; rfl
    iexact H7
  isplitl [H8]
  · iexists f8; isplitr; · ipureintro; rfl
    iexact H8
  iexists f9; isplitr; · ipureintro; rfl
  iexact H9

/-! # Region 1: causal flash attention over a grid of 8 × 4 × 2 points

The point `t = 8·b + 2·qi + ki` works on query tile `qi` of batch `b` against key/value tile `ki`. The running
row maximum `m`, the running denominator `l` and the running numerator `acc` live in three scratch buffers carried
from point to point; the output tile is written only at `ki = 1`. -/

section Region1

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried state (m, l, acc) point by point -/

/-- The scratch state `(m, l, acc)` after the body at position `n`. At `ki = 0` the state is reset to
    `(-∞, 0, 0)` and updated by the first key/value tile; at `ki = 1` it is updated by the second tile when that
    tile meets the causal triangle (`qi ≥ 2`) and left alone otherwise. -/
def scAt1 (c : Dev nD) : (n : ℕ) → n < cfg1.N → Vec F S512x1 .f32 × Vec F S512x1 .f32 × Vec F S512x1024 .f32
  | 0, hn =>
    (k1_pay5 (k1_pay9 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1),
     k1_pay12 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1 k1_pay2,
     k1_pay4 (k1_pay7 (iblk1 V c 2 ⟨0, hn⟩))
       (k1_pay10 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1)
       (k1_pay11 (BitVec.ofNat 32 (grid1.coords ⟨0, hn⟩ 1).val) (BitVec.ofNat 32 (grid1.coords ⟨0, hn⟩ 2).val) (iblk1 V c 0 ⟨0, hn⟩) (iblk1 V c 1 ⟨0, hn⟩) k1_pay1)
       k1_pay3)
  | n + 1, hn =>
    if h0 : (n + 1) % 2 = 0 then
      (k1_pay5 (k1_pay9 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1),
       k1_pay12 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1 k1_pay2,
       k1_pay4 (k1_pay7 (iblk1 V c 2 ⟨n + 1, hn⟩))
         (k1_pay10 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1)
         (k1_pay11 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) k1_pay1)
         k1_pay3)
    else if h1 : 2 ≤ ((n + 1) / 2) % 4 then
      (k1_pay5 (k1_pay9 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1),
       k1_pay12 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1 (scAt1 c n (Nat.lt_of_succ_lt hn)).2.1,
       k1_pay4 (k1_pay7 (iblk1 V c 2 ⟨n + 1, hn⟩))
         (k1_pay10 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1)
         (k1_pay11 (BitVec.ofNat 32 (grid1.coords ⟨n + 1, hn⟩ 1).val) (BitVec.ofNat 32 (grid1.coords ⟨n + 1, hn⟩ 2).val) (iblk1 V c 0 ⟨n + 1, hn⟩) (iblk1 V c 1 ⟨n + 1, hn⟩) (scAt1 c n (Nat.lt_of_succ_lt hn)).1)
         (scAt1 c n (Nat.lt_of_succ_lt hn)).2.2)
    else scAt1 c n (Nat.lt_of_succ_lt hn)

/-- At a point with `ki = 0`: the reset state updated by the first key/value tile. -/
theorem scAt1_A (c : Dev nD) (t : Fin cfg1.N) (h0 : t.val % 2 = 0) :
    scAt1 V c t.val t.isLt =
      (k1_pay5 (k1_pay9 (BitVec.ofNat 32 (grid1.coords t 1).val) (BitVec.ofNat 32 (grid1.coords t 2).val) (iblk1 V c 0 t) (iblk1 V c 1 t) k1_pay1),
       k1_pay12 (BitVec.ofNat 32 (grid1.coords t 1).val) (BitVec.ofNat 32 (grid1.coords t 2).val) (iblk1 V c 0 t) (iblk1 V c 1 t) k1_pay1 k1_pay2,
       k1_pay4 (k1_pay7 (iblk1 V c 2 t))
         (k1_pay10 (BitVec.ofNat 32 (grid1.coords t 1).val) (BitVec.ofNat 32 (grid1.coords t 2).val) (iblk1 V c 0 t) (iblk1 V c 1 t) k1_pay1)
         (k1_pay11 (BitVec.ofNat 32 (grid1.coords t 1).val) (BitVec.ofNat 32 (grid1.coords t 2).val) (iblk1 V c 0 t) (iblk1 V c 1 t) k1_pay1)
         k1_pay3) := by
  obtain ⟨n, hn⟩ := t
  cases n with
  | zero => exact rfl
  | succ n => exact (dif_pos h0).trans rfl

/-- At a point with `ki = 1` whose second tile meets the causal triangle: the state the point before left,
    updated by that tile. -/
theorem scAt1_B (c : Dev nD) (t : Fin cfg1.N) (h0 : t.val % 2 = 1) (h1 : 2 ≤ (t.val / 2) % 4) :
    scAt1 V c t.val t.isLt =
      (k1_pay5 (k1_pay9 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1),
       k1_pay12 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1 (scAt1 V c (t.val - 1) (Nat.lt_of_le_of_lt (Nat.sub_le _ _) t.isLt)).2.1,
       k1_pay4 (k1_pay7 (iblk1 V c 2 t))
         (k1_pay10 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1)
         (k1_pay11 (BitVec.ofNat 32 (grid1.coords t 1).val) (BitVec.ofNat 32 (grid1.coords t 2).val) (iblk1 V c 0 t) (iblk1 V c 1 t) (scAt1 V c (t.val - 1) (Nat.lt_of_le_of_lt (Nat.sub_le _ _) t.isLt)).1)
         (scAt1 V c (t.val - 1) (Nat.lt_of_le_of_lt (Nat.sub_le _ _) t.isLt)).2.2) := by
  obtain ⟨n, hn⟩ := t
  cases n with
  | zero => exact absurd h0 (by show ¬(0 % 2 = 1); decide)
  | succ n => exact (dif_neg (by (try dsimp only at h0); omega)).trans ((dif_pos h1).trans rfl)

/-- At a point with `ki = 1` whose second tile lies wholly above the causal triangle: the state is what
    the point before left. -/
theorem scAt1_C (c : Dev nD) (t : Fin cfg1.N) (h0 : t.val % 2 = 1) (h1 : (t.val / 2) % 4 < 2) :
    scAt1 V c t.val t.isLt = scAt1 V c (t.val - 1) (Nat.lt_of_le_of_lt (Nat.sub_le _ _) t.isLt) := by
  obtain ⟨n, hn⟩ := t
  cases n with
  | zero => exact absurd h0 (by show ¬(0 % 2 = 1); decide)
  | succ n => exact (dif_neg (by (try dsimp only at h0); omega)).trans ((dif_neg (by (try dsimp only at h1); omega)).trans rfl)

/-! ## What the finalize leaves in the output tile -/

/-- The output tile the finalize writes: the numerator divided row by row by the denominator — the one
    whole-buffer store's payload itself. -/
def out1_3 (acc : Vec F S512x1024 .f32) (l : Vec F S512x1 .f32) : Vec F S1x512x1024 .f32 := k1_pay6 acc l

/-! ## The invariant between points -/

/-- The three carried scratch buffers as whole memrefs. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The core's scoped buffers this region neither stages through nor carries, each at some contents. -/
def restStg1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region invariant before position `n`: before the first point what the launch hands the region (every
    scratch buffer at anything); afterwards the three carried buffers at the state the point before left, the
    other scoped buffers at anything, the generator register at some state. -/
def PhiS1 (c : Dev nD) : (n : ℕ) → n ≤ cfg1.N → sProp 𝕄
  | 0, _ => Pipeline.ΦA spec1 c
  | n + 1, hn => iprop(restStg1 (F := F) c
      ∗ owns (c : Thread nD τ) scM1_0 fullShare (scAt1 V c n hn).1
      ∗ owns (c : Thread nD τ) scM1_1 fullShare (scAt1 V c n hn).2.1
      ∗ owns (c : Thread nD τ) scM1_2 fullShare (scAt1 V c n hn).2.2
      ∗ (∃ r, prngReg c r))

/-! ## The pipeline's proof data -/

/-- The proof data of pipeline 1 on core `c`: the arrays as the region finds them; after the body at point `t`
    each input's buffer at its block and the output's at the finalized tile of the state at `t` (consulted only
    at `ki = 1`); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scAt1 V c t.val t.isLt).2.2 (scAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (scAt1 V c t.val t.isLt).2.2 (scAt1 V c t.val t.isLt).2.1 := by dsimp only [dat1]

/-! ## The invariant unpacked -/

/-- What the launch hands the region, with the three carried scratch buffers listed as whole memrefs at some
    contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ d, owns (c : Thread nD τ) scM1_0 fullShare d)
          ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

/-- Before any point the invariant yields the other scoped buffers, the three carried buffers at some contents,
    and the generator register. -/
theorem PhiS1_any (c : Dev nD) (n : ℕ) (h : n ≤ cfg1.N) :
    PhiS1 V c n h ⊢ iprop(restStg1 (F := F) c
      ∗ (∃ d, owns (c : Thread nD τ) scM1_0 fullShare d)
      ∗ (∃ d, owns (c : Thread nD τ) scM1_1 fullShare d)
      ∗ (∃ d, owns (c : Thread nD τ) scM1_2 fullShare d)
      ∗ (∃ r, prngReg c r)) := by
  cases n with
  | zero =>
    rw [show PhiS1 V c 0 h = Pipeline.ΦA spec1 c from rfl, PhiA1_eq]; unfold restStg1
    iintro ⟨⟨A0, A1, A2, A3, A4, A5, A6, A7, A8, S0, S1, S2⟩, Hg⟩
    isplitl [A0 A1 A2 A3 A4 A5 A6 A7 A8]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [S0]; · iexact S0
    isplitl [S1]; · iexact S1
    isplitl [S2]; · iexact S2
    iexact Hg
  | succ n =>
    rw [show PhiS1 V c (n + 1) h = iprop(restStg1 (F := F) c
      ∗ owns (c : Thread nD τ) scM1_0 fullShare (scAt1 V c n h).1
      ∗ owns (c : Thread nD τ) scM1_1 fullShare (scAt1 V c n h).2.1
      ∗ owns (c : Thread nD τ) scM1_2 fullShare (scAt1 V c n h).2.2
      ∗ (∃ r, prngReg c r)) from rfl]
    iintro ⟨HR, S0, S1, S2, Hg⟩
    isplitl [HR]; · iexact HR
    isplitl [S0]; · iexists _; iexact S0
    isplitl [S1]; · iexists _; iexact S1
    isplitl [S2]; · iexists _; iexact S2
    iexact Hg

/-- After point `n` (before point `n + 1`): the carried buffers at that point's state. -/
theorem PhiS1_succ (c : Dev nD) (n : ℕ) (hn : n < cfg1.N) :
    PhiS1 V c (n + 1) hn = iprop(restStg1 (F := F) c
      ∗ owns (c : Thread nD τ) scM1_0 fullShare (scAt1 V c n hn).1
      ∗ owns (c : Thread nD τ) scM1_1 fullShare (scAt1 V c n hn).2.1
      ∗ owns (c : Thread nD τ) scM1_2 fullShare (scAt1 V c n hn).2.2
      ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(restStg1 (F := F) c
      ∗ owns (c : Thread nD τ) scM1_0 fullShare (scAt1 V c (n - 1) (by omega)).1
      ∗ owns (c : Thread nD τ) scM1_1 fullShare (scAt1 V c (n - 1) (by omega)).2.1
      ∗ owns (c : Thread nD τ) scM1_2 fullShare (scAt1 V c (n - 1) (by omega)).2.2
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, show PhiS1 V c 0 (Nat.zero_le _) = Pipeline.ΦA spec1 c from rfl]
  try exact Idealize.SL.BI.Entails.refl _

/-- After the last point the invariant gives it back: the carried state's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine (PhiS1_any V c _ _).trans ?_
  rw [PhiA1_eq]; unfold restStg1
  iintro ⟨⟨A0, A1, A2, A3, A4, A5, A6, A7, A8⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S0]; · iexact S0
    isplitl [S1]; · iexact S1
    iexact S2
  iexact Hg

/-! ## What the body finds in the input windows -/

/-- Each input window's current staging buffer holds its block at every point, fetched there or not: where the
    pipeline does not fetch, the block index has not moved (the key/value index is clamped to the causal
    triangle, so it repeats at a skipped tile). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which of the three cases
    the point is in; the invariant hands the body the carried buffers at what the point before left (at anything
    where the case resets them) and takes them back at this point's state; where the output tile is not finalized
    its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  rw [PhiS1_castSucc V c t]
  by_cases h0 : t.val % 2 = 0
  · -- ki = 0
    have hc0 : cond1_0 (grid1.coords t) := (hcond1_0 t).mpr h0
    have hc1 : cond1_1 (grid1.coords t) := (hcond1_1 t).mpr (Or.inl h0)
    have hc2 : ¬cond1_2 (grid1.coords t) := fun h => by have := (hcond1_2 t).mp h; omega
    rw [Dat.leavesExact_idle (dat1 V c) 3 t (idleAt1_3 t hc2) (noFlush1_3 t hc2)]
    rw [scAt1_A V c t h0]
    refine BIBase.Entails.trans (sep_mono_left (PhiS1_any V c _ _)) ?_
    iintro ⟨⟨HR, S0, S1, S2, Hg⟩, Ho, ⟨%d0, H0⟩, ⟨%d1, H1⟩, ⟨%d2, H2⟩, ⟨%d3, H3⟩⟩
    iapply (sound_kernel1_A c Set.univ (grid1.coords t) _ _ _ _ _ _ _ _ _ _ _ _ _ _ hc0 hc1 hc2
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨H0, H1, H2, H3, S0, S1, S2⟩
    isplitl [HR S0 S1 S2 Hg]
    · isplitl [HR]; · iexact HR
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    iexists d3; iexact H3
  · -- ki = 1
    have h0' : t.val % 2 = 1 := by omega
    have hz : t.val ≠ 0 := by omega
    have hc0 : ¬cond1_0 (grid1.coords t) := fun h => h0 ((hcond1_0 t).mp h)
    have hc2 : cond1_2 (grid1.coords t) := (hcond1_2 t).mpr h0'
    rw [show (dat1 V c).leavesExact 3 t = owns (c : Thread nD τ) (st1_3 t) fullShare ((dat1 V c).after 3 t) from by
      unfold Dat.leavesExact; rw [liveAt1_3 t hc2], after1_3]
    rw [PhiS1_pos V c _ _ hz]
    unfold out1_3
    by_cases h1 : 2 ≤ (t.val / 2) % 4
    · -- the second tile meets the causal triangle
      have hc1 : cond1_1 (grid1.coords t) := (hcond1_1 t).mpr (Or.inr h1)
      rw [scAt1_B V c t h0' h1]
      iintro ⟨⟨HR, S0, S1, S2, Hg⟩, Ho, ⟨%d0, H0⟩, ⟨%d1, H1⟩, ⟨%d2, H2⟩, ⟨%d3, H3⟩⟩
      iapply (sound_kernel1_B c Set.univ (grid1.coords t) _ _ _ _ _ _ _ _ _ _ _ _ _ _ hc0 hc1 hc2
        (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      iexact H3
    · -- the second tile lies above the causal triangle
      have h1' : (t.val / 2) % 4 < 2 := by omega
      have hc1 : ¬cond1_1 (grid1.coords t) := fun h => by rcases (hcond1_1 t).mp h with h | h <;> omega
      rw [scAt1_C V c t h0' h1']
      iintro ⟨⟨HR, S0, S1, S2, Hg⟩, Ho, ⟨%d0, H0⟩, ⟨%d1, H1⟩, ⟨%d2, H2⟩, ⟨%d3, H3⟩⟩
      iapply (sound_kernel1_C c Set.univ (grid1.coords t) _ _ _ _ _ _ _ _ _ _ _ _ _ _ hc0 hc1 hc2
        (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiRun.lean ====
/-
  The run of the two-region program, boundary by boundary.

  Between two items of the program a core's unscoped buffers hold: at the start the launch contents; after the first
  stretch of host operations their fold over it; after the projection region the same with the region's arrays
  replaced by what its write-backs leave (the three projected arrays, block by block); after the reshapes their fold;
  after the attention region its output array at what its write-backs leave. Each region is entered from the
  boundary before it and left at the one after it; its arrays are split out of the unscoped buffers and put back,
  the generator register and the scoped buffers pass through the region's invariant (for the attention region the
  invariant also carries the three scratch buffers from point to point and forgets them at the end).
  `run_all`: every weakly fair execution terminates and the final memory holds, at every unscoped buffer, the last
  boundary's contents. From it: the four argument arrays end as launched (no host operation and no region writes
  one), and the result array ends at the fold of the attention region's write-backs.
-/
import proofs.«418402_j22917945491929_3_alg».proof.Proof.KiReg0
import proofs.«418402_j22917945491929_3_alg».proof.Proof.KiReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first stretch of host operations (the projection region's entry). -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- At the projection region's exit: its arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshapes (the attention region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the attention region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ### No host operation and no region writes an argument -/

theorem hostOps0_keeps (W : Valuation τ sig (Elt F)) (b : Ref sig .tc) (hb : b ∉ ([main_v0, main_v1, main_v2, main_v3] : List (Ref sig .tc))) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, StableHlo.nary_writes, Finset.mem_singleton]
    refine ⟨?_, ?_, ?_, ?_⟩ <;> exact StableHlo.devRef_ne_of_ne (fun e => hb (by rw [e]; simp))))

theorem hostOps1_keeps (W : Valuation τ sig (Elt F)) (b : Ref sig .tc) (hb : b ∉ ([main_v5, main_v6, main_v7] : List (Ref sig .tc))) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.reshape_writes, StableHlo.nary_writes, Finset.mem_singleton]
    refine ⟨?_, ?_, ?_⟩ <;> exact StableHlo.devRef_ne_of_ne (fun e => hb (by rw [e]; simp))))

/-- An argument array reaches the end as launched. -/
theorem B4_arg (c : Dev nD) (b : Ref sig .tc)
    (h1 : ∀ w, Pipeline.arrRef spec1 w ≠ b) (h2 : b ∉ ([main_v5, main_v6, main_v7] : List (Ref sig .tc)))
    (h3 : ∀ w, Pipeline.arrRef spec0 w ≠ b) (h4 : b ∉ ([main_v0, main_v1, main_v2, main_v3] : List (Ref sig .tc))) :
    B4 m ρ c (Proc.devRef .tc b) = m ((c : Thread nD τ).loc b) :=
  calc B4 m ρ c (Proc.devRef .tc b)
    _ = B3 m ρ c (Proc.devRef .tc b) := B4_of_ne m ρ c b h1
    _ = B2 m ρ c (Proc.devRef .tc b) := hostOps1_keeps _ b h2
    _ = B1 m ρ c (Proc.devRef .tc b) := B2_of_ne m ρ c b h3
    _ = B0 m ρ c (Proc.devRef .tc b) := hostOps0_keeps _ b h4
    _ = m ((c : Thread nD τ).loc b) := rfl

/-! ## The proof data family and the thread state -/

/-- No pipeline has a prefetched table. -/
abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The projection region: entered from `B1`, left at `B2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from `B3`, left at `B4`; its invariant is entered from the class's and gives it back. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm' (F := F) 1).1
          ∗ Pipeline.scopedRest (Ix := Unit) (Name := ℕ) (U := UR sig nD τ) (Lvl := ℕ) (Val := Elt F) (Pipeline.pin (pcfgs (F := F)) adm' 1).spec c)
        ⊢ (Pipeline.ΦA spec1 c : sProp 𝕄) from by
      unfold Pipeline.ΦA
      iintro ⟨Hp, -, Hr⟩
      isplitl [Hr]; · iexact Hr
      iexact Hp).trans (show Pipeline.ΦA spec1 c ⊢ (pdats m ρ 1 c).Φ 0 from hin1 (E3 m ρ) c)
  hout c :=
    (show (pdats m ρ 1 c).Φ (Fin.last _) ⊢ Pipeline.ΦA spec1 c from hout1 (E3 m ρ) c).trans
      (show (Pipeline.ΦA spec1 c : sProp 𝕄) ⊢ iprop((∃ r, prngReg c r) ∗ Pipeline.ownSems0 (fun k : PEmpty => k.elim) c
          ∗ Pipeline.scopedRest (Ix := Unit) (Name := ℕ) (U := UR sig nD τ) (Lvl := ℕ) (Val := Elt F) (Pipeline.pin (pcfgs (F := F)) adm' 1).spec c) from by
        rw [Pipeline.ownSems0_none]; unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .host (hseg hostOps0 hostOps0_sub hostOps0_fresh' (B0 m ρ)),
    .region (reg0 m ρ),
    .host (hseg hostOps1 hostOps1_sub hostOps1_fresh' (B2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, and the final memory holds at every unscoped buffer of
    every core the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B4_arg m ρ c main_arg0 (by decide) (by decide) (by decide) (by decide)),
     (h c _ (mem_uc main_arg1 (by decide))).trans (B4_arg m ρ c main_arg1 (by decide) (by decide) (by decide) (by decide)),
     (h c _ (mem_uc main_arg2 (by decide))).trans (B4_arg m ρ c main_arg2 (by decide) (by decide) (by decide) (by decide)),
     (h c _ (mem_uc main_arg3 (by decide))).trans (B4_arg m ρ c main_arg3 (by decide) (by decide) (by decide) (by decide))⟩)
    (run_all m ρ)

/-- The result array ends at the fold of the attention region's write-backs. -/
theorem result_v8 (c : Dev nD) : B4 m ρ c (Proc.devRef .tc main_v8) = (dat1 (E3 m ρ) c).arrAt 3 cfg1.N :=
  B4_arr m ρ c 3

end Cert.KernelIdeal.Hand

end
-- ==== Proof.Spec.lean ====
/-
  The mathematics both programs compute, over plain coordinates (batch, row, column), on the extended reals.

  `proj x W` is the projection `x · Wᵀ` (contraction over the embedding axis). `attn q k v` is causal softmax
  attention as a whole-row computation: the scores `(q · kᵀ) / 32`, set to `-∞` above the diagonal, the row maximum,
  the exponentials of the differences, their sum, and the quotients contracted with `v`.
  `kout q k v` is the same quantity computed tile by tile with a running maximum: the key axis is cut in two tiles of
  1024; after the first tile the row holds its maximum `m0`, the sum `l0` of exponentials and the weighted sum
  `acc0`; a row whose position reaches into the second tile rescales both by `exp (m0 - m1)` and adds the second
  tile's terms; the result is the weighted sum divided by the sum. Rows below 1024 see only the first tile.
  `kout_eq_attn` (in another module) says the two agree on finite `q`, `k`, `v`.
-/
import Idealize.ShloMosaic.PureOps.Ideal
import Mathlib.Algebra.BigOperators.Group.Finset.Basic
import Mathlib.Data.Finset.Fold

noncomputable section

namespace Cert.Spec

open Idealize.ShloMosaic

/-- An array [8, 2048, 1024] by its coordinates. -/
abbrev Arr3 : Type := Fin 8 → Fin 2048 → Fin 1024 → EReal
/-- A weight matrix [1024, 1024] (output feature, input feature). -/
abbrev Mat : Type := Fin 1024 → Fin 1024 → EReal

/-- The scale both programs multiply the scores by: the binary32 word of 1/32. -/
def cScale : EReal := Ideal.ofBits .f32 0x3D000000#32

/-- `x · Wᵀ`: entry (b, t, h) is the sum over the embedding coordinate c of x[b,t,c] · W[h,c]. -/
def proj (x : Arr3) (W : Mat) : Arr3 := fun b t h => ∑ c : Fin 1024, x b t c * W h c

/-- The scaled score of query row t against key row s. -/
def score (q k : Arr3) (b : Fin 8) (t s : Fin 2048) : EReal := (∑ d : Fin 1024, q b t d * k b s d) * cScale

/-- The causal scores: the score on and below the diagonal, `-∞` above it. -/
def wei (q k : Arr3) (b : Fin 8) (t s : Fin 2048) : EReal := if s.val ≤ t.val then score q k b t s else ⊥

/-! ## Whole-row softmax attention -/

/-- The row maximum, from `-∞`. -/
def rmax (q k : Arr3) (b : Fin 8) (t : Fin 2048) : EReal :=
  max ⊥ ((Finset.univ : Finset (Fin 2048)).fold max ⊥ (wei q k b t))

/-- The exponential of a score's distance below the row maximum. -/
def ew (q k : Arr3) (b : Fin 8) (t s : Fin 2048) : EReal := Ideal.exp (wei q k b t s - rmax q k b t)

/-- The row's sum of exponentials. -/
def lsum (q k : Arr3) (b : Fin 8) (t : Fin 2048) : EReal := 0 + ∑ s : Fin 2048, ew q k b t s

/-- Causal softmax attention. -/
def attn (q k v : Arr3) : Arr3 := fun b t h => ∑ s : Fin 2048, Ideal.div (ew q k b t s) (lsum q k b t) * v b s h

/-! ## The same, two key tiles with a running maximum -/

/-- Key position j of tile ki. -/
def tileIdx (ki : Fin 2) (j : Fin 1024) : Fin 2048 := ⟨1024 * ki.val + j.val, by have := ki.isLt; have := j.isLt; omega⟩

/-- The causal scores of row t against tile ki. -/
def sT (q k : Arr3) (b : Fin 8) (t : Fin 2048) (ki : Fin 2) (j : Fin 1024) : EReal := wei q k b t (tileIdx ki j)

/-- After the first tile: the running maximum, -/
def m0 (q k : Arr3) (b : Fin 8) (t : Fin 2048) : EReal := (Finset.univ : Finset (Fin 1024)).fold max ⊥ (sT q k b t 0)
/-- the sum of exponentials, -/
def l0 (q k : Arr3) (b : Fin 8) (t : Fin 2048) : EReal := ∑ j : Fin 1024, Ideal.exp (sT q k b t 0 j - m0 q k b t)
/-- and the weighted sum of value rows. -/
def acc0 (q k v : Arr3) (b : Fin 8) (t : Fin 2048) (h : Fin 1024) : EReal :=
  ∑ j : Fin 1024, Ideal.exp (sT q k b t 0 j - m0 q k b t) * v b (tileIdx 0 j) h

/-- After the second tile: the running maximum, -/
def m1 (q k : Arr3) (b : Fin 8) (t : Fin 2048) : EReal :=
  max (m0 q k b t) ((Finset.univ : Finset (Fin 1024)).fold max ⊥ (sT q k b t 1))
/-- the factor that rescales what the first tile left, -/
def a1 (q k : Arr3) (b : Fin 8) (t : Fin 2048) : EReal := Ideal.exp (m0 q k b t - m1 q k b t)
/-- the sum of exponentials, -/
def l1 (q k : Arr3) (b : Fin 8) (t : Fin 2048) : EReal :=
  a1 q k b t * l0 q k b t + ∑ j : Fin 1024, Ideal.exp (sT q k b t 1 j - m1 q k b t)
/-- and the weighted sum of value rows. -/
def acc1 (q k v : Arr3) (b : Fin 8) (t : Fin 2048) (h : Fin 1024) : EReal :=
  a1 q k b t * acc0 q k v b t h + ∑ j : Fin 1024, Ideal.exp (sT q k b t 1 j - m1 q k b t) * v b (tileIdx 1 j) h

/-- The tiled result: rows below 1024 see only the first tile, the others both. -/
def kout (q k v : Arr3) : Arr3 := fun b t h =>
  if t.val < 1024 then Ideal.div (acc0 q k v b t h) (l0 q k b t) else Ideal.div (acc1 q k v b t h) (l1 q k b t)

/-- Every entry a real number. -/
def Finite3 (x : Arr3) : Prop := ∀ b t c, ∃ r : ℝ, x b t c = (r : EReal)
def FiniteM (W : Mat) : Prop := ∀ h c, ∃ r : ℝ, W h c = (r : EReal)

end Cert.Spec

end
-- ==== Proof.KiVal0.lean ====
/-
  The value of the projection call and of the host operations around it, on the extended reals.

  The call walks the 16384 rows of the flat `x` in 32 tiles of 512. At a tile it forms the product of the row tile
  (512 × 1024) with the stacked weights (1024 × 3072) and writes the three column panels of the product, 1024 columns
  each, to the three result arrays. So after the call result array k holds, at row r and column h,
      ∑ e, x[r, e] · W[e, h + 1024 · k]      (k = 0, 1, 2),
  where x and W are the call's two input arrays as it finds them (`projected_2`, `projected_3`, `projected_4`).

  Before the call the host reshapes `x` from [8, 2048, 1024] to [16384, 1024] (row-major: flat row 2048 · b + t is row
  t of batch b) and stacks the three weight matrices one under the other, transposes the stack and rounds it, so that
  column h of the stacked weights is row h, h - 1024 or h - 2048 of the first, second or third matrix (`entry_x`,
  `entry_w`). After the call it reshapes each result array back to [8, 2048, 1024] (`reshaped_5`, `reshaped_6`,
  `reshaped_7`). Put together (`q_entry`, `k_entry`, `v_entry`): the attention call's three input arrays are
  `x · Wqᵀ`, `x · Wkᵀ`, `x · Wvᵀ` of the program's arguments.
-/
import proofs.«418402_j22917945491929_3_alg».proof.Proof.KiReg0
import proofs.«418402_j22917945491929_3_alg».proof.Proof.Spec
import proofs.«418402_j22917945491929_3_alg».proof.Proof.KiRun
import Idealize.ShloMosaic.Lib.Pipeline.Value
import Idealize.ShloMosaic.Lib.ValueIdx
import Idealize.ShloMosaic.PureOps.Ideal.Laws

set_option maxRecDepth 16384

noncomputable section

namespace Cert.KernelIdeal.Val0

open Cert.KernelIdeal Cert.KernelIdeal.Gen Cert.KernelIdeal.Hand Cert.Spec Idealize.ShloMosaic ValueIdx
open Idealize.ShloMosaic.TcCoe Idealize.SL.Sem
open Idealize.ShloMosaic.Pipeline (Dat)

/-! # The product tile and its three panels at an entry -/

/-- The product's dimension numbers: rows of the left operand against columns of the right. -/
abbrev projDims := dot_S512x1024_S1024x3072_S512x3072_1_0_0_1_n_n

theorem projDims_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem projDims_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem projDims_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem projDims_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The whole product tile at an entry: row p of the tile against column h of the weights. -/
theorem product_apply (x0 : Vec Ideal S512x1024 .f32) (x1 : Vec Ideal S1024x3072 .bf16) (p : Fin 512) (h : Fin 3072) :
    k0_pay1 (F := Ideal) x0 x1 (ix2 p h) = ∑ e : Fin 1024, x0 (ix2 p e) * x1 (ix2 e h) := by
  unfold k0_pay1
  simp only [shapeCast_self]
  refine (Ideal.matmul_constant_zero_apply (φ₁ := .bf16) (φ₂ := .bf16) dot_S512x1024_S1024x3072_S512x3072_1_0_0_1_n_n none (truncf .bf16 x0 bitsLt_bf16_f32) x1 (ix2 p h)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p h) ((ValueIdx.contrEquiv1 dot_S512x1024_S1024x3072_S512x3072_1_0_0_1_n_n 1024 rfl rfl).symm k) = ix2 p k := funext fun a => Fin.ext (by
    match a with
    | ⟨0, _⟩ => exact projDims_lhs_0 _ _
    | ⟨1, _⟩ => exact (projDims_lhs_1 _ _).trans hk)
  have er : dot_S512x1024_S1024x3072_S512x3072_1_0_0_1_n_n.rhsIdx (ix2 p h) ((ValueIdx.contrEquiv1 dot_S512x1024_S1024x3072_S512x3072_1_0_0_1_n_n 1024 rfl rfl).symm k) = ix2 k h := funext fun a => Fin.ext (by
    match a with
    | ⟨0, _⟩ => exact (projDims_rhs_0 _ _).trans hk
    | ⟨1, _⟩ => exact projDims_rhs_1 _ _)
  rw [el, er]
  rfl

/-- The first result tile at an entry: the product's entry in column h (rounding is the identity on the extended reals). -/
theorem panel2_apply (x0 : Vec Ideal S512x1024 .f32) (x1 : Vec Ideal S1024x3072 .bf16) (j : S512x1024.Idx) :
    k0_pay2 (F := Ideal) x0 x1 j = ∑ e : Fin 1024, x0 (ix2 (j 0) e) * x1 (ix2 e ⟨(j 1).val, by have hj : (j 1).val < 1024 := (j 1).isLt; omega⟩) := by
  show (truncf .bf16 (extractStridedSlice S512x1024 ![0, 0] (k0_pay1 (F := Ideal) x0 x1) slices_S512x3072_o0_0_S512x1024) bitsLt_bf16_f32 : FVec Ideal S512x1024 .bf16) j = _
  refine (truncf_apply (φ := .f32) (ψ := .bf16) _ bitsLt_bf16_f32 j).trans ?_
  refine (extractStridedSlice_apply (s := S512x3072) (t := S512x1024) ![0, 0] (k0_pay1 (F := Ideal) x0 x1) slices_S512x3072_o0_0_S512x1024 j
    (ix2 (j 0) ⟨(j 1).val, by have hj : (j 1).val < 1024 := (j 1).isLt; omega⟩) fun a => ?_).trans (product_apply x0 x1 _ _)
  match a with
  | ⟨0, _⟩ => exact (Nat.zero_add _).symm
  | ⟨1, _⟩ => exact (Nat.zero_add _).symm

/-- The second result tile at an entry: the product's entry in column h + 1024 (rounding is the identity on the extended reals). -/
theorem panel3_apply (x0 : Vec Ideal S512x1024 .f32) (x1 : Vec Ideal S1024x3072 .bf16) (j : S512x1024.Idx) :
    k0_pay3 (F := Ideal) x0 x1 j = ∑ e : Fin 1024, x0 (ix2 (j 0) e) * x1 (ix2 e ⟨(j 1).val + 1024, by have hj : (j 1).val < 1024 := (j 1).isLt; omega⟩) := by
  show (truncf .bf16 (extractStridedSlice S512x1024 ![0, 1024] (k0_pay1 (F := Ideal) x0 x1) slices_S512x3072_o0_1024_S512x1024) bitsLt_bf16_f32 : FVec Ideal S512x1024 .bf16) j = _
  refine (truncf_apply (φ := .f32) (ψ := .bf16) _ bitsLt_bf16_f32 j).trans ?_
  refine (extractStridedSlice_apply (s := S512x3072) (t := S512x1024) ![0, 1024] (k0_pay1 (F := Ideal) x0 x1) slices_S512x3072_o0_1024_S512x1024 j
    (ix2 (j 0) ⟨(j 1).val + 1024, by have hj : (j 1).val < 1024 := (j 1).isLt; omega⟩) fun a => ?_).trans (product_apply x0 x1 _ _)
  match a with
  | ⟨0, _⟩ => exact (Nat.zero_add _).symm
  | ⟨1, _⟩ => exact Nat.add_comm _ _

/-- The third result tile at an entry: the product's entry in column h + 2048 (rounding is the identity on the extended reals). -/
theorem panel4_apply (x0 : Vec Ideal S512x1024 .f32) (x1 : Vec Ideal S1024x3072 .bf16) (j : S512x1024.Idx) :
    k0_pay4 (F := Ideal) x0 x1 j = ∑ e : Fin 1024, x0 (ix2 (j 0) e) * x1 (ix2 e ⟨(j 1).val + 2048, by have hj : (j 1).val < 1024 := (j 1).isLt; omega⟩) := by
  show (truncf .bf16 (extractStridedSlice S512x1024 ![0, 2048] (k0_pay1 (F := Ideal) x0 x1) slices_S512x3072_o0_2048_S512x1024) bitsLt_bf16_f32 : FVec Ideal S512x1024 .bf16) j = _
  refine (truncf_apply (φ := .f32) (ψ := .bf16) _ bitsLt_bf16_f32 j).trans ?_
  refine (extractStridedSlice_apply (s := S512x3072) (t := S512x1024) ![0, 2048] (k0_pay1 (F := Ideal) x0 x1) slices_S512x3072_o0_2048_S512x1024 j
    (ix2 (j 0) ⟨(j 1).val + 2048, by have hj : (j 1).val < 1024 := (j 1).isLt; omega⟩) fun a => ?_).trans (product_apply x0 x1 _ _)
  match a with
  | ⟨0, _⟩ => exact (Nat.zero_add _).symm
  | ⟨1, _⟩ => exact Nat.add_comm _ _

/-! # From tiles to arrays -/

theorem zeroOffsets : (![0, 0] : Fin 2 → Nat) = fun _ => 0 := funext fun a => by fin_cases a <;> rfl

section Arrays

variable (V : (c : Dev nD) → (b : Ref sig .tc) → Buf (Elt Ideal) ((c : Thread nD τ).loc b))

/-! ## The first projected array -/

/-- What the first projected array holds after the call, as a function of `x` (16384 × 1024) and the stacked weights
    (1024 × 3072): row r, column h is the sum over the embedding coordinate e of x[r, e] · W[e, h]. -/
def cols2 (X : S16384x1024.Idx → EReal) (Wc : S1024x3072.Idx → EReal) : S16384x1024.Idx → EReal :=
  fun j => ∑ e : Fin 1024, X (ix2 (j 0) e) * Wc (ix2 e ⟨(j 1).val, by have hj : (j 1).val < 1024 := (j 1).isLt; omega⟩)

/-- The block indices of the windows, over the 32 tiles: the row tile of `x` and the result tile move together (block row
    `t`, block column 0), the weights stay at block (0, 0). -/
theorem blockIdx2 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What tile `t` writes back is block `t` of `cols2` of the two input arrays as the call finds them. -/
theorem written2 (c : Dev nD) (t : Fin cfg0.N) :
    (dat0 (F := Ideal) V c).flushed 2 t
      = ((cfg0.win 2).blk t).view.read (Elt Ideal) (cols2 (V c main_v0) (V c main_v3)) := by
  show (cfg0.win 2).cut (grid0.coords t) ((dat0 (F := Ideal) V c).after 2 t) = _
  rw [after0_2]
  unfold out0_2
  rw [View.canon_unit_zero zeroOffsets]
  simp only [View.ld_unit_zero (S := S512x1024) zeroOffsets, View.ld_unit_zero (S := S1024x3072) zeroOffsets]
  obtain ⟨e0, e1, e2, e3, e4, e5⟩ := blockIdx2 t
  funext y
  refine (panel2_apply (iblk0 (F := Ideal) V c 0 t) (iblk0 (F := Ideal) V c 1 t) ((cfg0.win 2).xinj (grid0.coords t) y)).trans ?_
  show _ = cols2 (V c main_v0) (V c main_v3) (((cfg0.win 2).blk t).view.emb y)
  unfold cols2
  refine Finset.sum_congr rfl fun e _ => ?_
  refine congr (congrArg _ ?_) ?_
  · show (V c main_v0 : S16384x1024.Idx → EReal) (((cfg0.win 0).blk t).view.emb _) = _
    refine congrArg _ (funext fun a => Fin.ext ?_)
    match a with
    | ⟨0, _⟩ => show win0_0.index t (0 : Fin 2) * 512 + 1 * (y 0).val = win0_2.index t (0 : Fin 2) * 512 + 1 * (y 0).val; omega
    | ⟨1, _⟩ => show win0_0.index t (1 : Fin 2) * 1024 + 1 * e.val = e.val; omega
  · show (V c main_v3 : S1024x3072.Idx → EReal) (((cfg0.win 1).blk t).view.emb _) = _
    refine congrArg _ (funext fun a => Fin.ext ?_)
    match a with
    | ⟨0, _⟩ => show win0_1.index t (0 : Fin 2) * 1024 + 1 * e.val = e.val; omega
    | ⟨1, _⟩ => show win0_1.index t (1 : Fin 2) * 3072 + 1 * ((y 1).val) = win0_2.index t (1 : Fin 2) * 1024 + 1 * (y 1).val; omega

/-- An index of the array is in tile `t`'s block iff each coordinate is in the block's range on its axis. -/
theorem mem_block2 (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v4_0).slice (win0_2.rect t)).set ↔ _
  rw [View.set_slice_whole, Rect.mem_set_unit]
  exact Iff.rfl

/-- Row `r` of the array is in the block of tile `r / 512`, which is written back. -/
theorem covered2 (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have ht : (i 0).val / 512 < grid0.N := by rw [N_0]; omega
  refine ⟨⟨(i 0).val / 512, ht⟩, flush0_2 _, ?_⟩
  rw [mem_block2]
  obtain ⟨e0, e1, e2, e3, e4, e5⟩ := blockIdx2 ⟨(i 0).val / 512, ht⟩
  have e5' : win0_2.index ⟨(i 0).val / 512, ht⟩ (0 : Fin 2) = (i 0).val / 512 := e5
  intro a
  match a with
  | ⟨0, _⟩ => show win0_2.index ⟨(i 0).val / 512, ht⟩ (0 : Fin 2) * 512 ≤ (i 0).val ∧ (i 0).val < win0_2.index ⟨(i 0).val / 512, ht⟩ (0 : Fin 2) * 512 + 512; omega
  | ⟨1, _⟩ => show win0_2.index ⟨(i 0).val / 512, ht⟩ (1 : Fin 2) * 1024 ≤ (i 1).val ∧ (i 1).val < win0_2.index ⟨(i 0).val / 512, ht⟩ (1 : Fin 2) * 1024 + 1024; omega

/-- The first projected array after the call: `cols2` of `x` and the stacked weights as the call finds them. -/
theorem projected_2 (c : Dev nD) :
    (dat0 (F := Ideal) V c).arrAt 2 cfg0.N = cols2 (V c main_v0) (V c main_v3) :=
  (dat0 (F := Ideal) V c).arrAt_eq_of_cover 2 (cols2 (V c main_v0) (V c main_v3)) (fun t _ => written2 V c t) covered2

/-! ## The second projected array -/

/-- What the second projected array holds after the call, as a function of `x` (16384 × 1024) and the stacked weights
    (1024 × 3072): row r, column h is the sum over the embedding coordinate e of x[r, e] · W[e, h + 1024]. -/
def cols3 (X : S16384x1024.Idx → EReal) (Wc : S1024x3072.Idx → EReal) : S16384x1024.Idx → EReal :=
  fun j => ∑ e : Fin 1024, X (ix2 (j 0) e) * Wc (ix2 e ⟨(j 1).val + 1024, by have hj : (j 1).val < 1024 := (j 1).isLt; omega⟩)

/-- The block indices of the windows, over the 32 tiles: the row tile of `x` and the result tile move together (block row
    `t`, block column 0), the weights stay at block (0, 0). -/
theorem blockIdx3 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_3.index t (1 : Fin 2) = 0 ∧ win0_3.index t (0 : Fin 2) = t.val :=
  (by decide +kernel : ∀ t : Fin grid0.N, _)

/-- What tile `t` writes back is block `t` of `cols3` of the two input arrays as the call finds them. -/
theorem written3 (c : Dev nD) (t : Fin cfg0.N) :
    (dat0 (F := Ideal) V c).flushed 3 t
      = ((cfg0.win 3).blk t).view.read (Elt Ideal) (cols3 (V c main_v0) (V c main_v3)) := by
  show (cfg0.win 3).cut (grid0.coords t) ((dat0 (F := Ideal) V c).after 3 t) = _
  rw [after0_3]
  unfold out0_3
  rw [View.canon_unit_zero zeroOffsets]
  simp only [View.ld_unit_zero (S := S512x1024) zeroOffsets, View.ld_unit_zero (S := S1024x3072) zeroOffsets]
  obtain ⟨e0, e1, e2, e3, e4, e5⟩ := blockIdx3 t
  funext y
  refine (panel3_apply (iblk0 (F := Ideal) V c 0 t) (iblk0 (F := Ideal) V c 1 t) ((cfg0.win 3).xinj (grid0.coords t) y)).trans ?_
  show _ = cols3 (V c main_v0) (V c main_v3) (((cfg0.win 3).blk t).view.emb y)
  unfold cols3
  refine Finset.sum_congr rfl fun e _ => ?_
  refine congr (congrArg _ ?_) ?_
  · show (V c main_v0 : S16384x1024.Idx → EReal) (((cfg0.win 0).blk t).view.emb _) = _
    refine congrArg _ (funext fun a => Fin.ext ?_)
    match a with
    | ⟨0, _⟩ => show win0_0.index t (0 : Fin 2) * 512 + 1 * (y 0).val = win0_3.index t (0 : Fin 2) * 512 + 1 * (y 0).val; omega
    | ⟨1, _⟩ => show win0_0.index t (1 : Fin 2) * 1024 + 1 * e.val = e.val; omega
  · show (V c main_v3 : S1024x3072.Idx → EReal) (((cfg0.win 1).blk t).view.emb _) = _
    refine congrArg _ (funext fun a => Fin.ext ?_)
    match a with
    | ⟨0, _⟩ => show win0_1.index t (0 : Fin 2) * 1024 + 1 * e.val = e.val; omega
    | ⟨1, _⟩ => show win0_1.index t (1 : Fin 2) * 3072 + 1 * ((y 1).val + 1024) = win0_3.index t (1 : Fin 2) * 1024 + 1 * (y 1).val + 1024; omega

/-- An index of the array is in tile `t`'s block iff each coordinate is in the block's range on its axis. -/
theorem mem_block3 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_1).slice (win0_3.rect t)).set ↔ _
  rw [View.set_slice_whole, Rect.mem_set_unit]
  exact Iff.rfl

/-- Row `r` of the array is in the block of tile `r / 512`, which is written back. -/
theorem covered3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have ht : (i 0).val / 512 < grid0.N := by rw [N_0]; omega
  refine ⟨⟨(i 0).val / 512, ht⟩, flush0_3 _, ?_⟩
  rw [mem_block3]
  obtain ⟨e0, e1, e2, e3, e4, e5⟩ := blockIdx3 ⟨(i 0).val / 512, ht⟩
  have e5' : win0_3.index ⟨(i 0).val / 512, ht⟩ (0 : Fin 2) = (i 0).val / 512 := e5
  intro a
  match a with
  | ⟨0, _⟩ => show win0_3.index ⟨(i 0).val / 512, ht⟩ (0 : Fin 2) * 512 ≤ (i 0).val ∧ (i 0).val < win0_3.index ⟨(i 0).val / 512, ht⟩ (0 : Fin 2) * 512 + 512; omega
  | ⟨1, _⟩ => show win0_3.index ⟨(i 0).val / 512, ht⟩ (1 : Fin 2) * 1024 ≤ (i 1).val ∧ (i 1).val < win0_3.index ⟨(i 0).val / 512, ht⟩ (1 : Fin 2) * 1024 + 1024; omega

/-- The second projected array after the call: `cols3` of `x` and the stacked weights as the call finds them. -/
theorem projected_3 (c : Dev nD) :
    (dat0 (F := Ideal) V c).arrAt 3 cfg0.N = cols3 (V c main_v0) (V c main_v3) :=
  (dat0 (F := Ideal) V c).arrAt_eq_of_cover 3 (cols3 (V c main_v0) (V c main_v3)) (fun t _ => written3 V c t) covered3

/-! ## The third projected array -/

/-- What the third projected array holds after the call, as a function of `x` (16384 × 1024) and the stacked weights
    (1024 × 3072): row r, column h is the sum over the embedding coordinate e of x[r, e] · W[e, h + 2048]. -/
def cols4 (X : S16384x1024.Idx → EReal) (Wc : S1024x3072.Idx → EReal) : S16384x1024.Idx → EReal :=
  fun j => ∑ e : Fin 1024, X (ix2 (j 0) e) * Wc (ix2 e ⟨(j 1).val + 2048, by have hj : (j 1).val < 1024 := (j 1).isLt; omega⟩)

/-- The block indices of the windows, over the 32 tiles: the row tile of `x` and the result tile move together (block row
    `t`, block column 0), the weights stay at block (0, 0). -/
theorem blockIdx4 : ∀ t : Fin cfg0.N, win0_0.index t (0 : Fin 2) = win0_4.index t (0 : Fin 2)
    ∧ win0_0.index t (1 : Fin 2) = 0 ∧ win0_1.index t (0 : Fin 2) = 0 ∧ win0_1.index t (1 : Fin 2) = 0
    ∧ win0_4.index t (1 : Fin 2) = 0 ∧ win0_4.index t (0 : Fin 2) = t.val :=
  (by decide +kernel : ∀ t : Fin grid0.N, _)

/-- What tile `t` writes back is block `t` of `cols4` of the two input arrays as the call finds them. -/
theorem written4 (c : Dev nD) (t : Fin cfg0.N) :
    (dat0 (F := Ideal) V c).flushed 4 t
      = ((cfg0.win 4).blk t).view.read (Elt Ideal) (cols4 (V c main_v0) (V c main_v3)) := by
  show (cfg0.win 4).cut (grid0.coords t) ((dat0 (F := Ideal) V c).after 4 t) = _
  rw [after0_4]
  unfold out0_4
  rw [View.canon_unit_zero zeroOffsets]
  simp only [View.ld_unit_zero (S := S512x1024) zeroOffsets, View.ld_unit_zero (S := S1024x3072) zeroOffsets]
  obtain ⟨e0, e1, e2, e3, e4, e5⟩ := blockIdx4 t
  funext y
  refine (panel4_apply (iblk0 (F := Ideal) V c 0 t) (iblk0 (F := Ideal) V c 1 t) ((cfg0.win 4).xinj (grid0.coords t) y)).trans ?_
  show _ = cols4 (V c main_v0) (V c main_v3) (((cfg0.win 4).blk t).view.emb y)
  unfold cols4
  refine Finset.sum_congr rfl fun e _ => ?_
  refine congr (congrArg _ ?_) ?_
  · show (V c main_v0 : S16384x1024.Idx → EReal) (((cfg0.win 0).blk t).view.emb _) = _
    refine congrArg _ (funext fun a => Fin.ext ?_)
    match a with
    | ⟨0, _⟩ => show win0_0.index t (0 : Fin 2) * 512 + 1 * (y 0).val = win0_4.index t (0 : Fin 2) * 512 + 1 * (y 0).val; omega
    | ⟨1, _⟩ => show win0_0.index t (1 : Fin 2) * 1024 + 1 * e.val = e.val; omega
  · show (V c main_v3 : S1024x3072.Idx → EReal) (((cfg0.win 1).blk t).view.emb _) = _
    refine congrArg _ (funext fun a => Fin.ext ?_)
    match a with
    | ⟨0, _⟩ => show win0_1.index t (0 : Fin 2) * 1024 + 1 * e.val = e.val; omega
    | ⟨1, _⟩ => show win0_1.index t (1 : Fin 2) * 3072 + 1 * ((y 1).val + 2048) = win0_4.index t (1 : Fin 2) * 1024 + 1 * (y 1).val + 2048; omega

/-- An index of the array is in tile `t`'s block iff each coordinate is in the block's range on its axis. -/
theorem mem_block4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_2).slice (win0_4.rect t)).set ↔ _
  rw [View.set_slice_whole, Rect.mem_set_unit]
  exact Iff.rfl

/-- Row `r` of the array is in the block of tile `r / 512`, which is written back. -/
theorem covered4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have ht : (i 0).val / 512 < grid0.N := by rw [N_0]; omega
  refine ⟨⟨(i 0).val / 512, ht⟩, flush0_4 _, ?_⟩
  rw [mem_block4]
  obtain ⟨e0, e1, e2, e3, e4, e5⟩ := blockIdx4 ⟨(i 0).val / 512, ht⟩
  have e5' : win0_4.index ⟨(i 0).val / 512, ht⟩ (0 : Fin 2) = (i 0).val / 512 := e5
  intro a
  match a with
  | ⟨0, _⟩ => show win0_4.index ⟨(i 0).val / 512, ht⟩ (0 : Fin 2) * 512 ≤ (i 0).val ∧ (i 0).val < win0_4.index ⟨(i 0).val / 512, ht⟩ (0 : Fin 2) * 512 + 512; omega
  | ⟨1, _⟩ => show win0_4.index ⟨(i 0).val / 512, ht⟩ (1 : Fin 2) * 1024 ≤ (i 1).val ∧ (i 1).val < win0_4.index ⟨(i 0).val / 512, ht⟩ (1 : Fin 2) * 1024 + 1024; omega

/-- The third projected array after the call: `cols4` of `x` and the stacked weights as the call finds them. -/
theorem projected_4 (c : Dev nD) :
    (dat0 (F := Ideal) V c).arrAt 4 cfg0.N = cols4 (V c main_v0) (V c main_v3) :=
  (dat0 (F := Ideal) V c).arrAt_eq_of_cover 4 (cols4 (V c main_v0) (V c main_v3)) (fun t _ => written4 V c t) covered4

end Arrays

/-! # The host operations around the call -/

section Host

variable (W : Valuation τ sig (Elt Ideal))

/-- Before the call `x` is reshaped from [8, 2048, 1024] to [16384, 1024]. -/
theorem flatX_eq : (StableHlo.after (hostOps0 (F := Ideal)) W (Proc.devRef .tc main_v0) : S16384x1024.Idx → EReal)
    = shapeCast S16384x1024 (W (Proc.devRef .tc main_arg0) : S8x2048x1024.Idx → EReal) shapeCasts_S8x2048x1024_S16384x1024 := by
  show StableHlo.after (hostOps0 (F := Ideal)) W (Proc.devRef .tc main_v0) = _
  after_results
  rfl

/-- The reshape is row-major: row r of the flat array is row r mod 2048 of batch r / 2048. -/
theorem entry_x (r : Fin 16384) (e : Fin 1024) :
    (StableHlo.after (hostOps0 (F := Ideal)) W (Proc.devRef .tc main_v0) : S16384x1024.Idx → EReal) (ix2 r e)
      = (W (Proc.devRef .tc main_arg0) : S8x2048x1024.Idx → EReal) (ix3 ⟨r.val / 2048, by have := r.isLt; omega⟩ ⟨r.val % 2048, by omega⟩ e) := by
  rw [flatX_eq]
  refine shapeCast_apply (s := S8x2048x1024) (t := S16384x1024) _ _ (ix2 r e) (ix3 ⟨r.val / 2048, by have := r.isLt; omega⟩ ⟨r.val % 2048, by omega⟩ e) ?_
  rw [Shape.rowMajor_val_three, Shape.rowMajor_val_two]
  show (r.val / 2048 * 2048 + r.val % 2048) * 1024 + e.val = r.val * 1024 + e.val
  omega

/-- The stacked weights: the three matrices one under the other (3072 × 1024), transposed, rounded. -/
theorem stacked_eq : (StableHlo.after (hostOps0 (F := Ideal)) W (Proc.devRef .tc main_v3) : S1024x3072.Idx → EReal)
    = (truncf .bf16 (transpose S1024x3072 [1, 0]
        (concatenate S3072x1024 0 [⟨S1024x1024, (W (Proc.devRef .tc main_arg1) : S1024x1024.Idx → EReal)⟩,
          ⟨S1024x1024, (W (Proc.devRef .tc main_arg2) : S1024x1024.Idx → EReal)⟩,
          ⟨S1024x1024, (W (Proc.devRef .tc main_arg3) : S1024x1024.Idx → EReal)⟩] concatenates_S1024x1024_S1024x1024_S1024x1024_S3072x1024_d0 : FVec Ideal S3072x1024 .f32)
        transposes_S3072x1024_S1024x3072_1_0) bitsLt_bf16_f32 : FVec Ideal S1024x3072 .bf16) := by
  show StableHlo.after (hostOps0 (F := Ideal)) W (Proc.devRef .tc main_v3) = _
  after_results
  rfl

end Host

section Host2

variable (W : Valuation τ sig (Elt Ideal))

/-- Column h of the stacked weights is row h of the first matrix, row h - 1024 of the second, or row h - 2048 of the
    third, by where h falls. -/
theorem entry_w (e : Fin 1024) (h : Fin 3072) :
    (StableHlo.after (hostOps0 (F := Ideal)) W (Proc.devRef .tc main_v3) : S1024x3072.Idx → EReal) (ix2 e h)
      = if h1 : h.val < 1024 then (W (Proc.devRef .tc main_arg1) : S1024x1024.Idx → EReal) (ix2 ⟨h.val, h1⟩ e)
        else if h2 : h.val < 2048 then (W (Proc.devRef .tc main_arg2) : S1024x1024.Idx → EReal) (ix2 ⟨h.val - 1024, by omega⟩ e)
        else (W (Proc.devRef .tc main_arg3) : S1024x1024.Idx → EReal) (ix2 ⟨h.val - 2048, by have := h.isLt; omega⟩ e) := by
  rw [stacked_eq]
  refine (truncf_apply (φ := .f32) (ψ := .bf16) _ bitsLt_bf16_f32 (ix2 e h)).trans ?_
  refine (transpose_apply (s := S3072x1024) (t := S1024x3072) [1, 0] _ transposes_S3072x1024_S1024x3072_1_0 (ix2 e h) (ix2 h e) (fun b => ?_)).trans ?_
  · match b with
    | ⟨0, _⟩ => rfl
    | ⟨1, _⟩ => rfl
  by_cases h1 : h.val < 1024
  · rw [dif_pos h1]
    refine concatenate_apply_piece (t := S3072x1024) 0 _ _ (ix2 h e) 0 (by show (0 : ℕ) < 3; omega) S1024x1024 _ rfl rfl 0 rfl (ix2 ⟨h.val, h1⟩ e) (fun b hb => ?_) ?_
    · match b with
      | ⟨0, _⟩ => exact absurd rfl hb
      | ⟨1, _⟩ => rfl
    · exact Nat.zero_add _
  · rw [dif_neg h1]
    by_cases h2 : h.val < 2048
    · rw [dif_pos h2]
      refine concatenate_apply_piece (t := S3072x1024) 0 _ _ (ix2 h e) 1 (by show (1 : ℕ) < 3; omega) S1024x1024 _ rfl rfl 1024 rfl (ix2 ⟨h.val - 1024, by omega⟩ e) (fun b hb => ?_) ?_
      · match b with
        | ⟨0, _⟩ => exact absurd rfl hb
        | ⟨1, _⟩ => rfl
      · show 1024 + (h.val - 1024) = h.val; omega
    · rw [dif_neg h2]
      refine concatenate_apply_piece (t := S3072x1024) 0 _ _ (ix2 h e) 2 (by show (2 : ℕ) < 3; omega) S1024x1024 _ rfl rfl 2048 rfl (ix2 ⟨h.val - 2048, by have := h.isLt; omega⟩ e) (fun b hb => ?_) ?_
      · match b with
        | ⟨0, _⟩ => exact absurd rfl hb
        | ⟨1, _⟩ => rfl
      · show 2048 + (h.val - 2048) = h.val; omega

end Host2

section Host3

variable (W : Valuation τ sig (Elt Ideal))

/-- After the call the first projected array is reshaped back from [16384, 1024] to [8, 2048, 1024]. -/
theorem unflat5_eq : (StableHlo.after (hostOps1 (F := Ideal)) W (Proc.devRef .tc main_v5) : S8x2048x1024.Idx → EReal)
    = shapeCast S8x2048x1024 (W (Proc.devRef .tc main_v4_0) : S16384x1024.Idx → EReal) shapeCasts_S16384x1024_S8x2048x1024 := by
  show StableHlo.after (hostOps1 (F := Ideal)) W (Proc.devRef .tc main_v5) = _
  after_results
  rfl

/-- Row t of batch b is row 2048 · b + t of the flat array. -/
theorem reshaped_5 (b : Fin 8) (t : Fin 2048) (d : Fin 1024) :
    (StableHlo.after (hostOps1 (F := Ideal)) W (Proc.devRef .tc main_v5) : S8x2048x1024.Idx → EReal) (ix3 b t d)
      = (W (Proc.devRef .tc main_v4_0) : S16384x1024.Idx → EReal) (ix2 ⟨2048 * b.val + t.val, by have := b.isLt; have := t.isLt; omega⟩ d) := by
  rw [unflat5_eq]
  refine shapeCast_apply (s := S16384x1024) (t := S8x2048x1024) _ _ (ix3 b t d) (ix2 ⟨2048 * b.val + t.val, by have := b.isLt; have := t.isLt; omega⟩ d) ?_
  rw [Shape.rowMajor_val_three, Shape.rowMajor_val_two]
  show (2048 * b.val + t.val) * 1024 + d.val = (b.val * 2048 + t.val) * 1024 + d.val
  omega

/-- After the call the second projected array is reshaped back from [16384, 1024] to [8, 2048, 1024]. -/
theorem unflat6_eq : (StableHlo.after (hostOps1 (F := Ideal)) W (Proc.devRef .tc main_v6) : S8x2048x1024.Idx → EReal)
    = shapeCast S8x2048x1024 (W (Proc.devRef .tc main_v4_1) : S16384x1024.Idx → EReal) shapeCasts_S16384x1024_S8x2048x1024 := by
  show StableHlo.after (hostOps1 (F := Ideal)) W (Proc.devRef .tc main_v6) = _
  after_results
  rfl

/-- Row t of batch b is row 2048 · b + t of the flat array. -/
theorem reshaped_6 (b : Fin 8) (t : Fin 2048) (d : Fin 1024) :
    (StableHlo.after (hostOps1 (F := Ideal)) W (Proc.devRef .tc main_v6) : S8x2048x1024.Idx → EReal) (ix3 b t d)
      = (W (Proc.devRef .tc main_v4_1) : S16384x1024.Idx → EReal) (ix2 ⟨2048 * b.val + t.val, by have := b.isLt; have := t.isLt; omega⟩ d) := by
  rw [unflat6_eq]
  refine shapeCast_apply (s := S16384x1024) (t := S8x2048x1024) _ _ (ix3 b t d) (ix2 ⟨2048 * b.val + t.val, by have := b.isLt; have := t.isLt; omega⟩ d) ?_
  rw [Shape.rowMajor_val_three, Shape.rowMajor_val_two]
  show (2048 * b.val + t.val) * 1024 + d.val = (b.val * 2048 + t.val) * 1024 + d.val
  omega

/-- After the call the third projected array is reshaped back from [16384, 1024] to [8, 2048, 1024]. -/
theorem unflat7_eq : (StableHlo.after (hostOps1 (F := Ideal)) W (Proc.devRef .tc main_v7) : S8x2048x1024.Idx → EReal)
    = shapeCast S8x2048x1024 (W (Proc.devRef .tc main_v4_2) : S16384x1024.Idx → EReal) shapeCasts_S16384x1024_S8x2048x1024 := by
  show StableHlo.after (hostOps1 (F := Ideal)) W (Proc.devRef .tc main_v7) = _
  after_results
  rfl

/-- Row t of batch b is row 2048 · b + t of the flat array. -/
theorem reshaped_7 (b : Fin 8) (t : Fin 2048) (d : Fin 1024) :
    (StableHlo.after (hostOps1 (F := Ideal)) W (Proc.devRef .tc main_v7) : S8x2048x1024.Idx → EReal) (ix3 b t d)
      = (W (Proc.devRef .tc main_v4_2) : S16384x1024.Idx → EReal) (ix2 ⟨2048 * b.val + t.val, by have := b.isLt; have := t.isLt; omega⟩ d) := by
  rw [unflat7_eq]
  refine shapeCast_apply (s := S16384x1024) (t := S8x2048x1024) _ _ (ix3 b t d) (ix2 ⟨2048 * b.val + t.val, by have := b.isLt; have := t.isLt; omega⟩ d) ?_
  rw [Shape.rowMajor_val_three, Shape.rowMajor_val_two]
  show (2048 * b.val + t.val) * 1024 + d.val = (b.val * 2048 + t.val) * 1024 + d.val
  omega

end Host3

/-! # The attention call's inputs as functions of the program's arguments -/

section Entry

variable (m : (ℓ : Loc nD τ sig) → Buf (Elt Ideal) ℓ) (ρ : Dev nD → PrngReg)

/-- An array [8, 2048, 1024] by its coordinates (batch, row, column). -/
def arr3 (x : S8x2048x1024.Idx → EReal) : Arr3 := fun b t c => x (ix3 b t c)
/-- A weight matrix [1024, 1024] by its coordinates (output feature, input feature). -/
def mat (w : S1024x1024.Idx → EReal) : Mat := fun h c => w (ix2 h c)

/-- The attention call's query input is `x` projected by the first weight matrix. -/
theorem q_entry (c : Dev nD) :
    (fun b t d => (E3 (F := Ideal) m ρ c main_v5 : S8x2048x1024.Idx → EReal) (ix3 b t d))
      = proj (arr3 (m ((c : Thread nD τ).loc main_arg0))) (mat (m ((c : Thread nD τ).loc main_arg1))) := by
  funext b t d
  have hr : 2048 * b.val + t.val < 16384 := by have := b.isLt; have := t.isLt; omega
  have hd : d.val < 3072 := by have := d.isLt; omega
  refine (reshaped_5 (B2 (F := Ideal) m ρ c) b t d).trans ?_
  have hcols : (B2 (F := Ideal) m ρ c (Proc.devRef .tc main_v4_0) : S16384x1024.Idx → EReal)
      = cols2 (E1 (F := Ideal) m ρ c main_v0) (E1 (F := Ideal) m ρ c main_v3) :=
    (B2_arr (F := Ideal) m ρ c 2).trans (projected_2 (E1 (F := Ideal) m ρ) c)
  refine (congrFun hcols _).trans ?_
  show cols2 (E1 (F := Ideal) m ρ c main_v0) (E1 (F := Ideal) m ρ c main_v3) (ix2 ⟨2048 * b.val + t.val, hr⟩ d)
    = ∑ e : Fin 1024, arr3 (m ((c : Thread nD τ).loc main_arg0)) b t e * mat (m ((c : Thread nD τ).loc main_arg1)) d e
  unfold cols2
  refine Finset.sum_congr rfl fun e _ => ?_
  refine congr (congrArg _ ?_) ?_
  · refine (entry_x (B0 (F := Ideal) m ρ c) ⟨2048 * b.val + t.val, hr⟩ e).trans ?_
    show (m ((c : Thread nD τ).loc main_arg0) : S8x2048x1024.Idx → EReal) _ = (m ((c : Thread nD τ).loc main_arg0) : S8x2048x1024.Idx → EReal) (ix3 b t e)
    refine congrArg _ (funext fun a => Fin.ext ?_)
    match a with
    | ⟨0, _⟩ => show (2048 * b.val + t.val) / 2048 = b.val; have := t.isLt; omega
    | ⟨1, _⟩ => show (2048 * b.val + t.val) % 2048 = t.val; have := t.isLt; omega
    | ⟨2, _⟩ => rfl
  · refine (entry_w (B0 (F := Ideal) m ρ c) e ⟨d.val, hd⟩).trans ?_
    rw [dif_pos (show d.val < 1024 from d.isLt)]
    rfl

/-- The attention call's key input is `x` projected by the second weight matrix. -/
theorem k_entry (c : Dev nD) :
    (fun b t d => (E3 (F := Ideal) m ρ c main_v6 : S8x2048x1024.Idx → EReal) (ix3 b t d))
      = proj (arr3 (m ((c : Thread nD τ).loc main_arg0))) (mat (m ((c : Thread nD τ).loc main_arg2))) := by
  funext b t d
  have hr : 2048 * b.val + t.val < 16384 := by have := b.isLt; have := t.isLt; omega
  have hd : d.val + 1024 < 3072 := by have := d.isLt; omega
  refine (reshaped_6 (B2 (F := Ideal) m ρ c) b t d).trans ?_
  have hcols : (B2 (F := Ideal) m ρ c (Proc.devRef .tc main_v4_1) : S16384x1024.Idx → EReal)
      = cols3 (E1 (F := Ideal) m ρ c main_v0) (E1 (F := Ideal) m ρ c main_v3) :=
    (B2_arr (F := Ideal) m ρ c 3).trans (projected_3 (E1 (F := Ideal) m ρ) c)
  refine (congrFun hcols _).trans ?_
  show cols3 (E1 (F := Ideal) m ρ c main_v0) (E1 (F := Ideal) m ρ c main_v3) (ix2 ⟨2048 * b.val + t.val, hr⟩ d)
    = ∑ e : Fin 1024, arr3 (m ((c : Thread nD τ).loc main_arg0)) b t e * mat (m ((c : Thread nD τ).loc main_arg2)) d e
  unfold cols3
  refine Finset.sum_congr rfl fun e _ => ?_
  refine congr (congrArg _ ?_) ?_
  · refine (entry_x (B0 (F := Ideal) m ρ c) ⟨2048 * b.val + t.val, hr⟩ e).trans ?_
    show (m ((c : Thread nD τ).loc main_arg0) : S8x2048x1024.Idx → EReal) _ = (m ((c : Thread nD τ).loc main_arg0) : S8x2048x1024.Idx → EReal) (ix3 b t e)
    refine congrArg _ (funext fun a => Fin.ext ?_)
    match a with
    | ⟨0, _⟩ => show (2048 * b.val + t.val) / 2048 = b.val; have := t.isLt; omega
    | ⟨1, _⟩ => show (2048 * b.val + t.val) % 2048 = t.val; have := t.isLt; omega
    | ⟨2, _⟩ => rfl
  · refine (entry_w (B0 (F := Ideal) m ρ c) e ⟨d.val + 1024, hd⟩).trans ?_
    rw [dif_neg (show ¬ (d.val + 1024 < 1024) by omega), dif_pos (show d.val + 1024 < 2048 by have := d.isLt; omega)]
    show (m ((c : Thread nD τ).loc main_arg2) : S1024x1024.Idx → EReal) _ = (m ((c : Thread nD τ).loc main_arg2) : S1024x1024.Idx → EReal) (ix2 d e)
    refine congrArg _ (funext fun a => Fin.ext ?_)
    match a with
    | ⟨0, _⟩ => show d.val + 1024 - 1024 = d.val; omega
    | ⟨1, _⟩ => rfl

/-- The attention call's value input is `x` projected by the third weight matrix. -/
theorem v_entry (c : Dev nD) :
    (fun b t d => (E3 (F := Ideal) m ρ c main_v7 : S8x2048x1024.Idx → EReal) (ix3 b t d))
      = proj (arr3 (m ((c : Thread nD τ).loc main_arg0))) (mat (m ((c : Thread nD τ).loc main_arg3))) := by
  funext b t d
  have hr : 2048 * b.val + t.val < 16384 := by have := b.isLt; have := t.isLt; omega
  have hd : d.val + 2048 < 3072 := by have := d.isLt; omega
  refine (reshaped_7 (B2 (F := Ideal) m ρ c) b t d).trans ?_
  have hcols : (B2 (F := Ideal) m ρ c (Proc.devRef .tc main_v4_2) : S16384x1024.Idx → EReal)
      = cols4 (E1 (F := Ideal) m ρ c main_v0) (E1 (F := Ideal) m ρ c main_v3) :=
    (B2_arr (F := Ideal) m ρ c 4).trans (projected_4 (E1 (F := Ideal) m ρ) c)
  refine (congrFun hcols _).trans ?_
  show cols4 (E1 (F := Ideal) m ρ c main_v0) (E1 (F := Ideal) m ρ c main_v3) (ix2 ⟨2048 * b.val + t.val, hr⟩ d)
    = ∑ e : Fin 1024, arr3 (m ((c : Thread nD τ).loc main_arg0)) b t e * mat (m ((c : Thread nD τ).loc main_arg3)) d e
  unfold cols4
  refine Finset.sum_congr rfl fun e _ => ?_
  refine congr (congrArg _ ?_) ?_
  · refine (entry_x (B0 (F := Ideal) m ρ c) ⟨2048 * b.val + t.val, hr⟩ e).trans ?_
    show (m ((c : Thread nD τ).loc main_arg0) : S8x2048x1024.Idx → EReal) _ = (m ((c : Thread nD τ).loc main_arg0) : S8x2048x1024.Idx → EReal) (ix3 b t e)
    refine congrArg _ (funext fun a => Fin.ext ?_)
    match a with
    | ⟨0, _⟩ => show (2048 * b.val + t.val) / 2048 = b.val; have := t.isLt; omega
    | ⟨1, _⟩ => show (2048 * b.val + t.val) % 2048 = t.val; have := t.isLt; omega
    | ⟨2, _⟩ => rfl
  · refine (entry_w (B0 (F := Ideal) m ρ c) e ⟨d.val + 2048, hd⟩).trans ?_
    rw [dif_neg (show ¬ (d.val + 2048 < 1024) by omega), dif_neg (show ¬ (d.val + 2048 < 2048) by omega)]
    show (m ((c : Thread nD τ).loc main_arg3) : S1024x1024.Idx → EReal) _ = (m ((c : Thread nD τ).loc main_arg3) : S1024x1024.Idx → EReal) (ix2 d e)
    refine congrArg _ (funext fun a => Fin.ext ?_)
    match a with
    | ⟨0, _⟩ => show d.val + 2048 - 2048 = d.val; omega
    | ⟨1, _⟩ => rfl

end Entry

end Cert.KernelIdeal.Val0

end
-- ==== Proof.KiPay.lean ====
/-
  The arithmetic of the attention body, one stored value at a time, read at coordinates on the extended reals.
  For a q tile qi (rows 512·qi + p) and a kv tile ki (keys 1024·ki + j): the causal scaled score
  (Σ_d q[p,d]·k[j,d])·(1/32) where the key is not after the row, −∞ elsewhere; the running maximum
  max(m, max_j score); the rescaling factor exp(m − m'); the weights exp(score − m'); the running sum
  exp(m − m')·l + Σ_j weights; the running weighted sum a·acc + Σ_j weight[p,j]·v[j,h]; and the quotient acc / l.
-/
import proofs.«418402_j22917945491929_3_alg».proof.Proof.Gen.KernelIdeal.Skeleton
import proofs.«418402_j22917945491929_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Pay

open Cert.KernelIdeal Cert.KernelIdeal.Gen Cert.Spec Idealize.ShloMosaic ValueIdx
open scoped BigOperators

/-! ## Layout operations of the body, read at coordinates -/

/-- A column [512] viewed [512, 1] reads, at (p, 0), the entry p. -/
theorem cast_col (v : FVec Ideal S512 .f32) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]
    show p.val = p.val * 1 + 0
    omega)

/-- A column [512, 1] spread over 1024 lanes reads, at (p, j), the column's entry p. -/
theorem bcast_col (v : FVec Ideal S512x1 .f32) (p : Fin 512) (j : Fin 1024) :
    broadcastTo S512x1024 v broadcasts_S512x1_S512x1024 (ix2 p j) = v (ix2 p (0 : Fin 1)) := by
  refine broadcastTo_apply v broadcasts_S512x1_S512x1024 (ix2 p j) (ix2 p (0 : Fin 1)) fun ax => ?_
  match ax with
  | ⟨0, _⟩ =>
    show p.val = if (512 : ℕ) = 1 then 0 else p.val
    rw [if_neg (by decide)]
  | ⟨1, _⟩ =>
    show (0 : ℕ) = if (1 : ℕ) = 1 then 0 else j.val
    rw [if_pos rfl]

/-! ## The product of a [512, 1024] block with a [1024, 1024] block -/

theorem mm_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into a zero accumulator, entry (p, j) of the product is the sum over d of A[p, d] · B[d, j]. -/
theorem mm_apply (A : FVec Ideal S512x1024 .bf16) (B : FVec Ideal S1024x1024 .bf16) (p : Fin 512) (j : Fin 1024) :
    matmul dot_S512x1024_S1024x1024_S512x1024_1_0_0_1_n_n none A B (constant (F := Ideal) S512x1024 .f32 0x00000000#32) (ix2 p j)
      = ∑ d : Fin 1024, A (ix2 p d) * B (ix2 d j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p j) ((ValueIdx.contrEquiv1 dot_S512x1024_S1024x1024_S512x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S512x1024_S1024x1024_S512x1024_1_0_0_1_n_n.rhsIdx (ix2 p j) ((ValueIdx.contrEquiv1 dot_S512x1024_S1024x1024_S512x1024_1_0_0_1_n_n 1024 rfl rfl).symm k) = ix2 k j := funext fun a => Fin.ext (by
    match a with
    | ⟨0, _⟩ => exact (mm_rhs_0 _ _).trans hk
    | ⟨1, _⟩ => exact mm_rhs_1 _ _)
  rw [el, er]

/-! ## Constants -/

/-- The f32 pattern 0xFF800000 is −∞. -/
theorem neg_inf_bits : Ideal.ofBits .f32 0xFF800000#32 = (⊥ : EReal) := by
  simp [Ideal.ofBits, Ideal.ieee]

/-- The masked-out score: the named constant is −∞. -/
theorem neg_big_eq : Named.named (F := Ideal) Cert.KernelIdeal.κ "neg_big" (φ := .f32) 0xF149F2CA#32 = (⊥ : EReal) :=
  IdealRules.named_const.ideal_named_scalar _ _ _ _ rfl

/-! ## Row reductions over the 1024 lanes -/

/-- Row p with lane k inserted is the index (p, k). -/
theorem lift_row (p : Fin 512) (k : Fin 1024) :
    reduces_S512x1024_S512.lift (ix1 p) k = ix2 p k :=
  funext fun c => Fin.ext (by
    match c with
    | ⟨0, _⟩ => rfl
    | ⟨1, _⟩ => rfl)

/-- The row maximum from −∞. -/
theorem rowmax_apply (src : FVec Ideal S512x1024 .f32) (hacc : (0xFF800000#32 : BitVec 32) = 0xFF800000#32) (p : Fin 512) :
    multiReduction .maximumf [1] S512 src 0xFF800000#32 reduces_S512x1024_S512 (.inl rfl) hacc (ix1 p)
      = (Finset.univ : Finset (Fin 1024)).fold max ⊥ (fun j => src (ix2 p j)) := by
  refine (Ideal.multiReduction_maximumf_single src 0xFF800000#32 reduces_S512x1024_S512 (.inl rfl) hacc (ix1 p)).trans ?_
  have hb : FloatOps.ofBits (F := Ideal) .f32 0xFF800000#32 = (⊥ : EReal) := neg_inf_bits
  have hf : (src ∘ reduces_S512x1024_S512.lift (ix1 p)) = fun j : Fin 1024 => src (ix2 p j) :=
    funext fun k => congrArg src (lift_row p k)
  rw [hb]
  exact congrArg ((Finset.univ : Finset (Fin 1024)).fold max (⊥ : EReal)) hf

/-- The row sum. -/
theorem rowsum_apply (src : FVec Ideal S512x1024 .f32) (hacc : (0x00000000#32 : BitVec 32) = 0x00000000#32) (p : Fin 512) :
    multiReduction .add [1] S512 src 0x00000000#32 reduces_S512x1024_S512 (.inl rfl) hacc (ix1 p)
      = ∑ j : Fin 1024, src (ix2 p j) := by
  refine (Ideal.multiReduction_add_single src 0x00000000#32 reduces_S512x1024_S512 (.inl rfl) hacc (ix1 p)).trans ?_
  exact Finset.sum_congr rfl fun k _ => congrArg src (lift_row p k)

/-! ## The causal test on 32-bit words -/

theorem causal_word (qi ki : ℕ) (hqi : qi < 4) (hki : ki < 2) (p : Fin 512) (j : Fin 1024) :
    IntOp.cmpi .sge (IntOp.addi (Scalar.muli (BitVec.ofNat 32 qi) 512#32) (BitVec.ofNat 32 p.val))
        (IntOp.addi (Scalar.muli (BitVec.ofNat 32 ki) 1024#32) (BitVec.ofNat 32 j.val)) = 1#1
      ↔ 1024 * ki + j.val ≤ 512 * qi + p.val := by
  have hp := p.isLt
  have hj := j.isLt
  have ha : (IntOp.addi (Scalar.muli (BitVec.ofNat 32 qi) 512#32) (BitVec.ofNat 32 p.val)).toNat = 512 * qi + p.val := by
    simp only [IntOp.addi, Scalar.muli, IntOp.muli, BitVec.toNat_add, BitVec.toNat_mul, BitVec.toNat_ofNat, Nat.reducePow]
    omega
  have hb : (IntOp.addi (Scalar.muli (BitVec.ofNat 32 ki) 1024#32) (BitVec.ofNat 32 j.val)).toNat = 1024 * ki + j.val := by
    simp only [IntOp.addi, Scalar.muli, IntOp.muli, BitVec.toNat_add, BitVec.toNat_mul, BitVec.toNat_ofNat, Nat.reducePow]
    omega
  rw [StableHlo.Predicate.sge_iff_toNat (by rw [ha]; omega) (by rw [hb]; omega), ha, hb]

/-! ## The payloads -/

/-- The causal scaled score of row p of q-tile qi against key j of kv-tile ki. -/
def tileScore (qi ki : ℕ) (qb : Vec Ideal S1x512x1024 .bf16) (kb : Vec Ideal S1x1024x1024 .bf16) (p : Fin 512) (j : Fin 1024) : EReal :=
  if 1024 * ki + j.val ≤ 512 * qi + p.val then (∑ d : Fin 1024, qb (ix3 (0 : Fin 1) p d) * kb (ix3 (0 : Fin 1) j d)) * cScale else ⊥

theorem pay1_apply (p : Fin 512) : k1_pay1 (F := Ideal) (ix2 p (0 : Fin 1)) = (⊥ : EReal) := by
  unfold k1_pay1
  rw [shapeCast_self]
  exact neg_inf_bits

theorem pay2_apply (p : Fin 512) : k1_pay2 (F := Ideal) (ix2 p (0 : Fin 1)) = (0 : EReal) := by
  unfold k1_pay2
  rw [shapeCast_self]
  exact Ideal.ofBits_zero_f32

theorem pay3_apply (p : Fin 512) (h : Fin 1024) : k1_pay3 (F := Ideal) (ix2 p h) = (0 : EReal) := by
  unfold k1_pay3
  rw [shapeCast_self]
  exact Ideal.ofBits_zero_f32

theorem pay5_eq (m : FVec Ideal S512x1 .f32) : k1_pay5 (F := Ideal) m = m := by
  unfold k1_pay5
  exact shapeCast_self m _

theorem pay7_apply (vb : Vec Ideal S1x1024x1024 .bf16) (j h : Fin 1024) :
    k1_pay7 (F := Ideal) vb (ix2 j h) = vb (ix3 (0 : Fin 1) j h) := by
  unfold k1_pay7
  exact shapeCast_1ab_ab_apply vb _ j h

theorem pay6_apply (acc : FVec Ideal S512x1024 .f32) (l : FVec Ideal S512x1 .f32) (p : Fin 512) (h : Fin 1024) :
    k1_pay6 (F := Ideal) acc l (ix3 (0 : Fin 1) p h) = Ideal.div (acc (ix2 p h)) (l (ix2 p (0 : Fin 1))) := by
  unfold k1_pay6
  refine (shapeCast_ab_1ab_apply _ shapeCasts_S512x1024_S1x512x1024 (0 : Fin 1) p h).trans ?_
  rw [divf_apply, bcast_col]

theorem pay4_apply (v17 : FVec Ideal S1024x1024 .bf16) (a : FVec Ideal S512x1 .f32) (pm acc : FVec Ideal S512x1024 .f32)
    (p : Fin 512) (h : Fin 1024) :
    k1_pay4 (F := Ideal) v17 a pm acc (ix2 p h)
      = a (ix2 p (0 : Fin 1)) * acc (ix2 p h) + ∑ j : Fin 1024, pm (ix2 p j) * v17 (ix2 j h) := by
  unfold k1_pay4
  rw [shapeCast_self, addf_apply, mulf_apply, bcast_col]
  refine congrArg (a (ix2 p (0 : Fin 1)) * acc (ix2 p h) + ·) ?_
  exact mm_apply _ v17 p h

/-- The causal mask at (p, j), as a comparison of two words. -/
theorem mask_apply (a1 a2 : BitVec 32) (p : Fin 512) (j : Fin 1024) :
    cmpi .sge (addi (broadcast S512x1024 (Scalar.muli a1 512#32)) (iota .tc S512x1024 32 [0] iota_S512x1024_d0_w32))
        (addi (broadcast S512x1024 (Scalar.muli a2 1024#32)) (iota .tc S512x1024 32 [1] iota_S512x1024_d1_w32)) (ix2 p j)
      = IntOp.cmpi .sge (IntOp.addi (Scalar.muli a1 512#32) (BitVec.ofNat 32 p.val))
          (IntOp.addi (Scalar.muli a2 1024#32) (BitVec.ofNat 32 j.val)) := by
  show IntOp.cmpi .sge (IntOp.addi (Scalar.muli a1 512#32) (iota .tc S512x1024 32 [0] iota_S512x1024_d0_w32 (ix2 p j)))
      (IntOp.addi (Scalar.muli a2 1024#32) (iota .tc S512x1024 32 [1] iota_S512x1024_d1_w32 (ix2 p j))) = _
  rw [iota_single_apply, iota_single_apply]

/-- The scaled product q · kᵀ at (p, j). -/
theorem qk_apply (qb : FVec Ideal S1x512x1024 .bf16) (kb : FVec Ideal S1x1024x1024 .bf16) (p : Fin 512) (j : Fin 1024) :
    mulf (matmul dot_S512x1024_S1024x1024_S512x1024_1_0_0_1_n_n none (shapeCast S512x1024 qb shapeCasts_S1x512x1024_S512x1024)
          (transpose S1024x1024 [1, 0] (shapeCast S1024x1024 kb shapeCasts_S1x1024x1024_S1024x1024) transposes_S1024x1024_p1_0_S1024x1024)
          (constant (F := Ideal) S512x1024 .f32 0x00000000#32))
        (broadcast S512x1024 (FloatOps.ofBits (F := Ideal) .f32 0x3D000000#32)) (ix2 p j)
      = (∑ d : Fin 1024, qb (ix3 (0 : Fin 1) p d) * kb (ix3 (0 : Fin 1) j d)) * cScale := by
  rw [mulf_apply, broadcast_apply]
  refine congrArg (fun x : EReal => x * cScale) ?_
  refine (mm_apply _ _ p j).trans (Finset.sum_congr rfl fun d _ => ?_)
  rw [shapeCast_1ab_ab_apply, transpose_ix2_apply, shapeCast_1ab_ab_apply]

theorem pay8_apply {qi ki : ℕ} (hqi : qi < 4) (hki : ki < 2) (qb : Vec Ideal S1x512x1024 .bf16) (kb : Vec Ideal S1x1024x1024 .bf16)
    (p : Fin 512) (j : Fin 1024) :
    k1_pay8 (F := Ideal) (BitVec.ofNat 32 qi) (BitVec.ofNat 32 ki) qb kb (ix2 p j) = tileScore qi ki qb kb p j := by
  unfold k1_pay8 tileScore
  refine (select_apply _ _ _ (ix2 p j)).trans ?_
  rw [mask_apply, qk_apply, broadcast_apply, neg_big_eq]
  by_cases hc : 1024 * ki + j.val ≤ 512 * qi + p.val
  · rw [(causal_word qi ki hqi hki p j).2 hc, select_one, if_pos hc]
  · rw [eq_zero_of_ne_one (fun h => hc ((causal_word qi ki hqi hki p j).1 h)), select_zero, if_neg hc]

theorem pay9_apply {qi ki : ℕ} (hqi : qi < 4) (hki : ki < 2) (qb : Vec Ideal S1x512x1024 .bf16) (kb : Vec Ideal S1x1024x1024 .bf16)
    (m : FVec Ideal S512x1 .f32) (p : Fin 512) :
    k1_pay9 (F := Ideal) (BitVec.ofNat 32 qi) (BitVec.ofNat 32 ki) qb kb m (ix2 p (0 : Fin 1))
      = max (m (ix2 p (0 : Fin 1))) ((Finset.univ : Finset (Fin 1024)).fold max ⊥ (tileScore qi ki qb kb p)) := by
  unfold k1_pay9
  rw [maximumf_apply]
  refine congrArg (max (m (ix2 p (0 : Fin 1)))) ?_
  refine (cast_col _ p).trans ?_
  refine (rowmax_apply _ rfl p).trans ?_
  exact congrArg ((Finset.univ : Finset (Fin 1024)).fold max (⊥ : EReal)) (funext fun j => pay8_apply hqi hki qb kb p j)

theorem pay10_apply (a1 a2 : BitVec 32) (qb : Vec Ideal S1x512x1024 .bf16) (kb : Vec Ideal S1x1024x1024 .bf16)
    (m : FVec Ideal S512x1 .f32) (p : Fin 512) :
    k1_pay10 (F := Ideal) a1 a2 qb kb m (ix2 p (0 : Fin 1))
      = Ideal.exp (m (ix2 p (0 : Fin 1)) - k1_pay9 (F := Ideal) a1 a2 qb kb m (ix2 p (0 : Fin 1))) := by
  unfold k1_pay10
  rfl

theorem pay11_apply {qi ki : ℕ} (hqi : qi < 4) (hki : ki < 2) (qb : Vec Ideal S1x512x1024 .bf16) (kb : Vec Ideal S1x1024x1024 .bf16)
    (m : FVec Ideal S512x1 .f32) (p : Fin 512) (j : Fin 1024) :
    k1_pay11 (F := Ideal) (BitVec.ofNat 32 qi) (BitVec.ofNat 32 ki) qb kb m (ix2 p j)
      = Ideal.exp (tileScore qi ki qb kb p j - k1_pay9 (F := Ideal) (BitVec.ofNat 32 qi) (BitVec.ofNat 32 ki) qb kb m (ix2 p (0 : Fin 1))) := by
  unfold k1_pay11
  show Ideal.exp (k1_pay8 (F := Ideal) (BitVec.ofNat 32 qi) (BitVec.ofNat 32 ki) qb kb (ix2 p j)
      - broadcastTo S512x1024 (k1_pay9 (F := Ideal) (BitVec.ofNat 32 qi) (BitVec.ofNat 32 ki) qb kb m) broadcasts_S512x1_S512x1024 (ix2 p j)) = _
  rw [pay8_apply hqi hki, bcast_col]

theorem pay12_apply (a1 a2 : BitVec 32) (qb : Vec Ideal S1x512x1024 .bf16) (kb : Vec Ideal S1x1024x1024 .bf16)
    (m l : FVec Ideal S512x1 .f32) (p : Fin 512) :
    k1_pay12 (F := Ideal) a1 a2 qb kb m l (ix2 p (0 : Fin 1))
      = k1_pay10 (F := Ideal) a1 a2 qb kb m (ix2 p (0 : Fin 1)) * l (ix2 p (0 : Fin 1))
        + ∑ j : Fin 1024, k1_pay11 (F := Ideal) a1 a2 qb kb m (ix2 p j) := by
  unfold k1_pay12
  rw [shapeCast_self, addf_apply, mulf_apply]
  refine congrArg (fun x : EReal => k1_pay10 (F := Ideal) a1 a2 qb kb m (ix2 p (0 : Fin 1)) * l (ix2 p (0 : Fin 1)) + x) ?_
  refine (cast_col _ p).trans ?_
  exact rowsum_apply _ rfl p

end Cert.KernelIdeal.Pay

end
-- ==== Proof.KiVal1.lean ====
import proofs.«418402_j22917945491929_3_alg».proof.Proof.KiReg1
import proofs.«418402_j22917945491929_3_alg».proof.Proof.Spec
import proofs.«418402_j22917945491929_3_alg».proof.Proof.KiPay
import Idealize.ShloMosaic.Lib.Pipeline.Value
import Idealize.ShloMosaic.Lib.ValueIdx

/-!
# The attention call: what its output array holds

The second call walks a grid of 8 × 4 × 2 points: batch `b`, query tile `qi` (the rows `512·qi … 512·qi + 511` of the
2048 positions) and key step `ki`; point number `t = 8·b + 2·qi + ki`. Each row of the query tile carries a running
maximum `m`, a running sum of exponentials `l` and a running weighted sum of value rows `acc` from step to step.

* At `ki = 0` the three are reset (`-∞`, `0`, `0`) and take in key tile 0: they become the row's `m0`, `l0`, `acc0`.
* At `ki = 1` they take in key tile 1 if the query tile reaches it (`qi ≥ 2`, that is, row `≥ 1024`): they become
  `m1`, `l1`, `acc1`. Otherwise the whole of key tile 1 lies after the row and they stay as they were.
* After `ki = 1` the output tile is written: `acc / l`.

So the output array ends, index by index, at the tiled formula `kout` of the three arrays the call reads — rows
below 1024 at `acc0 / l0`, the others at `acc1 / l1`. The steps: the grid's arithmetic decided once; a block read is a
read of the array; the per-row arithmetic of one key tile; the state at the even and the odd points; what an odd
point writes back; every index is written by some odd point.

All of it on the extended reals, at the contents `V` of the core's buffers when the call is entered.
-/

set_option maxRecDepth 16384

noncomputable section

namespace Cert.KernelIdeal.Val1

open Cert.KernelIdeal Cert.KernelIdeal.Gen Cert.KernelIdeal.Hand Cert.KernelIdeal.Pay Cert.Spec Idealize.ShloMosaic ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The three arrays the call reads, by coordinates -/

/-- The queries `[8, 2048, 1024]` as the call finds them, -/
def arrQ (c : Dev nD) : Arr3 := fun b t d => (V c main_v5 : S8x2048x1024.Idx → EReal) (ix3 b t d)
/-- the keys, -/
def arrK (c : Dev nD) : Arr3 := fun b t d => (V c main_v6 : S8x2048x1024.Idx → EReal) (ix3 b t d)
/-- and the values. -/
def arrV (c : Dev nD) : Arr3 := fun b t d => (V c main_v7 : S8x2048x1024.Idx → EReal) (ix3 b t d)

/-! ## The grid, decided once -/

/-- At point `t`: the query tile is `(t / 2) % 4` and the key step `t % 2`; the query block and the output block sit at
    batch `t / 8`, tile `(t / 2) % 4`; the key and value blocks sit at batch `t / 8` and at key tile 0 on an even point,
    key tile 1 on an odd point whose query tile reaches it. Decided over the 64 points. -/
theorem point_facts : ∀ t : Fin cfg1.N,
    (grid1.coords t 1).val = (t.val / 2) % 4 ∧ (grid1.coords t 2).val = t.val % 2
    ∧ win1_0.index t (0 : Fin 3) = t.val / 8 ∧ win1_0.index t (1 : Fin 3) = (t.val / 2) % 4 ∧ win1_0.index t (2 : Fin 3) = 0
    ∧ win1_1.index t (0 : Fin 3) = t.val / 8 ∧ win1_1.index t (2 : Fin 3) = 0
    ∧ (t.val % 2 = 0 → win1_1.index t (1 : Fin 3) = 0)
    ∧ (t.val % 2 = 1 → 2 ≤ (t.val / 2) % 4 → win1_1.index t (1 : Fin 3) = 1)
    ∧ win1_2.index t (0 : Fin 3) = t.val / 8 ∧ win1_2.index t (2 : Fin 3) = 0
    ∧ (t.val % 2 = 0 → win1_2.index t (1 : Fin 3) = 0)
    ∧ (t.val % 2 = 1 → 2 ≤ (t.val / 2) % 4 → win1_2.index t (1 : Fin 3) = 1)
    ∧ win1_3.index t (0 : Fin 3) = t.val / 8 ∧ win1_3.index t (1 : Fin 3) = (t.val / 2) % 4 ∧ win1_3.index t (2 : Fin 3) = 0 :=
  (by decide +kernel : ∀ t : Fin grid1.N, _)

/-! ## Reading a block is reading the array -/

/-- Element `(0, p, d)` of the query block at point `t` is the query array at batch `t / 8`, row `512·qi + p`. -/
theorem q_read (c : Dev nD) (t : Fin cfg1.N) (b : Fin 8) (r : Fin 2048) (p : Fin 512) (d : Fin 1024)
    (hb : t.val / 8 = b.val) (hr : r.val = 512 * ((t.val / 2) % 4) + p.val) :
    (iblk1 (F := Ideal) V c 0 t : Vec Ideal S1x512x1024 .bf16) (ix3 0 p d) = arrQ V c b r d := by
  obtain ⟨-, -, e0, e1, e2, -⟩ := point_facts t
  show V c main_v5 (((cfg1.win 0).blk t).view.emb (ix3 0 p d)) = V c main_v5 (ix3 b r d)
  congr 1
  funext a; apply Fin.ext
  match a with
  | ⟨0, _⟩ => show win1_0.index t (0 : Fin 3) * 1 + 1 * 0 = b.val; omega
  | ⟨1, _⟩ => show win1_0.index t (1 : Fin 3) * 512 + 1 * p.val = r.val; omega
  | ⟨2, _⟩ => show win1_0.index t (2 : Fin 3) * 1024 + 1 * d.val = d.val; omega

/-- The keys' block is a tile of the key array: tile `ki` when the block index on the row axis is `ki`. -/
theorem k_read (c : Dev nD) (t : Fin cfg1.N) (b : Fin 8) (ki : Fin 2) (j : Fin 1024) (d : Fin 1024)
    (hb : t.val / 8 = b.val) (hk : win1_1.index t (1 : Fin 3) = ki.val) :
    (iblk1 (F := Ideal) V c 1 t : Vec Ideal S1x1024x1024 .bf16) (ix3 0 j d) = arrK V c b (tileIdx ki j) d := by
  obtain ⟨-, -, -, -, -, e0, e2, -⟩ := point_facts t
  show V c main_v6 (((cfg1.win 1).blk t).view.emb (ix3 0 j d)) = V c main_v6 (ix3 b (tileIdx ki j) d)
  congr 1
  funext a; apply Fin.ext
  match a with
  | ⟨0, _⟩ => show win1_1.index t (0 : Fin 3) * 1 + 1 * 0 = b.val; omega
  | ⟨1, _⟩ => show win1_1.index t (1 : Fin 3) * 1024 + 1 * j.val = 1024 * ki.val + j.val; omega
  | ⟨2, _⟩ => show win1_1.index t (2 : Fin 3) * 1024 + 1 * d.val = d.val; omega

/-- The values' block likewise. -/
theorem v_read (c : Dev nD) (t : Fin cfg1.N) (b : Fin 8) (ki : Fin 2) (j : Fin 1024) (h : Fin 1024)
    (hb : t.val / 8 = b.val) (hk : win1_2.index t (1 : Fin 3) = ki.val) :
    (iblk1 (F := Ideal) V c 2 t : Vec Ideal S1x1024x1024 .bf16) (ix3 0 j h) = arrV V c b (tileIdx ki j) h := by
  obtain ⟨-, -, -, -, -, -, -, -, -, e0, e2, -⟩ := point_facts t
  show V c main_v7 (((cfg1.win 2).blk t).view.emb (ix3 0 j h)) = V c main_v7 (ix3 b (tileIdx ki j) h)
  congr 1
  funext a; apply Fin.ext
  match a with
  | ⟨0, _⟩ => show win1_2.index t (0 : Fin 3) * 1 + 1 * 0 = b.val; omega
  | ⟨1, _⟩ => show win1_2.index t (1 : Fin 3) * 1024 + 1 * j.val = 1024 * ki.val + j.val; omega
  | ⟨2, _⟩ => show win1_2.index t (2 : Fin 3) * 1024 + 1 * h.val = h.val; omega

/-! ## One row of one query tile -/

/-- Row `p` of query tile `qi` among the 2048 positions. -/
def rowOf (qi : Fin 4) (p : Fin 512) : Fin 2048 := ⟨512 * qi.val + p.val, by have := qi.isLt; have := p.isLt; omega⟩

section Row

variable (Q K W : Arr3) (b : Fin 8) (qi : Fin 4)
variable (qb : Vec Ideal S1x512x1024 .bf16) (kb vb : Vec Ideal S1x1024x1024 .bf16)

/-- The tile's masked, scaled scores are the causal scores of the row against that key tile. -/
theorem tileScore_eq (ki : Fin 2) (hq : ∀ p d, qb (ix3 0 p d) = Q b (rowOf qi p) d)
    (hk : ∀ j d, kb (ix3 0 j d) = K b (tileIdx ki j) d) (p : Fin 512) (j : Fin 1024) :
    tileScore qi.val ki.val qb kb p j = sT Q K b (rowOf qi p) ki j := by
  unfold tileScore sT wei score
  simp only [hq, hk]
  rfl

/-- From the reset state (maximum `-∞`, sums zero) the first key tile leaves the row's `m0`, `l0`, `acc0`. -/
theorem first_tile (hq : ∀ p d, qb (ix3 0 p d) = Q b (rowOf qi p) d)
    (hk : ∀ j d, kb (ix3 0 j d) = K b (tileIdx 0 j) d) (hv : ∀ j h, vb (ix3 0 j h) = W b (tileIdx 0 j) h) (p : Fin 512) :
    k1_pay5 (F := Ideal) (k1_pay9 (F := Ideal) (BitVec.ofNat 32 qi.val) (BitVec.ofNat 32 0) qb kb (k1_pay1 (F := Ideal))) (ix2 p 0) = m0 Q K b (rowOf qi p)
    ∧ k1_pay12 (F := Ideal) (BitVec.ofNat 32 qi.val) (BitVec.ofNat 32 0) qb kb (k1_pay1 (F := Ideal)) (k1_pay2 (F := Ideal)) (ix2 p 0) = l0 Q K b (rowOf qi p)
    ∧ ∀ h, k1_pay4 (F := Ideal) (k1_pay7 (F := Ideal) vb) (k1_pay10 (F := Ideal) (BitVec.ofNat 32 qi.val) (BitVec.ofNat 32 0) qb kb (k1_pay1 (F := Ideal)))
        (k1_pay11 (F := Ideal) (BitVec.ofNat 32 qi.val) (BitVec.ofNat 32 0) qb kb (k1_pay1 (F := Ideal))) (k1_pay3 (F := Ideal)) (ix2 p h) = acc0 Q K W b (rowOf qi p) h := by
  have hs : ∀ j, tileScore qi.val 0 qb kb p j = sT Q K b (rowOf qi p) 0 j := fun j => tileScore_eq Q K b qi qb kb 0 hq hk p j
  have h9 : k1_pay9 (F := Ideal) (BitVec.ofNat 32 qi.val) (BitVec.ofNat 32 0) qb kb (k1_pay1 (F := Ideal)) (ix2 p 0) = m0 Q K b (rowOf qi p) := by
    refine (pay9_apply qi.isLt (by decide) qb kb (k1_pay1 (F := Ideal)) p).trans ?_
    rw [pay1_apply, show tileScore qi.val 0 qb kb p = sT Q K b (rowOf qi p) 0 from funext hs]
    exact max_bot_left _
  refine ⟨?_, ?_, fun h => ?_⟩
  · rw [pay5_eq]; exact h9
  · refine (pay12_apply _ _ qb kb (k1_pay1 (F := Ideal)) (k1_pay2 (F := Ideal)) p).trans ?_
    rw [pay2_apply, mul_zero, zero_add]
    unfold l0
    refine Finset.sum_congr rfl fun j _ => ?_
    rw [pay11_apply qi.isLt (by decide) qb kb (k1_pay1 (F := Ideal)) p j, h9, hs]
  · refine (pay4_apply _ _ _ _ p h).trans ?_
    rw [pay3_apply, mul_zero, zero_add]
    unfold acc0
    refine Finset.sum_congr rfl fun j _ => ?_
    rw [pay11_apply qi.isLt (by decide) qb kb (k1_pay1 (F := Ideal)) p j, h9, hs, pay7_apply, hv]

/-- From `m0`, `l0`, `acc0` the second key tile leaves the row's `m1`, `l1`, `acc1`. -/
theorem second_tile (hq : ∀ p d, qb (ix3 0 p d) = Q b (rowOf qi p) d)
    (hk : ∀ j d, kb (ix3 0 j d) = K b (tileIdx 1 j) d) (hv : ∀ j h, vb (ix3 0 j h) = W b (tileIdx 1 j) h)
    (m l : Vec Ideal S512x1 .f32) (acc : Vec Ideal S512x1024 .f32) (p : Fin 512)
    (hm : m (ix2 p 0) = m0 Q K b (rowOf qi p)) (hl : l (ix2 p 0) = l0 Q K b (rowOf qi p))
    (hacc : ∀ h, acc (ix2 p h) = acc0 Q K W b (rowOf qi p) h) :
    k1_pay5 (F := Ideal) (k1_pay9 (F := Ideal) (BitVec.ofNat 32 qi.val) (BitVec.ofNat 32 1) qb kb m) (ix2 p 0) = m1 Q K b (rowOf qi p)
    ∧ k1_pay12 (F := Ideal) (BitVec.ofNat 32 qi.val) (BitVec.ofNat 32 1) qb kb m l (ix2 p 0) = l1 Q K b (rowOf qi p)
    ∧ ∀ h, k1_pay4 (F := Ideal) (k1_pay7 (F := Ideal) vb) (k1_pay10 (F := Ideal) (BitVec.ofNat 32 qi.val) (BitVec.ofNat 32 1) qb kb m)
        (k1_pay11 (F := Ideal) (BitVec.ofNat 32 qi.val) (BitVec.ofNat 32 1) qb kb m) acc (ix2 p h) = acc1 Q K W b (rowOf qi p) h := by
  have hs : ∀ j, tileScore qi.val 1 qb kb p j = sT Q K b (rowOf qi p) 1 j := fun j => tileScore_eq Q K b qi qb kb 1 hq hk p j
  have h9 : k1_pay9 (F := Ideal) (BitVec.ofNat 32 qi.val) (BitVec.ofNat 32 1) qb kb m (ix2 p 0) = m1 Q K b (rowOf qi p) := by
    refine (pay9_apply qi.isLt (by decide) qb kb m p).trans ?_
    rw [hm, show tileScore qi.val 1 qb kb p = sT Q K b (rowOf qi p) 1 from funext hs]
    rfl
  have h10 : k1_pay10 (F := Ideal) (BitVec.ofNat 32 qi.val) (BitVec.ofNat 32 1) qb kb m (ix2 p 0) = a1 Q K b (rowOf qi p) := by
    rw [pay10_apply, h9, hm]; rfl
  refine ⟨?_, ?_, fun h => ?_⟩
  · rw [pay5_eq]; exact h9
  · refine (pay12_apply _ _ qb kb m l p).trans ?_
    rw [h10, hl]
    unfold l1
    congr 1
    refine Finset.sum_congr rfl fun j _ => ?_
    rw [pay11_apply qi.isLt (by decide) qb kb m p j, h9, hs]
  · refine (pay4_apply _ _ _ _ p h).trans ?_
    rw [h10, hacc]
    unfold acc1
    congr 1
    refine Finset.sum_congr rfl fun j _ => ?_
    rw [pay11_apply qi.isLt (by decide) qb kb m p j, h9, hs, pay7_apply, hv]

end Row

/-! ## The carried state at the points of the grid -/

section Points

variable (c : Dev nD)

/-- After a point with `ki = 0` the carried state is, row by row, what the first key tile leaves. -/
theorem state_even (n : ℕ) (hn : n < cfg1.N) (h0 : n % 2 = 0) (b : Fin 8) (qi : Fin 4)
    (hb : n / 8 = b.val) (hqi : (n / 2) % 4 = qi.val) (p : Fin 512) :
    (scAt1 (F := Ideal) V c n hn).1 (ix2 p 0) = m0 (arrQ V c) (arrK V c) b (rowOf qi p)
    ∧ (scAt1 (F := Ideal) V c n hn).2.1 (ix2 p 0) = l0 (arrQ V c) (arrK V c) b (rowOf qi p)
    ∧ ∀ h, (scAt1 (F := Ideal) V c n hn).2.2 (ix2 p h) = acc0 (arrQ V c) (arrK V c) (arrV V c) b (rowOf qi p) h := by
  obtain ⟨c1, c2, -, -, -, -, -, kE, -, -, -, vE, -⟩ := point_facts ⟨n, hn⟩
  have c1' : (grid1.coords ⟨n, hn⟩ 1).val = qi.val := c1.trans hqi
  have c2' : (grid1.coords ⟨n, hn⟩ 2).val = 0 := c2.trans h0
  rw [scAt1_A V c ⟨n, hn⟩ h0]
  dsimp only
  rw [c1', c2']
  exact first_tile (arrQ V c) (arrK V c) (arrV V c) b qi (iblk1 (F := Ideal) V c 0 ⟨n, hn⟩) (iblk1 (F := Ideal) V c 1 ⟨n, hn⟩)
    (iblk1 (F := Ideal) V c 2 ⟨n, hn⟩)
    (fun p d => q_read V c ⟨n, hn⟩ b (rowOf qi p) p d hb (by show 512 * qi.val + p.val = 512 * ((n / 2) % 4) + p.val; omega))
    (fun j d => k_read V c ⟨n, hn⟩ b 0 j d hb (kE h0))
    (fun j h => v_read V c ⟨n, hn⟩ b 0 j h hb (vE h0)) p

/-- After a point with `ki = 1` whose query tile reaches the second key tile: what the second tile leaves. -/
theorem state_odd_hi (t : Fin cfg1.N) (h1 : t.val % 2 = 1) (hq2 : 2 ≤ (t.val / 2) % 4) (b : Fin 8) (qi : Fin 4)
    (hb : t.val / 8 = b.val) (hqi : (t.val / 2) % 4 = qi.val) (p : Fin 512) :
    (scAt1 (F := Ideal) V c t.val t.isLt).2.1 (ix2 p 0) = l1 (arrQ V c) (arrK V c) b (rowOf qi p)
    ∧ ∀ h, (scAt1 (F := Ideal) V c t.val t.isLt).2.2 (ix2 p h) = acc1 (arrQ V c) (arrK V c) (arrV V c) b (rowOf qi p) h := by
  have hprev : t.val - 1 < cfg1.N := Nat.lt_of_le_of_lt (Nat.sub_le _ _) t.isLt
  obtain ⟨e_m, e_l, e_acc⟩ := state_even V c (t.val - 1) hprev (by omega) b qi (by omega) (by omega) p
  obtain ⟨c1, c2, -, -, -, -, -, -, kO, -, -, -, vO, -⟩ := point_facts t
  have c1' : (grid1.coords t 1).val = qi.val := c1.trans hqi
  have c2' : (grid1.coords t 2).val = 1 := c2.trans h1
  rw [scAt1_B V c t h1 hq2]
  dsimp only
  rw [c1', c2']
  obtain ⟨-, r_l, r_acc⟩ := second_tile (arrQ V c) (arrK V c) (arrV V c) b qi (iblk1 (F := Ideal) V c 0 t) (iblk1 (F := Ideal) V c 1 t)
    (iblk1 (F := Ideal) V c 2 t)
    (fun p d => q_read V c t b (rowOf qi p) p d hb (by show 512 * qi.val + p.val = 512 * ((t.val / 2) % 4) + p.val; omega))
    (fun j d => k_read V c t b 1 j d hb (kO h1 hq2))
    (fun j h => v_read V c t b 1 j h hb (vO h1 hq2))
    (scAt1 (F := Ideal) V c (t.val - 1) hprev).1 (scAt1 (F := Ideal) V c (t.val - 1) hprev).2.1 (scAt1 (F := Ideal) V c (t.val - 1) hprev).2.2
    p e_m e_l e_acc
  exact ⟨r_l, r_acc⟩

/-- After a point with `ki = 1` whose query tile lies wholly before the second key tile: still what the first left. -/
theorem state_odd_lo (t : Fin cfg1.N) (h1 : t.val % 2 = 1) (hq2 : (t.val / 2) % 4 < 2) (b : Fin 8) (qi : Fin 4)
    (hb : t.val / 8 = b.val) (hqi : (t.val / 2) % 4 = qi.val) (p : Fin 512) :
    (scAt1 (F := Ideal) V c t.val t.isLt).2.1 (ix2 p 0) = l0 (arrQ V c) (arrK V c) b (rowOf qi p)
    ∧ ∀ h, (scAt1 (F := Ideal) V c t.val t.isLt).2.2 (ix2 p h) = acc0 (arrQ V c) (arrK V c) (arrV V c) b (rowOf qi p) h := by
  have hprev : t.val - 1 < cfg1.N := Nat.lt_of_le_of_lt (Nat.sub_le _ _) t.isLt
  obtain ⟨-, e_l, e_acc⟩ := state_even V c (t.val - 1) hprev (by omega) b qi (by omega) (by omega) p
  rw [scAt1_C V c t h1 hq2]
  exact ⟨e_l, e_acc⟩

/-! ## What is written back, and where -/

/-- The tiled formula as contents of the output array. -/
abbrev tiled : S8x2048x1024.Idx → EReal := fun i => kout (arrQ V c) (arrK V c) (arrV V c) (i 0) (i 1) (i 2)

/-- Two functions on a `1 × 512 × 1024` block are equal when they agree at every `(0, p, h)`. -/
theorem block_ext {f g : S1x512x1024.Idx → EReal} (e : ∀ (p : Fin 512) (h : Fin 1024), f (ix3 0 p h) = g (ix3 0 p h)) : f = g := by
  funext j
  obtain ⟨a, p, h, rfl⟩ : ∃ a p h, j = ix3 a p h := ⟨j 0, j 1, j 2, eq_ix3 j⟩
  obtain rfl : a = 0 := Subsingleton.elim _ _
  exact e p h

/-- Where element `(0, p, h)` of the output block at point `t` sits in the output array. -/
theorem o_emb (t : Fin cfg1.N) (b : Fin 8) (qi : Fin 4) (hb : t.val / 8 = b.val) (hqi : (t.val / 2) % 4 = qi.val)
    (p : Fin 512) (h : Fin 1024) :
    (((cfg1.win 3).blk t).view.emb (ix3 0 p h) : S8x2048x1024.Idx) = ix3 b (rowOf qi p) h := by
  obtain ⟨-, -, -, -, -, -, -, -, -, -, -, -, -, o0, o1, o2⟩ := point_facts t
  funext a; apply Fin.ext
  match a with
  | ⟨0, _⟩ => show win1_3.index t (0 : Fin 3) * 1 + 1 * 0 = b.val; omega
  | ⟨1, _⟩ => show win1_3.index t (1 : Fin 3) * 512 + 1 * p.val = 512 * qi.val + p.val; omega
  | ⟨2, _⟩ => show win1_3.index t (2 : Fin 3) * 1024 + 1 * h.val = h.val; omega

/-- What a point with `ki = 1` writes back is its block of the tiled formula. -/
theorem flushed_eq (t : Fin cfg1.N) (hf : (cfg1.win 3).flush t = true) :
    (dat1 (F := Ideal) V c).flushed 3 t = ((cfg1.win 3).blk t).view.read (Elt Ideal) (tiled V c) := by
  have hN : cfg1.N = 64 := N_1
  have h1 : t.val % 2 = 1 := (flush1_3 t).mp hf
  have htlt : t.val < cfg1.N := t.isLt
  show (cfg1.win 3).cut (grid1.coords t) ((dat1 (F := Ideal) V c).after 3 t) = _
  rw [after1_3]
  refine block_ext fun p h => ?_
  show k1_pay6 (F := Ideal) (scAt1 (F := Ideal) V c t.val t.isLt).2.2 (scAt1 (F := Ideal) V c t.val t.isLt).2.1 (ix3 0 p h)
    = tiled V c (((cfg1.win 3).blk t).view.emb (ix3 0 p h))
  rw [o_emb t ⟨t.val / 8, by omega⟩ ⟨(t.val / 2) % 4, by omega⟩ rfl rfl p h, pay6_apply]
  show Ideal.div _ _ = kout (arrQ V c) (arrK V c) (arrV V c) ⟨t.val / 8, by omega⟩ (rowOf ⟨(t.val / 2) % 4, by omega⟩ p) h
  unfold kout
  have hp : p.val < 512 := p.isLt
  by_cases hq2 : 2 ≤ (t.val / 2) % 4
  · obtain ⟨e_l, e_acc⟩ := state_odd_hi V c t h1 hq2 ⟨t.val / 8, by omega⟩ ⟨(t.val / 2) % 4, by omega⟩ rfl rfl p
    rw [if_neg (by show ¬ 512 * ((t.val / 2) % 4) + p.val < 1024; omega), e_l, e_acc]
  · obtain ⟨e_l, e_acc⟩ := state_odd_lo V c t h1 (by omega) ⟨t.val / 8, by omega⟩ ⟨(t.val / 2) % 4, by omega⟩ rfl rfl p
    rw [if_pos (by show 512 * ((t.val / 2) % 4) + p.val < 1024; omega), e_l, e_acc]

/-- An index of the output array is in point `t`'s block iff each coordinate is in the block's range on its axis. -/
theorem mem_blk (t : Fin cfg1.N) (i : S8x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v8).slice (win1_3.rect t)).set ↔ _
  rw [View.set_slice_whole, Rect.mem_set_unit]
  exact Iff.rfl

/-- The point that writes index `(b, r, h)`: batch `b`, query tile `r / 512`, second key step. -/
def coverPt (i : S8x2048x1024.Idx) : Fin cfg1.N :=
  ⟨8 * (i 0).val + 2 * ((i 1).val / 512) + 1, by
    have hN : cfg1.N = 64 := N_1
    have h0 : (i 0).val < 8 := (i 0).isLt
    have h1 : (i 1).val < 2048 := (i 1).isLt
    omega⟩

/-- Every index of the output array is written back by some point. -/
theorem covered (i : S8x2048x1024.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  have hv : (coverPt i).val = 8 * (i 0).val + 2 * ((i 1).val / 512) + 1 := rfl
  obtain ⟨-, -, -, -, -, -, -, -, -, -, -, -, -, o0, o1, o2⟩ := point_facts (coverPt i)
  refine ⟨coverPt i, (flush1_3 _).mpr (by omega), ?_⟩
  rw [mem_blk]
  intro a
  match a with
  | ⟨0, _⟩ =>
    show win1_3.index (coverPt i) (0 : Fin 3) * 1 ≤ (i 0).val ∧ (i 0).val < win1_3.index (coverPt i) (0 : Fin 3) * 1 + 1
    omega
  | ⟨1, _⟩ =>
    show win1_3.index (coverPt i) (1 : Fin 3) * 512 ≤ (i 1).val ∧ (i 1).val < win1_3.index (coverPt i) (1 : Fin 3) * 512 + 512
    omega
  | ⟨2, _⟩ =>
    show win1_3.index (coverPt i) (2 : Fin 3) * 1024 ≤ (i 2).val ∧ (i 2).val < win1_3.index (coverPt i) (2 : Fin 3) * 1024 + 1024
    omega

/-- After the call the output array holds the tiled attention formula of the three arrays the call found. -/
theorem attn_arr : ((dat1 (F := Ideal) V c).arrAt 3 cfg1.N : S8x2048x1024.Idx → EReal)
    = fun i => kout (arrQ V c) (arrK V c) (arrV V c) (i 0) (i 1) (i 2) :=
  (dat1 (F := Ideal) V c).arrAt_eq_of_cover 3 (tiled V c) (fun t hf => flushed_eq V c t hf) covered

end Points

end Cert.KernelIdeal.Val1

end
-- ==== Proof.RefVal.lean ====
/-
  The reference program read at an index: its result is causal softmax attention of the three projections.

  The program computes q = x · W₁ᵀ, k = x · W₂ᵀ, v = x · W₃ᵀ, the scores (q · kᵀ) · 1024^(-1/2), replaces the scores
  above the diagonal by -∞, takes each row's maximum from -∞, exponentiates the differences, sums them from 0,
  divides, and contracts the quotients with v. Each stage is read here at explicit coordinates (batch b, query row t,
  key row s, feature h) and identified with the corresponding quantity of the specification:
  the projections (`proj`), the scaled score (`score`), the causal score (`wei`), the row maximum (`rmax`), the
  exponential (`ew`), the row sum (`lsum`) and the final contraction (`attn`).

  Three facts about constants enter: 1024^(-1/2) = 1/32 (both sides are the real 2⁻⁵); the word of -∞ denotes the
  bottom element; and the mask bit at (t, s), a signed comparison of two 32-bit words below 2048, is set exactly
  when s ≤ t.
-/
import proofs.«418402_j22917945491929_3_alg».proof.Proof.Gen.ReferenceIdeal.Run
import proofs.«418402_j22917945491929_3_alg».proof.Proof.Gen.ReferenceIdeal.Read
import proofs.«418402_j22917945491929_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.Reduce

noncomputable section

namespace Cert.ReferenceIdeal.RefValue

open Cert.Spec Idealize.ShloMosaic ValueIdx
open Cert.ReferenceIdeal.Gen

/-- an argument array by coordinates -/
def arr3 (x : (⟨Cert.ReferenceIdeal.S8x2048x1024, .f32⟩ : BufTy).Contents (Elt Ideal)) : Arr3 := fun b t c => x (ix3 b t c)
/-- a weight matrix by coordinates -/
def mat (w : (⟨Cert.ReferenceIdeal.S1024x1024, .f32⟩ : BufTy).Contents (Elt Ideal)) : Mat := fun h c => w (ix2 h c)

/-! ## Constants -/

/-- The word of -∞ denotes the bottom element. -/
theorem ofBits_ninf : Ideal.ofBits .f32 0xFF800000#32 = ⊥ := by
  simp [Ideal.ofBits, Ideal.ieee]

/-- The word 0x44800000 denotes 1024 = 2¹⁰. -/
theorem ofBits_1024 : Ideal.ofBits .f32 0x44800000#32 = ((1024 : ℝ) : EReal) := by
  simp [Ideal.ofBits, Ideal.ieee, -EReal.coe_mul]; norm_num

/-- The word 0xBF000000 denotes -1/2. -/
theorem ofBits_neg_half : Ideal.ofBits .f32 0xBF000000#32 = ((-(1 / 2) : ℝ) : EReal) := by
  simp [Ideal.ofBits, Ideal.ieee, -EReal.coe_mul, -EReal.coe_neg]; norm_num

/-- The word 0x3D000000 denotes 1/32 = 2⁻⁵. -/
theorem ofBits_thirtysecond : Ideal.ofBits .f32 0x3D000000#32 = ((1 / 32 : ℝ) : EReal) := by
  simp [Ideal.ofBits, Ideal.ieee, -EReal.coe_mul]; norm_num

/-- 1024^(-1/2) = (32²)^(-1/2) = 32⁻¹. -/
theorem rpow_1024 : Real.rpow 1024 (-(1 / 2)) = 1 / 32 := by
  rw [show (1024 : ℝ) = 32 ^ (2 : ℝ) by norm_num, Real.rpow_eq_pow, ← Real.rpow_mul (by norm_num)]
  rw [show (2 : ℝ) * -(1 / 2) = -1 by norm_num, Real.rpow_neg_one]
  norm_num

/-- The scale the program computes as a power is the scale of the specification. -/
theorem scale_eq : Ideal.pow (Ideal.ofBits .f32 0x44800000#32) (Ideal.ofBits .f32 0xBF000000#32) = cScale := by
  unfold cScale
  rw [ofBits_1024, ofBits_neg_half, ofBits_thirtysecond, Ideal.pow_coe_coe, rpow_1024]

/-- The mask bit at (t, s): the signed comparison "t + 0 ≥ s" of two words below 2048 selects the bit 1 exactly when s ≤ t. -/
theorem mask_bit (t s : Fin 2048) :
    Scalar.select (IntOp.cmpi .sge (IntOp.addi (BitVec.ofNat 32 t.val) 0#32) (BitVec.ofNat 32 s.val)) (1#1 : BitVec 1) 0#1
      = if s.val ≤ t.val then 1#1 else 0#1 := by
  have ht : (BitVec.ofNat 32 t.val).toNat = t.val := by
    rw [BitVec.toNat_ofNat]; have := t.isLt; omega
  have hs : (BitVec.ofNat 32 s.val).toNat = s.val := by
    rw [BitVec.toNat_ofNat]; have := s.isLt; omega
  have h0 : IntOp.addi (BitVec.ofNat 32 t.val) 0#32 = BitVec.ofNat 32 t.val := BitVec.add_zero _
  rw [h0]
  have key := StableHlo.Predicate.sge_iff_toNat (a := BitVec.ofNat 32 t.val) (b := BitVec.ofNat 32 s.val)
    (by rw [ht]; have := t.isLt; omega) (by rw [hs]; have := s.isLt; omega)
  rw [ht, hs] at key
  by_cases h : s.val ≤ t.val
  · rw [if_pos h, key.mpr h, select_one]
  · rw [if_neg h, eq_zero_of_ne_one (fun e => h (key.mp e)), select_zero]

/-! ## The stages at coordinates -/

/-- two index functions of rank 3 (rank 2) agree: coordinate by coordinate -/
local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))

section Stages

variable (x0 : (⟨S8x2048x1024, .f32⟩ : BufTy).Contents (Elt Ideal))
  (x1 x2 x3 : (⟨S1024x1024, .f32⟩ : BufTy).Contents (Elt Ideal))

/-- The first product is the projection by the first weight matrix. -/
theorem v0_at (b : Fin 8) (t : Fin 2048) (h : Fin 1024) :
    Read.val_main_v0 (F := Ideal) x0 x1 (ix3 b t h) = proj (arr3 x0) (mat x1) b t h := by
  rw [Read.val_main_v0_apply]
  show _ = ∑ c : Fin 1024, x0 (ix3 b t c) * x1 (ix2 h c)
  refine Finset.sum_congr rfl fun c _ => ?_
  rw [show Read.lidx_main_v0 (ix3 b t h) c = ix3 b t c by idx3, show Read.ridx_main_v0 (ix3 b t h) c = ix2 h c by idx2]

/-- The second product is the projection by the second weight matrix. -/
theorem v1_at (b : Fin 8) (t : Fin 2048) (h : Fin 1024) :
    Read.val_main_v1 (F := Ideal) x0 x2 (ix3 b t h) = proj (arr3 x0) (mat x2) b t h := by
  rw [Read.val_main_v1_apply]
  show _ = ∑ c : Fin 1024, x0 (ix3 b t c) * x2 (ix2 h c)
  refine Finset.sum_congr rfl fun c _ => ?_
  rw [show Read.lidx_main_v1 (ix3 b t h) c = ix3 b t c by idx3, show Read.ridx_main_v1 (ix3 b t h) c = ix2 h c by idx2]

/-- The third product is the projection by the third weight matrix. -/
theorem v2_at (b : Fin 8) (t : Fin 2048) (h : Fin 1024) :
    Read.val_main_v2 (F := Ideal) x0 x3 (ix3 b t h) = proj (arr3 x0) (mat x3) b t h := by
  rw [Read.val_main_v2_apply]
  show _ = ∑ c : Fin 1024, x0 (ix3 b t c) * x3 (ix2 h c)
  refine Finset.sum_congr rfl fun c _ => ?_
  rw [show Read.lidx_main_v2 (ix3 b t h) c = ix3 b t c by idx3, show Read.ridx_main_v2 (ix3 b t h) c = ix2 h c by idx2]

/-- q · kᵀ at (b, t, s): the contraction of query row t with key row s. -/
theorem v4_at (b : Fin 8) (t s : Fin 2048) :
    Read.val_main_v4 (F := Ideal) x0 x1 x2 (ix3 b t s)
      = ∑ d : Fin 1024, proj (arr3 x0) (mat x1) b t d * proj (arr3 x0) (mat x2) b s d := by
  rw [Read.val_main_v4_apply]
  refine Finset.sum_congr rfl fun d _ => ?_
  rw [show Read.lidx_main_v4 (ix3 b t s) d = ix3 b t d by idx3, show Read.ridx_main_v4 (ix3 b t s) d = ix3 b s d by idx3,
    v0_at, v1_at]

/-- The broadcast scale is the specification's, everywhere. -/
theorem v5_at (i : S8x2048x2048.Idx) : Read.val_main_v5 (F := Ideal) i = cScale := by
  rw [Read.val_main_v5_apply, Read.val_main_v3_apply, Read.val_main_cst_apply, Read.val_main_cst_0_apply,
    Ideal.hostPowf_def, Ideal.ofBits_def, Ideal.ofBits_def, scale_eq]

/-- The scaled score. -/
theorem v6_at (b : Fin 8) (t s : Fin 2048) :
    Read.val_main_v6 (F := Ideal) x0 x1 x2 (ix3 b t s)
      = score (proj (arr3 x0) (mat x1)) (proj (arr3 x0) (mat x2)) b t s := by
  rw [Read.val_main_v6_apply, v4_at, v5_at, Ideal.mulf_def]
  rfl

/-- The lower-triangular mask at (t, s). -/
theorem v8_at (t s : Fin 2048) :
    Read.val_main_v8 (F := Ideal) (ix2 t s) = if s.val ≤ t.val then 1#1 else 0#1 := by
  rw [Read.val_main_v8_apply, Read.val_main_call0_v4_apply, Read.val_main_call0_v2_apply, Read.val_main_call0_v0_apply,
    Read.val_main_call0_v1_apply, Read.val_main_call0_c_apply, Read.val_main_call0_v3_apply, Read.val_main_v7_apply,
    Read.val_main_c_apply, Read.val_main_call0_v5_apply, Read.val_main_call0_c_0_apply]
  exact mask_bit t s

/-- The causal score: the scaled score on and below the diagonal, -∞ above it. -/
theorem v9_at (b : Fin 8) (t s : Fin 2048) :
    Read.val_main_v9 (F := Ideal) x0 x1 x2 (ix3 b t s)
      = wei (proj (arr3 x0) (mat x1)) (proj (arr3 x0) (mat x2)) b t s := by
  rw [Read.val_main_v9_apply, Read.val_main_call1_v1_apply,
    show Read.idx_main_call1_v1 (ix3 b t s) = ix2 t s by idx2, v8_at, v6_at,
    Read.val_main_call1_v2_apply, Read.val_main_call1_v0_apply, Read.val_main_cst_1_apply, Ideal.ofBits_def, ofBits_ninf]
  unfold wei
  by_cases h : s.val ≤ t.val
  · rw [if_pos h, if_pos h, select_one]
  · rw [if_neg h, if_neg h, select_zero]

/-- The index over (b, t) with key coordinate s inserted on the reduced axis is (b, t, s). -/
theorem lift_at (hR : S8x2048x2048.Reduces [2] S8x2048) (b : Fin 8) (t s : Fin 2048) :
    hR.lift (ix2 b t) s = ix3 b t s := by
  funext a
  apply Fin.ext
  match a with
  | ⟨0, _⟩ => rfl
  | ⟨1, _⟩ => rfl
  | ⟨2, _⟩ => rfl

/-- The reduction by maximum over the key axis: the fold of max from -∞ over the row's causal scores. -/
theorem v10_at (b : Fin 8) (t : Fin 2048) :
    Read.val_main_v10 (F := Ideal) x0 x1 x2 (ix2 b t)
      = (Finset.univ : Finset (Fin 2048)).fold max ⊥ (wei (proj (arr3 x0) (mat x1)) (proj (arr3 x0) (mat x2)) b t) := by
  have hR : S8x2048x2048.Reduces [2] S8x2048 := by decide
  unfold Read.val_main_v10
  rw [Host.reduce_eq_fold_single (FloatOps.maximumf (F := Ideal) (φ := .f32)) _ _ reducesTo_S8x2048x2048_S8x2048_d2 hR h_S_ (ix2 b t)]
  have hf : (Read.val_main_v9 (F := Ideal) x0 x1 x2 ∘ hR.lift (ix2 b t))
      = wei (proj (arr3 x0) (mat x1)) (proj (arr3 x0) (mat x2)) b t :=
    funext fun (s : Fin 2048) => by
      show Read.val_main_v9 (F := Ideal) x0 x1 x2 (hR.lift (ix2 b t) s) = _
      rw [lift_at hR b t s, v9_at]
  rw [hf, Read.val_main_cst_2_apply, Ideal.ofBits_def, ofBits_ninf]
  rfl

/-- The row maximum. -/
theorem v12_at (b : Fin 8) (t : Fin 2048) :
    Read.val_main_v12 (F := Ideal) x0 x1 x2 (ix2 b t)
      = rmax (proj (arr3 x0) (mat x1)) (proj (arr3 x0) (mat x2)) b t := by
  rw [Read.val_main_v12_apply, Read.val_main_v11_apply, Read.val_main_cst_3_apply, v10_at, Ideal.ofBits_def, ofBits_ninf,
    Ideal.maximumf_def]
  rfl

/-- The row maximum broadcast along the key axis. -/
theorem v14_at (b : Fin 8) (t s : Fin 2048) :
    Read.val_main_v14 (F := Ideal) x0 x1 x2 (ix3 b t s)
      = rmax (proj (arr3 x0) (mat x1)) (proj (arr3 x0) (mat x2)) b t := by
  rw [Read.val_main_v14_apply, Read.val_main_v13_apply,
    show Read.idx_main_v13 (Read.idx_main_v14 (ix3 b t s)) = ix2 b t by idx2, v12_at]

/-- The exponential of a causal score's distance below the row maximum. -/
theorem v16_at (b : Fin 8) (t s : Fin 2048) :
    Read.val_main_v16 (F := Ideal) x0 x1 x2 (ix3 b t s)
      = ew (proj (arr3 x0) (mat x1)) (proj (arr3 x0) (mat x2)) b t s := by
  rw [Read.val_main_v16_apply, Read.val_main_v15_apply, v9_at, v14_at, Ideal.subf_def, Ideal.hostUnary_exp_def]
  rfl

/-- The row's sum of exponentials, from 0. -/
theorem v17_at (b : Fin 8) (t : Fin 2048) :
    Read.val_main_v17 (F := Ideal) x0 x1 x2 (ix2 b t)
      = lsum (proj (arr3 x0) (mat x1)) (proj (arr3 x0) (mat x2)) b t := by
  rw [Read.val_main_v17_apply, Read.val_main_cst_4_apply, Ideal.ofBits_def, Ideal.ofBits_zero_f32]
  unfold lsum
  refine congrArg (0 + ·) (Finset.sum_congr rfl fun s _ => ?_)
  rw [show Read.idx_main_v17 (ix2 b t) s = ix3 b t s by idx3, v16_at]

/-- The row sum broadcast along the key axis. -/
theorem v19_at (b : Fin 8) (t s : Fin 2048) :
    Read.val_main_v19 (F := Ideal) x0 x1 x2 (ix3 b t s)
      = lsum (proj (arr3 x0) (mat x1)) (proj (arr3 x0) (mat x2)) b t := by
  rw [Read.val_main_v19_apply, Read.val_main_v18_apply,
    show Read.idx_main_v18 (Read.idx_main_v19 (ix3 b t s)) = ix2 b t by idx2, v17_at]

/-- The softmax weight of key row s for query row t. -/
theorem v20_at (b : Fin 8) (t s : Fin 2048) :
    Read.val_main_v20 (F := Ideal) x0 x1 x2 (ix3 b t s)
      = Ideal.div (ew (proj (arr3 x0) (mat x1)) (proj (arr3 x0) (mat x2)) b t s)
          (lsum (proj (arr3 x0) (mat x1)) (proj (arr3 x0) (mat x2)) b t) := by
  rw [Read.val_main_v20_apply, v16_at, v19_at, Ideal.hostDivf_def]

end Stages

/-- THE REFERENCE IS CAUSAL SOFTMAX ATTENTION of the three projections, at every index. -/
theorem ref_eq_attn (x0 : (⟨S8x2048x1024, .f32⟩ : BufTy).Contents (Elt Ideal))
    (x1 x2 x3 : (⟨S1024x1024, .f32⟩ : BufTy).Contents (Elt Ideal)) (i : S8x2048x1024.Idx) :
    Cert.ReferenceIdeal.Read.val_main_v21 (F := Ideal) x0 x1 x2 x3 i
      = attn (proj (arr3 x0) (mat x1)) (proj (arr3 x0) (mat x2)) (proj (arr3 x0) (mat x3)) (i 0) (i 1) (i 2) := by
  obtain ⟨b, t, h, rfl⟩ : ∃ b t h, i = ix3 b t h := ⟨_, _, _, eq_ix3 i⟩
  rw [Read.val_main_v21_apply]
  show _ = ∑ s : Fin 2048, Ideal.div (ew (proj (arr3 x0) (mat x1)) (proj (arr3 x0) (mat x2)) b t s)
      (lsum (proj (arr3 x0) (mat x1)) (proj (arr3 x0) (mat x2)) b t) * proj (arr3 x0) (mat x3) b s h
  refine Finset.sum_congr rfl fun s _ => ?_
  rw [show Read.lidx_main_v21 (ix3 b t h) s = ix3 b t s by idx3, show Read.ridx_main_v21 (ix3 b t h) s = ix3 b s h by idx3,
    v20_at, v2_at]

end Cert.ReferenceIdeal.RefValue

end
-- ==== Proof.Law.lean ====
/-
  The tiled computation of causal softmax attention agrees with the whole-row one on finite inputs.

  A softmax quotient does not depend on the real number the scores are shifted by before exponentiation:
  (Σ e^{x_s - M} v_s) / (Σ e^{x_s - M}) = (Σ e^{x_s} v_s) / (Σ e^{x_s}) for every real M. The whole-row form
  (shift: the row maximum) and the two-tile form (shifts: the running maxima) are both such quotients over the
  unmasked positions s ≤ t; a masked position carries the weight exp ⊥ = 0 on both sides. Only this is used of
  the maxima: each is a real number, because position 0 is never masked.
-/
import proofs.«418402_j22917945491929_3_alg».proof.Proof.Spec
import Mathlib.Analysis.SpecialFunctions.Exp
import Mathlib.Data.EReal.Operations
import Mathlib.Data.EReal.Inv
import Mathlib.Algebra.BigOperators.Fin
import Mathlib.Algebra.Order.BigOperators.Group.Finset
import Mathlib.Tactic.FieldSimp
import Mathlib.Tactic.Ring

noncomputable section

namespace Cert.Spec

open Idealize.ShloMosaic

/-- The word 0x3D000000 denotes 2⁻⁵ = 1/32. -/
theorem cScale_eq : cScale = ((1 / 32 : ℝ) : EReal) := by
  simp [cScale, Ideal.ofBits, Ideal.ieee, -EReal.coe_mul]; norm_num

namespace Law

/-! ## Sums and maxima of real numbers inside the extended reals -/

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real strictly between the infinities is a real number. -/
theorem real_of_bounds {y : EReal} (h1 : ⊥ < y) (h2 : y < ⊤) : ∃ r : ℝ, y = (r : EReal) :=
  ⟨y.toReal, (EReal.coe_toReal h2.ne h1.ne').symm⟩

/-- A maximum from -∞ over entries none of which is +∞ and one of which is not -∞ is a real number. -/
theorem fold_max_real {ι : Type} (s : Finset ι) (f : ι → EReal) (hf : ∀ i ∈ s, f i ≠ ⊤)
    {i0 : ι} (hi0 : i0 ∈ s) (h0 : f i0 ≠ ⊥) : ∃ r : ℝ, s.fold max ⊥ f = (r : EReal) := by
  refine real_of_bounds ?_ ?_
  · exact (Finset.lt_fold_max _).mpr (Or.inr ⟨i0, hi0, bot_lt_iff_ne_bot.mpr h0⟩)
  · exact (Finset.fold_max_lt _).mpr ⟨bot_lt_top, fun i hi => lt_top_iff_ne_top.mpr (hf i hi)⟩

/-- A score of finite queries and keys is a real number. -/
theorem score_real {q k : Arr3} (hq : Finite3 q) (hk : Finite3 k) (b : Fin 8) (t s : Fin 2048) :
    ∃ r : ℝ, score q k b t s = (r : EReal) := by
  choose qr hqr using hq
  choose kr hkr using hk
  refine ⟨(∑ d : Fin 1024, qr b t d * kr b s d) * (1 / 32), ?_⟩
  unfold score
  rw [cScale_eq, EReal.coe_mul, ← coe_sum]
  congr 1
  refine Finset.sum_congr rfl (fun d _ => ?_)
  rw [hqr, hkr, EReal.coe_mul]

/-! ## One row: weights, shifts, and the three maxima -/

/-- The unshifted weight of key position s in row t: e^{x_s} on and below the diagonal, 0 above it. -/
def wgt (x : Fin 2048 → ℝ) (t s : Fin 2048) : ℝ := if s.val ≤ t.val then Real.exp (x s) else 0

theorem wgt_nonneg (x : Fin 2048 → ℝ) (t s : Fin 2048) : 0 ≤ wgt x t s := by
  unfold wgt
  split_ifs
  · exact (Real.exp_pos _).le
  · exact le_rfl

/-- Position 0 is unmasked in every row, so the weights of a row have a positive sum. -/
theorem wgt_sum_pos (x : Fin 2048 → ℝ) (t : Fin 2048) : 0 < ∑ s : Fin 2048, wgt x t s := by
  refine Finset.sum_pos' (fun s _ => wgt_nonneg x t s) ⟨⟨0, by omega⟩, Finset.mem_univ _, ?_⟩
  unfold wgt
  rw [if_pos (Nat.zero_le _)]
  exact Real.exp_pos _

section Row

variable {q k : Arr3} {b : Fin 8} {t : Fin 2048} {x : Fin 2048 → ℝ}

/-- After any real shift M, the exponential of a causal score is its weight times e^{-M}. -/
theorem exp_wei_sub (hx : ∀ s, score q k b t s = (x s : EReal)) (M : ℝ) (s : Fin 2048) :
    Ideal.exp (wei q k b t s - (M : EReal)) = ((wgt x t s * Real.exp (-M) : ℝ) : EReal) := by
  unfold wei wgt
  by_cases h : s.val ≤ t.val
  · rw [if_pos h, if_pos h, hx, ← EReal.coe_sub, Ideal.exp_coe, sub_eq_add_neg, Real.exp_add]
  · rw [if_neg h, if_neg h, EReal.bot_sub, Ideal.exp_bot, zero_mul, EReal.coe_zero]

theorem wei_ne_top (hx : ∀ s, score q k b t s = (x s : EReal)) (s : Fin 2048) : wei q k b t s ≠ ⊤ := by
  unfold wei
  split_ifs
  · rw [hx]; exact EReal.coe_ne_top _
  · exact bot_ne_top

theorem wei_zero_ne_bot (hx : ∀ s, score q k b t s = (x s : EReal)) {s : Fin 2048} (hs : s.val = 0) :
    wei q k b t s ≠ ⊥ := by
  unfold wei
  rw [if_pos (by omega), hx]
  exact EReal.coe_ne_bot _

/-- The first tile's maximum is a real number. -/
theorem m0_real (hx : ∀ s, score q k b t s = (x s : EReal)) : ∃ M0 : ℝ, m0 q k b t = (M0 : EReal) := by
  unfold m0
  refine fold_max_real _ _ (fun j _ => wei_ne_top hx _) (Finset.mem_univ (0 : Fin 1024)) ?_
  exact wei_zero_ne_bot hx (by simp [tileIdx])

/-- The maximum after the second tile is a real number. -/
theorem m1_real (hx : ∀ s, score q k b t s = (x s : EReal)) : ∃ M1 : ℝ, m1 q k b t = (M1 : EReal) := by
  obtain ⟨M0, hM0⟩ := m0_real hx
  unfold m1
  refine real_of_bounds ?_ ?_
  · rw [hM0]; exact lt_max_of_lt_left (EReal.bot_lt_coe _)
  · rw [hM0]
    refine max_lt (EReal.coe_lt_top _) ?_
    exact (Finset.fold_max_lt _).mpr ⟨bot_lt_top, fun j _ => lt_top_iff_ne_top.mpr (wei_ne_top hx _)⟩

/-- The whole row's maximum is a real number. -/
theorem rmax_real (hx : ∀ s, score q k b t s = (x s : EReal)) : ∃ R : ℝ, rmax q k b t = (R : EReal) := by
  unfold rmax
  rw [max_bot_left]
  exact fold_max_real _ _ (fun s _ => wei_ne_top hx s) (Finset.mem_univ (⟨0, by omega⟩ : Fin 2048))
    (wei_zero_ne_bot hx rfl)

end Row

/-! ## The two tiles cover the row -/

/-- A sum over the 2048 key positions is the sum over tile 0 plus the sum over tile 1. -/
theorem sum_tiles (F : Fin 2048 → ℝ) :
    ∑ s : Fin 2048, F s = ∑ j : Fin 1024, F (tileIdx 0 j) + ∑ j : Fin 1024, F (tileIdx 1 j) := by
  refine (Fin.sum_univ_add (a := 1024) (b := 1024) F).trans ?_
  congr 1

/-- In a row below 1024 every position of tile 1 is masked. -/
theorem wgt_tile1_zero (x : Fin 2048 → ℝ) {t : Fin 2048} (ht : t.val < 1024) (j : Fin 1024) :
    wgt x t (tileIdx 1 j) = 0 := by
  unfold wgt
  rw [if_neg]
  simp [tileIdx]
  omega

section Row

variable {q k v : Arr3} {b : Fin 8} {t : Fin 2048} {h : Fin 1024} {x vr : Fin 2048 → ℝ}

/-- The sum of a tile's shifted exponentials: the tile's weights times e^{-M}. -/
theorem tile_l (hx : ∀ s, score q k b t s = (x s : EReal)) (M : ℝ) (ki : Fin 2) :
    ∑ j : Fin 1024, Ideal.exp (sT q k b t ki j - (M : EReal))
      = (((∑ j : Fin 1024, wgt x t (tileIdx ki j)) * Real.exp (-M) : ℝ) : EReal) := by
  rw [Finset.sum_mul, ← coe_sum]
  exact Finset.sum_congr rfl (fun j _ => exp_wei_sub hx M (tileIdx ki j))

/-- The sum of a tile's shifted exponentials against the value rows. -/
theorem tile_acc (hx : ∀ s, score q k b t s = (x s : EReal)) (hv : ∀ s, v b s h = (vr s : EReal)) (M : ℝ)
    (ki : Fin 2) :
    ∑ j : Fin 1024, Ideal.exp (sT q k b t ki j - (M : EReal)) * v b (tileIdx ki j) h
      = (((∑ j : Fin 1024, wgt x t (tileIdx ki j) * vr (tileIdx ki j)) * Real.exp (-M) : ℝ) : EReal) := by
  rw [Finset.sum_mul, ← coe_sum]
  refine Finset.sum_congr rfl (fun j _ => ?_)
  rw [show sT q k b t ki j = wei q k b t (tileIdx ki j) from rfl, exp_wei_sub hx, hv, ← EReal.coe_mul]
  congr 1
  ring

end Row

/-! ## Quotients of shifted sums, over the reals -/

theorem quot_term (w e B u : ℝ) (he : e ≠ 0) (hB : B ≠ 0) : w * e * (1 / (B * e)) * u = w * u / B := by
  field_simp

theorem quot_whole (A e B : ℝ) (he : e ≠ 0) (hB : B ≠ 0) : A * e * (1 / (B * e)) = A / B := by
  field_simp

/-- Rescaling what the first tile left by e^{M0 - M1} puts both tiles at the shift M1. -/
theorem two_tiles (A0 A1 E e0 e1 : ℝ) (hE : E * e0 = e1) : E * (A0 * e0) + A1 * e1 = (A0 + A1) * e1 := by
  rw [← hE]; ring

theorem exp_rescale (M0 M1 : ℝ) : Real.exp (M0 - M1) * Real.exp (-M0) = Real.exp (-M1) := by
  rw [← Real.exp_add]; congr 1; ring

section Row

variable {q k v : Arr3} {b : Fin 8} {t : Fin 2048} {h : Fin 1024} {x vr : Fin 2048 → ℝ}

/-! ## The whole-row form -/

/-- Whole-row attention is the quotient of the weighted sum by the sum of the weights. -/
theorem attn_row (hx : ∀ s, score q k b t s = (x s : EReal)) (hv : ∀ s, v b s h = (vr s : EReal)) :
    attn q k v b t h
      = (((∑ s : Fin 2048, wgt x t s * vr s) / (∑ s : Fin 2048, wgt x t s) : ℝ) : EReal) := by
  obtain ⟨R, hR⟩ := rmax_real hx
  have hB := wgt_sum_pos x t
  have he : Real.exp (-R) ≠ 0 := Real.exp_ne_zero _
  have hL : lsum q k b t = (((∑ s : Fin 2048, wgt x t s) * Real.exp (-R) : ℝ) : EReal) := by
    unfold lsum ew
    rw [hR, zero_add, Finset.sum_mul, ← coe_sum]
    exact Finset.sum_congr rfl (fun s _ => exp_wei_sub hx R s)
  have hterm : ∀ s : Fin 2048, Ideal.div (ew q k b t s) (lsum q k b t) * v b s h
      = ((wgt x t s * vr s / (∑ s : Fin 2048, wgt x t s) : ℝ) : EReal) := by
    intro s
    rw [hL, Ideal.div_coe (mul_ne_zero hB.ne' he), ew, hR, exp_wei_sub hx, hv, ← EReal.coe_mul, ← EReal.coe_mul,
      quot_term _ _ _ _ he hB.ne']
  unfold attn
  rw [Finset.sum_congr rfl (fun s _ => hterm s), coe_sum, Finset.sum_div]

/-! ## The tiled form -/

theorem l0_eq (hx : ∀ s, score q k b t s = (x s : EReal)) {M0 : ℝ} (hM0 : m0 q k b t = (M0 : EReal)) :
    l0 q k b t = (((∑ j : Fin 1024, wgt x t (tileIdx 0 j)) * Real.exp (-M0) : ℝ) : EReal) := by
  unfold l0
  rw [hM0, tile_l hx M0 0]

theorem acc0_eq (hx : ∀ s, score q k b t s = (x s : EReal)) (hv : ∀ s, v b s h = (vr s : EReal)) {M0 : ℝ}
    (hM0 : m0 q k b t = (M0 : EReal)) :
    acc0 q k v b t h
      = (((∑ j : Fin 1024, wgt x t (tileIdx 0 j) * vr (tileIdx 0 j)) * Real.exp (-M0) : ℝ) : EReal) := by
  unfold acc0
  rw [hM0, tile_acc hx hv M0 0]

theorem a1_eq {M0 M1 : ℝ} (hM0 : m0 q k b t = (M0 : EReal)) (hM1 : m1 q k b t = (M1 : EReal)) :
    a1 q k b t = ((Real.exp (M0 - M1) : ℝ) : EReal) := by
  unfold a1
  rw [hM0, hM1, ← EReal.coe_sub, Ideal.exp_coe]

theorem l1_eq (hx : ∀ s, score q k b t s = (x s : EReal)) {M0 M1 : ℝ} (hM0 : m0 q k b t = (M0 : EReal))
    (hM1 : m1 q k b t = (M1 : EReal)) :
    l1 q k b t = (((∑ s : Fin 2048, wgt x t s) * Real.exp (-M1) : ℝ) : EReal) := by
  unfold l1
  rw [a1_eq hM0 hM1, l0_eq hx hM0, hM1, tile_l hx M1 1, ← EReal.coe_mul, ← EReal.coe_add,
    two_tiles _ _ _ _ _ (exp_rescale M0 M1), ← sum_tiles (fun s => wgt x t s)]

theorem acc1_eq (hx : ∀ s, score q k b t s = (x s : EReal)) (hv : ∀ s, v b s h = (vr s : EReal)) {M0 M1 : ℝ}
    (hM0 : m0 q k b t = (M0 : EReal)) (hM1 : m1 q k b t = (M1 : EReal)) :
    acc1 q k v b t h = (((∑ s : Fin 2048, wgt x t s * vr s) * Real.exp (-M1) : ℝ) : EReal) := by
  unfold acc1
  rw [a1_eq hM0 hM1, acc0_eq hx hv hM0, hM1, tile_acc hx hv M1 1, ← EReal.coe_mul, ← EReal.coe_add,
    two_tiles _ _ _ _ _ (exp_rescale M0 M1), ← sum_tiles (fun s => wgt x t s * vr s)]

/-- A row that reaches into the second tile. -/
theorem kout_hi (hx : ∀ s, score q k b t s = (x s : EReal)) (hv : ∀ s, v b s h = (vr s : EReal))
    (ht : ¬ t.val < 1024) :
    kout q k v b t h
      = (((∑ s : Fin 2048, wgt x t s * vr s) / (∑ s : Fin 2048, wgt x t s) : ℝ) : EReal) := by
  obtain ⟨M0, hM0⟩ := m0_real hx
  obtain ⟨M1, hM1⟩ := m1_real hx
  have hB := wgt_sum_pos x t
  have he : Real.exp (-M1) ≠ 0 := Real.exp_ne_zero _
  unfold kout
  rw [if_neg ht, l1_eq hx hM0 hM1, acc1_eq hx hv hM0 hM1, Ideal.div_coe (mul_ne_zero hB.ne' he), ← EReal.coe_mul,
    quot_whole _ _ _ he hB.ne']

/-- A row below 1024: the second tile is all masked, so the first tile's sums are the row's. -/
theorem kout_lo (hx : ∀ s, score q k b t s = (x s : EReal)) (hv : ∀ s, v b s h = (vr s : EReal))
    (ht : t.val < 1024) :
    kout q k v b t h
      = (((∑ s : Fin 2048, wgt x t s * vr s) / (∑ s : Fin 2048, wgt x t s) : ℝ) : EReal) := by
  obtain ⟨M0, hM0⟩ := m0_real hx
  have hB := wgt_sum_pos x t
  have he : Real.exp (-M0) ≠ 0 := Real.exp_ne_zero _
  have hB0 : ∑ j : Fin 1024, wgt x t (tileIdx 0 j) = ∑ s : Fin 2048, wgt x t s := by
    rw [sum_tiles (fun s => wgt x t s), Finset.sum_eq_zero (fun j _ => wgt_tile1_zero x ht j), add_zero]
  have hA1 : ∑ j : Fin 1024, wgt x t (tileIdx 1 j) * vr (tileIdx 1 j) = 0 :=
    Finset.sum_eq_zero (fun j _ => by rw [wgt_tile1_zero x ht j, zero_mul])
  have hA0 : ∑ j : Fin 1024, wgt x t (tileIdx 0 j) * vr (tileIdx 0 j) = ∑ s : Fin 2048, wgt x t s * vr s := by
    rw [sum_tiles (fun s => wgt x t s * vr s), hA1, add_zero]
  unfold kout
  rw [if_pos ht, l0_eq hx hM0, acc0_eq hx hv hM0, hB0, hA0, Ideal.div_coe (mul_ne_zero hB.ne' he), ← EReal.coe_mul,
    quot_whole _ _ _ he hB.ne']

end Row

end Law

open Law

/-! ## The projection of finite arrays is finite -/

theorem proj_finite {x : Arr3} {W : Mat} (hx : Finite3 x) (hW : FiniteM W) : Finite3 (proj x W) := by
  choose xr hxr using hx
  choose Wr hWr using hW
  intro b t h
  refine ⟨∑ c : Fin 1024, xr b t c * Wr h c, ?_⟩
  unfold proj
  rw [← coe_sum]
  refine Finset.sum_congr rfl (fun c _ => ?_)
  rw [hxr, hWr, EReal.coe_mul]

/-! ## The two forms agree -/

theorem kout_eq_attn {q k v : Arr3} (hq : Finite3 q) (hk : Finite3 k) (hv : Finite3 v) :
    kout q k v = attn q k v := by
  funext b t h
  choose x hx using fun s => score_real hq hk b t s
  choose vr hvr using fun s => hv b s h
  rw [attn_row hx hvr]
  by_cases ht : t.val < 1024
  · exact kout_lo hx hvr ht
  · exact kout_hi hx hvr ht

end Cert.Spec

end
-- ==== Proof.Finite.lean ====
/-
  The precondition "every float input is finite", read back: each of the four argument arrays of the
  projection-then-attention program holds a real number at every index.  The predicate is the conjunction of
  four "all |x| < +∞" tests; a conjunction of one-bit words that is 1 has every conjunct 1, a reduction by
  "and" over all axes that is 1 met a 1 at every index, and an extended real whose absolute value is below
  +∞ is neither infinity.
-/
import proofs.«418402_j22917945491929_3_alg».proof.Defs
import proofs.«418402_j22917945491929_3_alg».proof.Proof.Gen.Pre_finite_inputs
import Idealize.ShloMosaic.Lib.ReduceAll
import Idealize.ShloMosaic.Lib.ValueIdx
import Idealize.ShloMosaic.PureOps.Ideal.Laws

namespace Cert.Proof.Fin

open Idealize.ShloMosaic

/-- The rank-0 shape has exactly one index. -/
instance subsingleton_scalar_idx : Subsingleton Cert.Pre_finite_inputs.S_.Idx :=
  ⟨fun a b => funext fun d => d.elim0⟩

/-- The f32 pattern 0x7F800000 is +∞. -/
theorem inf_bits : Ideal.ofBits .f32 0x7F800000#32 = (⊤ : EReal) := by
  simp [Ideal.ofBits, Ideal.ieee]

/-- An extended real with max x (−x) < +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of "|x| < +∞" being 1 says x is a real number. -/
theorem real_of_word (x : EReal)
    (e : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  apply real_of_abs_lt_top
  have e' : Ideal.cmp .olt (max x (-x)) (Ideal.ofBits .f32 0x7F800000#32) = 1#1 := e
  rw [inf_bits] at e'
  unfold Ideal.cmp at e'
  by_contra hn
  simp [hn] at e'

/-- One "all |x| < +∞" test that came out 1: every entry of the array is a real number. -/
theorem real_of_all {s : Shape} {axes : List (Fin s.rank)}
    (x : FVec Ideal s .f32) (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) := by
  have h1 := Host.reduce_andi_all _ _ hr hu ValueIdx.ix0 e i
  exact real_of_word (x i) h1

section Generic

variable [Cert.Pre_finite_inputs.Facts]

/-- The whole predicate, generic in the four arrays. -/
theorem finite_of_fn (x0 : FVec Ideal Cert.Pre_finite_inputs.S8x2048x1024 .f32)
    (x1 x2 x3 : FVec Ideal Cert.Pre_finite_inputs.S1024x1024 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_all x0 _ _ _ h0' i, fun i => real_of_all x1 _ _ _ h1 i,
    fun i => real_of_all x2 _ _ _ h2 i, fun i => real_of_all x3 _ _ _ h3 i⟩

end Generic

section Program

variable [Cert.KernelIdeal.Facts] [Cert.Pre_finite_inputs.Facts]

/-- Under the precondition every entry of every argument array is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, (m ((c.tc : Thread Cert.KernelIdeal.nD Cert.KernelIdeal.τ).loc Cert.KernelIdeal.main_arg0) : FVec Ideal Cert.Pre_finite_inputs.S8x2048x1024 .f32) i = (r : EReal))
    ∧ (∀ i, ∃ r : ℝ, (m ((c.tc : Thread Cert.KernelIdeal.nD Cert.KernelIdeal.τ).loc Cert.KernelIdeal.main_arg1) : FVec Ideal Cert.Pre_finite_inputs.S1024x1024 .f32) i = (r : EReal))
    ∧ (∀ i, ∃ r : ℝ, (m ((c.tc : Thread Cert.KernelIdeal.nD Cert.KernelIdeal.τ).loc Cert.KernelIdeal.main_arg2) : FVec Ideal Cert.Pre_finite_inputs.S1024x1024 .f32) i = (r : EReal))
    ∧ (∀ i, ∃ r : ℝ, (m ((c.tc : Thread Cert.KernelIdeal.nD Cert.KernelIdeal.τ).loc Cert.KernelIdeal.main_arg3) : FVec Ideal Cert.Pre_finite_inputs.S1024x1024 .f32) i = (r : EReal)) :=
  finite_of_fn _ _ _ _ (h c)

end Program

end Cert.Proof.Fin
-- ==== Proof.lean ====
/-
  The certificate of the two-call attention program against softmax attention.

  The program projects `x` onto the three stacked weight matrices in one call (row tiles of 512), and in a second call
  computes causal attention tile by tile: for each batch and each tile of 512 query rows it walks the two key tiles of
  1024, keeping per row a running maximum, a running sum of exponentials and a running weighted sum of value rows
  (rescaled by `exp (old maximum - new maximum)` whenever the maximum moves), skips a key tile that lies wholly above the
  diagonal, and at the last key tile divides the weighted sum by the sum. The reference forms the three projections, the
  scaled scores, masks them above the diagonal with `-∞`, and applies a whole-row softmax and the product with the values.

  Frames: each program runs to the end, faults nowhere, and leaves the four argument arrays as launched (the two kernel
  programs by the run of their segments, the reference by its run read back).
  Sanctioned idealization: the one rewrite is the finite stand-in for `-∞` in the causal mask, named `⊥`.
  Equivalence over the extended reals: the kernel's result array is, index by index, the tiled formula `kout` of the three
  projections; on finite inputs the projections are finite and `kout` is `attn` (a softmax quotient does not depend on the
  shift subtracted in the exponent, and the masked terms vanish on both sides); the reference's result is `attn` of the
  same projections, its scale `1024 ^ (-1/2)` being the kernel's `1/32`.
-/
import proofs.«418402_j22917945491929_3_alg».proof.Defs
import proofs.«418402_j22917945491929_3_alg».proof.Proof.Gen.Kernel
import proofs.«418402_j22917945491929_3_alg».proof.Proof.Gen.KernelIdeal
import proofs.«418402_j22917945491929_3_alg».proof.Proof.Gen.ReferenceIdeal
import proofs.«418402_j22917945491929_3_alg».proof.Proof.Gen.Pre_finite_inputs
import proofs.«418402_j22917945491929_3_alg».proof.Proof.KRun
import proofs.«418402_j22917945491929_3_alg».proof.Proof.KiRun
import proofs.«418402_j22917945491929_3_alg».proof.Proof.KiVal0
import proofs.«418402_j22917945491929_3_alg».proof.Proof.KiVal1
import proofs.«418402_j22917945491929_3_alg».proof.Proof.RefVal
import proofs.«418402_j22917945491929_3_alg».proof.Proof.Law
import proofs.«418402_j22917945491929_3_alg».proof.Proof.Finite
import Idealize.ShloMosaic.Adequacy
import Idealize.ShloMosaic.Init

noncomputable section

namespace Cert.Proof

open Idealize.ShloMosaic Idealize.ShloMosaic.TcCoe Idealize.SL.Sem ValueIdx Cert.Spec

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result at an index: the tiled formula of the three projections of the arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (i : Cert.KernelIdeal.S8x2048x1024.Idx) :
    (Cert.KernelIdeal.Hand.B4 m ρ c (Proc.devRef .tc Cert.KernelIdeal.main_v8) : Cert.KernelIdeal.S8x2048x1024.Idx → EReal) i
      = kout (proj (Cert.KernelIdeal.Val0.arr3 (m ((c.tc : Thread Cert.KernelIdeal.nD Cert.KernelIdeal.τ).loc Cert.KernelIdeal.main_arg0))) (Cert.KernelIdeal.Val0.mat (m ((c.tc : Thread Cert.KernelIdeal.nD Cert.KernelIdeal.τ).loc Cert.KernelIdeal.main_arg1))))
             (proj (Cert.KernelIdeal.Val0.arr3 (m ((c.tc : Thread Cert.KernelIdeal.nD Cert.KernelIdeal.τ).loc Cert.KernelIdeal.main_arg0))) (Cert.KernelIdeal.Val0.mat (m ((c.tc : Thread Cert.KernelIdeal.nD Cert.KernelIdeal.τ).loc Cert.KernelIdeal.main_arg2))))
             (proj (Cert.KernelIdeal.Val0.arr3 (m ((c.tc : Thread Cert.KernelIdeal.nD Cert.KernelIdeal.τ).loc Cert.KernelIdeal.main_arg0))) (Cert.KernelIdeal.Val0.mat (m ((c.tc : Thread Cert.KernelIdeal.nD Cert.KernelIdeal.τ).loc Cert.KernelIdeal.main_arg3))))
             (i 0) (i 1) (i 2) := by
  rw [Cert.KernelIdeal.Hand.result_v8, Cert.KernelIdeal.Val1.attn_arr]
  show kout (Cert.KernelIdeal.Val1.arrQ _ c) (Cert.KernelIdeal.Val1.arrK _ c) (Cert.KernelIdeal.Val1.arrV _ c) (i 0) (i 1) (i 2) = _
  rw [show Cert.KernelIdeal.Val1.arrQ (Cert.KernelIdeal.Hand.E3 m ρ) c = _ from Cert.KernelIdeal.Val0.q_entry m ρ c,
    show Cert.KernelIdeal.Val1.arrK (Cert.KernelIdeal.Hand.E3 m ρ) c = _ from Cert.KernelIdeal.Val0.k_entry m ρ c,
    show Cert.KernelIdeal.Val1.arrV (Cert.KernelIdeal.Hand.E3 m ρ) c = _ from Cert.KernelIdeal.Val0.v_entry m ρ c]

/-- The ledger's one entry: the table gives `"neg_big"` the value `⊥`. -/
theorem preserves : Cert.preserves_Kernel_KernelIdeal :=
  IdealRules.named_const.statement Cert.KernelIdeal.κ "neg_big" .f32 0xF149F2CA#32 ⊥ rfl

/-- At the ideal instance, from memories agreeing on the arguments, both programs run, the kernel program's result array
    and the reference's hold the same extended reals, and the arguments end unchanged. -/
theorem algebraic : Cert.algebraic_KernelIdeal_ReferenceIdeal := by
  intro m ρ m' ρ' hpre hagree
  refine ⟨fun c => Cert.KernelIdeal.Hand.B4 m ρ c (Proc.devRef .tc Cert.KernelIdeal.main_v8), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v8 (by decide)),
      (h c _ (Cert.KernelIdeal.Hand.mem_uc Cert.KernelIdeal.main_arg0 (by decide))).trans (Cert.KernelIdeal.Hand.B4_arg m ρ c Cert.KernelIdeal.main_arg0 (by decide) (by decide) (by decide) (by decide)),
      (h c _ (Cert.KernelIdeal.Hand.mem_uc Cert.KernelIdeal.main_arg1 (by decide))).trans (Cert.KernelIdeal.Hand.B4_arg m ρ c Cert.KernelIdeal.main_arg1 (by decide) (by decide) (by decide) (by decide)),
      (h c _ (Cert.KernelIdeal.Hand.mem_uc Cert.KernelIdeal.main_arg2 (by decide))).trans (Cert.KernelIdeal.Hand.B4_arg m ρ c Cert.KernelIdeal.main_arg2 (by decide) (by decide) (by decide) (by decide)),
      (h c _ (Cert.KernelIdeal.Hand.mem_uc Cert.KernelIdeal.main_arg3 (by decide))).trans (Cert.KernelIdeal.Hand.B4_arg m ρ c Cert.KernelIdeal.main_arg3 (by decide) (by decide) (by decide) (by decide))⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v21_eq, (hagree c).1, (hagree c).2.1, (hagree c).2.2.1, (hagree c).2.2.2]
    funext i
    obtain ⟨f0, f1, f2, f3⟩ := Cert.Proof.Fin.finite_of_pre m hpre c
    have hx : Finite3 (Cert.KernelIdeal.Val0.arr3 (m ((c.tc : Thread Cert.KernelIdeal.nD Cert.KernelIdeal.τ).loc Cert.KernelIdeal.main_arg0))) :=
      fun b t e => f0 (ix3 b t e)
    have h1 : FiniteM (Cert.KernelIdeal.Val0.mat (m ((c.tc : Thread Cert.KernelIdeal.nD Cert.KernelIdeal.τ).loc Cert.KernelIdeal.main_arg1))) := fun a e => f1 (ix2 a e)
    have h2 : FiniteM (Cert.KernelIdeal.Val0.mat (m ((c.tc : Thread Cert.KernelIdeal.nD Cert.KernelIdeal.τ).loc Cert.KernelIdeal.main_arg2))) := fun a e => f2 (ix2 a e)
    have h3 : FiniteM (Cert.KernelIdeal.Val0.mat (m ((c.tc : Thread Cert.KernelIdeal.nD Cert.KernelIdeal.τ).loc Cert.KernelIdeal.main_arg3))) := fun a e => f3 (ix2 a e)
    have hk := kernel_value m ρ c i
    rw [kout_eq_attn (proj_finite hx h1) (proj_finite hx h2) (proj_finite hx h3)] at hk
    exact (Cert.ReferenceIdeal.RefValue.ref_eq_attn _ _ _ _ i).trans hk.symm

/-- The claim: the five conjuncts under the programs' stated facts. -/
theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
